-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v93)) (v1 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_v104) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v104) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x64 : Shape := ⟨2, ![4096, 64]⟩
abbrev S10000 : Shape := ⟨1, ![10000]⟩
abbrev S10000x128 : Shape := ⟨2, ![10000, 128]⟩
abbrev S8640x2048 : Shape := ⟨2, ![8640, 2048]⟩
abbrev S2048 : Shape := ⟨1, ![2048]⟩
abbrev S2048x2048 : Shape := ⟨2, ![2048, 2048]⟩
abbrev S2048x64 : Shape := ⟨2, ![2048, 64]⟩
abbrev S64 : Shape := ⟨1, ![64]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S10000 : S_.BroadcastsInDim S10000 (![] : Fin 0 → Fin S10000.rank)
  reducesTo_S10000_S_d0 : S10000.ReducesTo [0] S_
  bcast_S_S10000x128 : S_.BroadcastsInDim S10000x128 (![] : Fin 0 → Fin S10000x128.rank)
  reducesTo_S10000x128_S_d0_1 : S10000x128.ReducesTo [0, 1] S_
  bcast_S_S8640x2048 : S_.BroadcastsInDim S8640x2048 (![] : Fin 0 → Fin S8640x2048.rank)
  reducesTo_S8640x2048_S_d0_1 : S8640x2048.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048x64 : S_.BroadcastsInDim S2048x64 (![] : Fin 0 → Fin S2048x64.rank)
  reducesTo_S2048x64_S_d0_1 : S2048x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S64 .f32) (main_v48 : IVec S_ 1) (main_v49 : FVec F S2048x64 .f32) (main_v50 : FVec F S2048x64 .f32) : IVec S_ 1 :=
  let main_v51 : IVec S2048x64 1 := cmpf .olt main_v49 main_v50
  let main_c_19 : IVec S_ 1 := constantI S_ 1 1#1
  let main_v52 : IVec S_ 1 := (fun x v => Host.reduce IntOp.andi x v reducesTo_S2048x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg8 : FVec F S2048 .f32) (main_arg9 : FVec F S2048x2048 .f32) (main_arg10 : FVec F S2048 .f32) (main_arg11 : FVec F S2048x64 .f32) (main_arg12 : FVec F S64 .f32) (main_v33 : IVec S_ 1) : IVec S_ 1 :=
  let main_v34 : FVec F S2048 .f32 := Host.absf main_arg8
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x2048 .f32 := Host.absf main_arg9
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048 .f32 := Host.absf main_arg10
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048x64 .f32 := Host.absf main_arg11
  let main_cst_18 : FVec F S_ .f32 := constant S_ .f32 0x7F800000#32
  let main_v50 : FVec F S2048x64 .f32 := broadcastInDim S2048x64 ![] bcast_S_S2048x64 main_cst_18
  fn_part3 (F := F) main_arg12 main_v48 main_v49 main_v50

def fn_part1 {F : FTy → Type} [FloatOps F] (main_arg5 : FVec F S8640x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x64 .f32) (main_arg12 : FVec F S64 .f32) (main_v13 : IVec S_ 1) (main_v16 : IVec S10000x128 1) : IVec S_ 1 :=
  let main_c_5 : IVec S_ 1 := constantI S_ 1 1#1
  let main_v17 : IVec S_ 1 := (fun x v => Host.reduce IntOp.andi x v reducesTo_S10000x128_S_d0_1 h_S_) main_v16 main_c_5
  let main_v18 : IVec S_ 1 := andi main_v13 main_v17
  let main_v19 : FVec F S8640x2048 .f32 := Host.absf main_arg5
  let main_cst_6 : FVec F S_ .f32 := constant S_ .f32 0x7F800000#32
  let main_v20 : FVec F S8640x2048 .f32 := broadcastInDim S8640x2048 ![] bcast_S_S8640x2048 main_cst_6
  let main_v21 : IVec S8640x2048 1 := cmpf .olt main_v19 main_v20
  let main_c_7 : IVec S_ 1 := constantI S_ 1 1#1
  let main_v22 : IVec S_ 1 := (fun x v => Host.reduce IntOp.andi x v reducesTo_S8640x2048_S_d0_1 h_S_) main_v21 main_c_7
  let main_v23 : IVec S_ 1 := andi main_v18 main_v22
  let main_v24 : FVec F S2048 .f32 := Host.absf main_arg6
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x2048 .f32 := Host.absf main_arg7
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S4096x128 .f32) (main_arg1 : IVec S4096x64 32) (main_arg2 : FVec F S4096x64 .f32) (main_arg3 : FVec F S10000 .f32) (main_arg4 : FVec F S10000x128 .f32) (main_arg5 : FVec F S8640x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x64 .f32) (main_arg12 : FVec F S64 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x64 .f32 := Host.absf main_arg2
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S10000 .f32 := Host.absf main_arg3
  let main_cst_2 : FVec F S_ .f32 := constant S_ .f32 0x7F800000#32
  let main_v10 : FVec F S10000 .f32 := broadcastInDim S10000 ![] bcast_S_S10000 main_cst_2
  let main_v11 : IVec S10000 1 := cmpf .olt main_v9 main_v10
  let main_c_3 : IVec S_ 1 := constantI S_ 1 1#1
  let main_v12 : IVec S_ 1 := (fun x v => Host.reduce IntOp.andi x v reducesTo_S10000_S_d0 h_S_) main_v11 main_c_3
  let main_v13 : IVec S_ 1 := andi main_v8 main_v12
  let main_v14 : FVec F S10000x128 .f32 := Host.absf main_arg4
  let main_cst_4 : FVec F S_ .f32 := constant S_ .f32 0x7F800000#32
  let main_v15 : FVec F S10000x128 .f32 := broadcastInDim S10000x128 ![] bcast_S_S10000x128 main_cst_4
  let main_v16 : IVec S10000x128 1 := cmpf .olt main_v14 main_v15
  fn_part1 (F := F) main_arg5 main_arg6 main_arg7 main_arg8 main_arg9 main_arg10 main_arg11 main_arg12 main_v13 main_v16
-- ==== Kernel.lean ====
abbrev S4096x128 : Shape := ⟨2, ![4096, 128]⟩
abbrev S4096x64 : Shape := ⟨2, ![4096, 64]⟩
abbrev S10000 : Shape := ⟨1, ![10000]⟩
abbrev S10000x128 : Shape := ⟨2, ![10000, 128]⟩
abbrev S8640x2048 : Shape := ⟨2, ![8640, 2048]⟩
abbrev S2048 : Shape := ⟨1, ![2048]⟩
abbrev S2048x2048 : Shape := ⟨2, ![2048, 2048]⟩
abbrev S2048x64 : Shape := ⟨2, ![2048, 64]⟩
abbrev S64 : Shape := ⟨1, ![64]⟩
abbrev S_ : Shape := ⟨0, ![]⟩
abbrev S4096x64x1 : Shape := ⟨3, ![4096, 64, 1]⟩
abbrev S4096x64x128 : Shape := ⟨3, ![4096, 64, 128]⟩
abbrev S4096x1x128 : Shape := ⟨3, ![4096, 1, 128]⟩
abbrev S4096 : Shape := ⟨1, ![4096]⟩
abbrev S4096x1 : Shape := ⟨2, ![4096, 1]⟩
abbrev S4096x64x4 : Shape := ⟨3, ![4096, 64, 4]⟩
abbrev S4096x8192 : Shape := ⟨2, ![4096, 8192]⟩
abbrev S4096x256 : Shape := ⟨2, ![4096, 256]⟩
abbrev S4096x448 : Shape := ⟨2, ![4096, 448]⟩
abbrev S128x2048 : Shape := ⟨2, ![128, 2048]⟩
abbrev S8512x2048 : Shape := ⟨2, ![8512, 2048]⟩
abbrev S64x133x2048 : Shape := ⟨3, ![64, 133, 2048]⟩
abbrev S64x128x2048 : Shape := ⟨3, ![64, 128, 2048]⟩
abbrev S8192x2048 : Shape := ⟨2, ![8192, 2048]⟩
abbrev S64x4x2048 : Shape := ⟨3, ![64, 4, 2048]⟩
abbrev S256x2048 : Shape := ⟨2, ![256, 2048]⟩
abbrev S64x1x2048 : Shape := ⟨3, ![64, 1, 2048]⟩
abbrev S64x2048 : Shape := ⟨2, ![64, 2048]⟩
abbrev S448x2048 : Shape := ⟨2, ![448, 2048]⟩
abbrev S4096x2048 : Shape := ⟨2, ![4096, 2048]⟩
abbrev S2048x128 : Shape := ⟨2, ![2048, 128]⟩
abbrev S128 : Shape := ⟨1, ![128]⟩
abbrev S1x128 : Shape := ⟨2, ![1, 128]⟩
abbrev S1x2048 : Shape := ⟨2, ![1, 2048]⟩
abbrev S64x8192 : Shape := ⟨2, ![64, 8192]⟩
abbrev S512x2048 : Shape := ⟨2, ![512, 2048]⟩
abbrev S512x128 : Shape := ⟨2, ![512, 128]⟩

abbrev nBuf : Space → Nat
  | .hbm => 142
  | .vmem => 18
  | .smem => 0
  | _ => 0

abbrev hbmTy0_0 (i : Nat) : BufTy := match i % 128 with
  | 0 => ⟨S4096x128, .f32⟩
  | 1 => ⟨S4096x64, .i32⟩
  | 2 => ⟨S4096x64, .f32⟩
  | 3 => ⟨S10000, .f32⟩
  | 4 => ⟨S10000x128, .f32⟩
  | 5 => ⟨S8640x2048, .f32⟩
  | 6 => ⟨S2048, .f32⟩
  | 7 => ⟨S2048x2048, .f32⟩
  | 8 => ⟨S2048, .f32⟩
  | 9 => ⟨S2048x2048, .f32⟩
  | 10 => ⟨S2048, .f32⟩
  | 11 => ⟨S2048x64, .f32⟩
  | 12 => ⟨S64, .f32⟩
  | 13 => ⟨S_, .i32⟩
  | 14 => ⟨S4096x64, .i32⟩
  | 15 => ⟨S4096x64, .i1⟩
  | 16 => ⟨S_, .i32⟩
  | 17 => ⟨S4096x64, .i32⟩
  | 18 => ⟨S4096x64, .i32⟩
  | 19 => ⟨S4096x64, .i32⟩
  | 20 => ⟨S4096x64x1, .i32⟩
  | 21 => ⟨S4096x64x128, .f32⟩
  | 22 => ⟨S4096x1x128, .f32⟩
  | 23 => ⟨S4096x128, .f32⟩
  | 24 => ⟨S_, .f32⟩
  | 25 => ⟨S4096, .f32⟩
  | 26 => ⟨S4096x1, .f32⟩
  | 27 => ⟨S4096x64x128, .f32⟩
  | 28 => ⟨S_, .f32⟩
  | 29 => ⟨S4096x64, .f32⟩
  | 30 => ⟨S4096x64x128, .f32⟩
  | 31 => ⟨S4096x64x128, .f32⟩
  | 32 => ⟨S_, .f32⟩
  | 33 => ⟨S4096x64, .f32⟩
  | 34 => ⟨S4096x64, .f32⟩
  | 35 => ⟨S4096x64, .f32⟩
  | 36 => ⟨S_, .f32⟩
  | 37 => ⟨S4096x64, .f32⟩
  | 38 => ⟨S4096x64, .f32⟩
  | 39 => ⟨S4096x64, .f32⟩
  | 40 => ⟨S_, .f32⟩
  | 41 => ⟨S4096x64, .f32⟩
  | 42 => ⟨S4096x64, .f32⟩
  | 43 => ⟨S_, .f32⟩
  | 44 => ⟨S4096x1, .f32⟩
  | 45 => ⟨S4096x1, .f32⟩
  | 46 => ⟨S_, .f32⟩
  | 47 => ⟨S4096x64, .f32⟩
  | 48 => ⟨S4096x64, .f32⟩
  | 49 => ⟨S4096x64, .f32⟩
  | 50 => ⟨S4096x64, .f32⟩
  | 51 => ⟨S4096x64, .f32⟩
  | 52 => ⟨S_, .f32⟩
  | 53 => ⟨S4096x64, .f32⟩
  | 54 => ⟨S4096x64, .f32⟩
  | 55 => ⟨S_, .f32⟩
  | 56 => ⟨S4096x64, .f32⟩
  | 57 => ⟨S4096x64, .f32⟩
  | 58 => ⟨S4096x64, .f32⟩
  | 59 => ⟨S_, .f32⟩
  | 60 => ⟨S4096x64, .f32⟩
  | 61 => ⟨S4096x64, .f32⟩
  | 62 => ⟨S4096x64, .f32⟩
  | 63 => ⟨S4096x64, .f32⟩
  | 64 => ⟨S4096x64, .f32⟩
  | 65 => ⟨S4096x1, .f32⟩
  | 66 => ⟨S4096x64, .f32⟩
  | 67 => ⟨S4096x64, .f32⟩
  | 68 => ⟨S4096x64, .f32⟩
  | 69 => ⟨S_, .f32⟩
  | 70 => ⟨S4096x64, .f32⟩
  | 71 => ⟨S4096x64, .f32⟩
  | 72 => ⟨S4096x64, .f32⟩
  | 73 => ⟨S_, .i32⟩
  | 74 => ⟨S4096x64, .i32⟩
  | 75 => ⟨S4096x64, .i1⟩
  | 76 => ⟨S_, .i32⟩
  | 77 => ⟨S4096x64, .i32⟩
  | 78 => ⟨S4096x64, .i32⟩
  | 79 => ⟨S4096x64, .i32⟩
  | 80 => ⟨S4096x64x1, .i32⟩
  | 81 => ⟨S4096x64, .f32⟩
  | 82 => ⟨S4096x64, .f32⟩
  | 83 => ⟨S4096x64x1, .f32⟩
  | 84 => ⟨S4096x64x1, .f32⟩
  | 85 => ⟨S4096x64x1, .f32⟩
  | 86 => ⟨S4096x64x1, .f32⟩
  | 87 => ⟨S4096x64x4, .f32⟩
  | 88 => ⟨S4096x64x128, .bf16⟩
  | 89 => ⟨S4096x8192, .bf16⟩
  | 90 => ⟨S4096x256, .f32⟩
  | 91 => ⟨S4096x448, .f32⟩
  | 92 => ⟨S128x2048, .f32⟩
  | 93 => ⟨S8512x2048, .f32⟩
  | 94 => ⟨S64x133x2048, .f32⟩
  | 95 => ⟨S64x128x2048, .f32⟩
  | 96 => ⟨S8192x2048, .f32⟩
  | 97 => ⟨S8192x2048, .bf16⟩
  | 98 => ⟨S64x4x2048, .f32⟩
  | 99 => ⟨S256x2048, .f32⟩
  | 100 => ⟨S64x1x2048, .f32⟩
  | 101 => ⟨S64x2048, .f32⟩
  | 102 => ⟨S448x2048, .f32⟩
  | 103 => ⟨S4096x2048, .f32⟩
  | 104 => ⟨S2048x2048, .bf16⟩
  | 105 => ⟨S2048x2048, .bf16⟩
  | 106 => ⟨S_, .i32⟩
  | 107 => ⟨S_, .f32⟩
  | 108 => ⟨S2048x128, .f32⟩
  | 109 => ⟨S2048x128, .bf16⟩
  | 110 => ⟨S_, .i32⟩
  | 111 => ⟨S_, .f32⟩
  | 112 => ⟨S128, .f32⟩
  | 113 => ⟨S1x128, .f32⟩
  | 114 => ⟨S1x2048, .f32⟩
  | 115 => ⟨S4096x2048, .bf16⟩
  | 116 => ⟨S1x2048, .f32⟩
  | 117 => ⟨S1x2048, .f32⟩
  | 118 => ⟨S4096x128, .f32⟩
  | 119 => ⟨S4096x64, .f32⟩
  | 120 => ⟨S4096x64, .f32⟩
  | 121 => ⟨S4096x64, .f32⟩
  | 122 => ⟨S_, .f32⟩
  | 123 => ⟨S4096x64, .f32⟩
  | 124 => ⟨S4096x64, .f32⟩
  | 125 => ⟨S_, .f32⟩
  | 126 => ⟨S4096x64, .f32⟩
  | 127 => ⟨S4096x64, .f32⟩
  | _ => ⟨S4096x128, .f32⟩

abbrev hbmTy0_1 (i : Nat) : BufTy := match i % 128 with
  | 0 => ⟨S_, .f32⟩
  | 1 => ⟨S4096x64, .f32⟩
  | 2 => ⟨S4096x64, .f32⟩
  | 3 => ⟨S4096x64, .f32⟩
  | 4 => ⟨S4096x64, .f32⟩
  | 5 => ⟨S4096x64, .f32⟩
  | 6 => ⟨S4096x64, .f32⟩
  | 7 => ⟨S4096x64, .f32⟩
  | 8 => ⟨S4096x64, .f32⟩
  | 9 => ⟨S4096x64, .f32⟩
  | 10 => ⟨S_, .f32⟩
  | 11 => ⟨S_, .f32⟩
  | 12 => ⟨S_, .f32⟩
  | 13 => ⟨S_, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | .local _ .vmem, ⟨0, _⟩ => ⟨S64x8192, .bf16⟩
  | .local _ .vmem, ⟨1, _⟩ => ⟨S64x8192, .bf16⟩
  | .local _ .vmem, ⟨2, _⟩ => ⟨S64x2048, .f32⟩
  | .local _ .vmem, ⟨3, _⟩ => ⟨S64x2048, .f32⟩
  | .local _ .vmem, ⟨4, _⟩ => ⟨S8192x2048, .bf16⟩
  | .local _ .vmem, ⟨5, _⟩ => ⟨S1x2048, .f32⟩
  | .local _ .vmem, ⟨6, _⟩ => ⟨S64x2048, .bf16⟩
  | .local _ .vmem, ⟨7, _⟩ => ⟨S64x2048, .bf16⟩
  | .local _ .vmem, ⟨8, _⟩ => ⟨S512x2048, .bf16⟩
  | .local _ .vmem, ⟨9, _⟩ => ⟨S512x2048, .bf16⟩
  | .local _ .vmem, ⟨10, _⟩ => ⟨S2048x2048, .bf16⟩
  | .local _ .vmem, ⟨11, _⟩ => ⟨S1x2048, .f32⟩
  | .local _ .vmem, ⟨12, _⟩ => ⟨S2048x2048, .bf16⟩
  | .local _ .vmem, ⟨13, _⟩ => ⟨S1x2048, .f32⟩
  | .local _ .vmem, ⟨14, _⟩ => ⟨S2048x128, .bf16⟩
  | .local _ .vmem, ⟨15, _⟩ => ⟨S1x128, .f32⟩
  | .local _ .vmem, ⟨16, _⟩ => ⟨S512x128, .f32⟩
  | .local _ .vmem, ⟨17, _⟩ => ⟨S512x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_cst_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_cst_8 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_11 : Ref sig .tc := ⟨.hbm, 73, rfl⟩
abbrev main_v47 : Ref sig .tc := ⟨.hbm, 74, rfl⟩
abbrev main_v48 : Ref sig .tc := ⟨.hbm, 75, rfl⟩
abbrev main_c_12 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_13 : Ref sig .tc := ⟨.hbm, 106, rfl⟩
abbrev main_call0_v0 : Ref sig .tc := ⟨.hbm, 107, rfl⟩
abbrev main_v78 : Ref sig .tc := ⟨.hbm, 108, rfl⟩
abbrev main_v79 : Ref sig .tc := ⟨.hbm, 109, rfl⟩
abbrev main_c_14 : Ref sig .tc := ⟨.hbm, 110, rfl⟩
abbrev main_call1_v0 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_15 : Ref sig .tc := ⟨.hbm, 122, rfl⟩
abbrev main_v90 : Ref sig .tc := ⟨.hbm, 123, rfl⟩
abbrev main_v91 : Ref sig .tc := ⟨.hbm, 124, rfl⟩
abbrev main_cst_16 : Ref sig .tc := ⟨.hbm, 125, rfl⟩
abbrev main_v92 : Ref sig .tc := ⟨.hbm, 126, rfl⟩
abbrev main_v93 : Ref sig .tc := ⟨.hbm, 127, rfl⟩
abbrev main_cst_17 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_18 : Ref sig .tc := ⟨.hbm, 138, rfl⟩
abbrev main_v103 : Ref sig .tc := ⟨.hbm, 139, rfl⟩
abbrev main_cst_19 : Ref sig .tc := ⟨.hbm, 140, rfl⟩
abbrev main_v104 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  bcast_S4096x128_S4096x1x128_0_2 : S4096x128.BroadcastsInDim S4096x1x128 (![0, 2] : Fin 2 → Fin S4096x1x128.rank)
  reducesTo_S4096x128_S4096_d1 : S4096x128.ReducesTo [1] S4096
  h_S_ : 0 < S_.numel
  bcast_S4096_S4096x1_0 : S4096.BroadcastsInDim S4096x1 (![0] : Fin 1 → Fin S4096x1.rank)
  reducesTo_S4096x64x128_S4096x64_d2 : S4096x64x128.ReducesTo [2] S4096x64
  bcast_S4096x1x128_S4096x64x128_0_1_2 : S4096x1x128.BroadcastsInDim S4096x64x128 (![0, 1, 2] : Fin 3 → Fin S4096x64x128.rank)
  bcast_S4096x1_S4096x64_0_1 : S4096x1.BroadcastsInDim S4096x64 (![0, 1] : Fin 2 → Fin S4096x64.rank)
  bcast_S_S4096x1 : S_.BroadcastsInDim S4096x1 (![] : Fin 0 → Fin S4096x1.rank)
  concatenates_S4096x64x1_S4096x64x1_S4096x64x1_S4096x64x1_S4096x64x4_d2 : Shape.Concatenates [S4096x64x1, S4096x64x1, S4096x64x1, S4096x64x1] S4096x64x4 2
  bitsLt_bf16_f32 : FTy.bits .bf16 < FTy.bits .f32
  shapeCasts_S4096x64x128_S4096x8192 : S4096x64x128.ShapeCasts S4096x8192
  shapeCasts_S4096x64x4_S4096x256 : S4096x64x4.ShapeCasts S4096x256
  concatenates_S4096x128_S4096x256_S4096x64_S4096x448_d1 : Shape.Concatenates [S4096x128, S4096x256, S4096x64] S4096x448 1
  slices_S8640x2048_S128x2048_0_0 : S8640x2048.Slices ![0, 0] S128x2048
  slices_S8640x2048_S8512x2048_128_0 : S8640x2048.Slices ![128, 0] S8512x2048
  shapeCasts_S8512x2048_S64x133x2048 : S8512x2048.ShapeCasts S64x133x2048
  slices_S64x133x2048_S64x128x2048_0_0_0 : S64x133x2048.Slices ![0, 0, 0] S64x128x2048
  shapeCasts_S64x128x2048_S8192x2048 : S64x128x2048.ShapeCasts S8192x2048
  slices_S64x133x2048_S64x4x2048_0_128_0 : S64x133x2048.Slices ![0, 128, 0] S64x4x2048
  shapeCasts_S64x4x2048_S256x2048 : S64x4x2048.ShapeCasts S256x2048
  slices_S64x133x2048_S64x1x2048_0_132_0 : S64x133x2048.Slices ![0, 132, 0] S64x1x2048
  shapeCasts_S64x1x2048_S64x2048 : S64x1x2048.ShapeCasts S64x2048
  concatenates_S128x2048_S256x2048_S64x2048_S448x2048_d0 : Shape.Concatenates [S128x2048, S256x2048, S64x2048] S448x2048 0
  pads_S2048x64_S2048x128_000_0640 : S2048x64.Pads (![0, 0] : Fin 2 → Nat) ![0, 64] ![0, 0] S2048x128
  pads_S64_S128_0640 : S64.Pads (![0] : Fin 1 → Nat) ![64] ![0] S128
  shapeCasts_S128_S1x128 : S128.ShapeCasts S1x128
  shapeCasts_S2048_S1x2048 : S2048.ShapeCasts S1x2048
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  inb_S8192x2048_S8192x2048_0_0 : ∀ a, (![0, 0] : Fin 2 → Nat) a + S8192x2048.size a ≤ S8192x2048.size a
  h_S8192x2048 : 0 < S8192x2048.numel
  shapeCasts_S8192x2048_S8192x2048 : S8192x2048.ShapeCasts S8192x2048
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S64x2048 : S1x2048.Broadcasts S64x2048
  packedbf16_S64x2048_S64x2048_0_0 : (Rect.unit (s := S64x2048) ![0, 0] S64x2048.size inb_S64x2048_S64x2048_0_0).PackedRows (EltTy.packing .bf16)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  broadcasts_S1x2048_S512x2048 : S1x2048.Broadcasts S512x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  slices_S4096x128_S4096x64_0_0 : S4096x128.Slices ![0, 0] S4096x64
  reducesTo_S4096x64_S_d0_1 : S4096x64.ReducesTo [0, 1] S_
  gather_S10000x128_S4096x64x1_S4096x64x128_2_0_n_n_0_2_1128_wf : GatherDims.WF S10000x128 S4096x64x1 S4096x64x128 [2] [0] [] [0] [] 2 ![1, 128]
  gather_S10000_S4096x64x1_S4096x64_n_0_n_n_0_2_1_wf : GatherDims.WF S10000 S4096x64x1 S4096x64 [] [0] [] [0] [] 2 ![1]
  dot_S4096x448_S448x2048_S4096x2048_1_0_0_1_n_n_wf : DotDims.WF S4096x448 S448x2048 S4096x2048 [1] [0] [0] [1] [] []
  dot_S64x8192_S8192x2048_S64x2048_1_0_0_1_n_n_wf : DotDims.WF S64x8192 S8192x2048 S64x2048 [1] [0] [0] [1] [] []
  dot_S512x2048_S2048x2048_S512x2048_1_0_0_1_n_n_wf : DotDims.WF S512x2048 S2048x2048 S512x2048 [1] [0] [0] [1] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8192.size a ≤ S4096x8192.size a
  hwx0_0 : ∀ i : grid0.Coords, EltTy.bits .bf16 = 32 ∨ (Rect.block (s := S4096x8192) S64x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S4096x2048.size a
  hwx0_1 : ∀ i : grid0.Coords, EltTy.bits .f32 = 32 ∨ (Rect.block (s := S4096x2048) S64x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x2048.size a ≤ S8192x2048.size a
  hwx0_2 : ∀ i : grid0.Coords, EltTy.bits .bf16 = 32 ∨ (Rect.block (s := S8192x2048) S8192x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x2048.size a ≤ S4096x2048.size a
  hwx0_4 : ∀ i : grid0.Coords, EltTy.bits .bf16 = 32 ∨ (Rect.block (s := S4096x2048) S64x2048.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x2048.size a
  hwx1_0 : ∀ i : grid1.Coords, EltTy.bits .bf16 = 32 ∨ (Rect.block (s := S4096x2048) S512x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x2048.size a ≤ S2048x2048.size a
  hwx1_3 : ∀ i : grid1.Coords, EltTy.bits .bf16 = 32 ∨ (Rect.block (s := S2048x2048) S2048x2048.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x2048.size a
  hwx1_4 : ∀ i : grid1.Coords, EltTy.bits .f32 = 32 ∨ (Rect.block (s := S1x2048) S1x2048.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2048x128.size a ≤ S2048x128.size a
  hwx1_5 : ∀ i : grid1.Coords, EltTy.bits .bf16 = 32 ∨ (Rect.block (s := S2048x128) S2048x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x128.size a ≤ S4096x128.size a
  hwx1_7 : ∀ i : grid1.Coords, EltTy.bits .f32 = 32 ∨ (Rect.block (s := S4096x128) S512x128.size (cc1_transform_7 i) (hinb1_7 i)).WholeWords (EltTy.packing .f32)

variable [Facts₀]

def gather_S10000x128_S4096x64x1_S4096x64x128_2_0_n_n_0_2_1128 : GatherDims S10000x128 S4096x64x1 S4096x64x128 where
  offsetDims := [2]
  collapsedSliceDims := [0]
  operandBatchingDims := []
  startIndicesBatchingDims := []
  startIndexMap := [0]
  indexVectorDim := 2
  sliceSizes := ![1, 128]
  wf := gather_S10000x128_S4096x64x1_S4096x64x128_2_0_n_n_0_2_1128_wf
def gather_S10000_S4096x64x1_S4096x64_n_0_n_n_0_2_1 : GatherDims S10000 S4096x64x1 S4096x64 where
  offsetDims := []
  collapsedSliceDims := [0]
  operandBatchingDims := []
  startIndicesBatchingDims := []
  startIndexMap := [0]
  indexVectorDim := 2
  sliceSizes := ![1]
  wf := gather_S10000_S4096x64x1_S4096x64_n_0_n_n_0_2_1_wf
def dot_S4096x448_S448x2048_S4096x2048_1_0_0_1_n_n : DotDims S4096x448 S448x2048 S4096x2048 where
  lhsContracting := [1]
  rhsContracting := [0]
  lhsNonContracting := [0]
  rhsNonContracting := [1]
  lhsBatch := []
  rhsBatch := []
  wf := dot_S4096x448_S448x2048_S4096x2048_1_0_0_1_n_n_wf
def dot_S64x8192_S8192x2048_S64x2048_1_0_0_1_n_n : DotDims S64x8192 S8192x2048 S64x2048 where
  lhsContracting := [1]
  rhsContracting := [0]
  lhsNonContracting := [0]
  rhsNonContracting := [1]
  lhsBatch := []
  rhsBatch := []
  wf := dot_S64x8192_S8192x2048_S64x2048_1_0_0_1_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_v61) S64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v75) S64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v69) S8192x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v82) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v83) S64x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v83) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v76) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v84) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v77) S2048x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v85) S1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v79) S2048x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v81) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v86) S512x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S4096x128 : Shape := ⟨2, ![4096, 128]⟩
abbrev S4096x64 : Shape := ⟨2, ![4096, 64]⟩
abbrev S10000 : Shape := ⟨1, ![10000]⟩
abbrev S10000x128 : Shape := ⟨2, ![10000, 128]⟩
abbrev S8640x2048 : Shape := ⟨2, ![8640, 2048]⟩
abbrev S2048 : Shape := ⟨1, ![2048]⟩
abbrev S2048x2048 : Shape := ⟨2, ![2048, 2048]⟩
abbrev S2048x64 : Shape := ⟨2, ![2048, 64]⟩
abbrev S64 : Shape := ⟨1, ![64]⟩
abbrev S_ : Shape := ⟨0, ![]⟩
abbrev S4096x64x1 : Shape := ⟨3, ![4096, 64, 1]⟩
abbrev S4096x64x128 : Shape := ⟨3, ![4096, 64, 128]⟩
abbrev S4096x1x128 : Shape := ⟨3, ![4096, 1, 128]⟩
abbrev S4096x1 : Shape := ⟨2, ![4096, 1]⟩
abbrev S4096x64x4 : Shape := ⟨3, ![4096, 64, 4]⟩
abbrev S4096x64x133 : Shape := ⟨3, ![4096, 64, 133]⟩
abbrev S4096x8512 : Shape := ⟨2, ![4096, 8512]⟩
abbrev S4096x8640 : Shape := ⟨2, ![4096, 8640]⟩
abbrev S4096x2048 : Shape := ⟨2, ![4096, 2048]⟩
abbrev S1x2048 : Shape := ⟨2, ![1, 2048]⟩
abbrev S1x64 : Shape := ⟨2, ![1, 64]⟩

abbrev nBuf : Space → Nat
  | .hbm => 146
  | .vmem => 0
  | .smem => 0
  | _ => 0

abbrev hbmTy0_0 (i : Nat) : BufTy := match i % 128 with
  | 0 => ⟨S4096x128, .f32⟩
  | 1 => ⟨S4096x64, .i32⟩
  | 2 => ⟨S4096x64, .f32⟩
  | 3 => ⟨S10000, .f32⟩
  | 4 => ⟨S10000x128, .f32⟩
  | 5 => ⟨S8640x2048, .f32⟩
  | 6 => ⟨S2048, .f32⟩
  | 7 => ⟨S2048x2048, .f32⟩
  | 8 => ⟨S2048, .f32⟩
  | 9 => ⟨S2048x2048, .f32⟩
  | 10 => ⟨S2048, .f32⟩
  | 11 => ⟨S2048x64, .f32⟩
  | 12 => ⟨S64, .f32⟩
  | 13 => ⟨S_, .i32⟩
  | 14 => ⟨S4096x64, .i32⟩
  | 15 => ⟨S4096x64, .i1⟩
  | 16 => ⟨S_, .i32⟩
  | 17 => ⟨S4096x64, .i32⟩
  | 18 => ⟨S4096x64, .i32⟩
  | 19 => ⟨S4096x64, .i32⟩
  | 20 => ⟨S4096x64x1, .i32⟩
  | 21 => ⟨S4096x64x128, .f32⟩
  | 22 => ⟨S4096x1x128, .f32⟩
  | 23 => ⟨S4096x1x128, .f32⟩
  | 24 => ⟨S_, .f32⟩
  | 25 => ⟨S4096x1, .f32⟩
  | 26 => ⟨S4096x64x128, .f32⟩
  | 27 => ⟨S_, .f32⟩
  | 28 => ⟨S4096x64, .f32⟩
  | 29 => ⟨S4096x64x128, .f32⟩
  | 30 => ⟨S4096x64x128, .f32⟩
  | 31 => ⟨S4096x64x128, .f32⟩
  | 32 => ⟨S_, .f32⟩
  | 33 => ⟨S4096x64, .f32⟩
  | 34 => ⟨S_, .f32⟩
  | 35 => ⟨S4096x64, .f32⟩
  | 36 => ⟨S4096x64, .f32⟩
  | 37 => ⟨S_, .f32⟩
  | 38 => ⟨S4096x1, .f32⟩
  | 39 => ⟨S4096x1, .f32⟩
  | 40 => ⟨S_, .f32⟩
  | 41 => ⟨S4096x64, .f32⟩
  | 42 => ⟨S4096x64, .f32⟩
  | 43 => ⟨S4096x64, .f32⟩
  | 44 => ⟨S4096x64, .f32⟩
  | 45 => ⟨S4096x64, .f32⟩
  | 46 => ⟨S_, .f32⟩
  | 47 => ⟨S4096x64, .f32⟩
  | 48 => ⟨S4096x64, .f32⟩
  | 49 => ⟨S_, .f32⟩
  | 50 => ⟨S4096x64, .f32⟩
  | 51 => ⟨S4096x64, .f32⟩
  | 52 => ⟨S4096x64, .f32⟩
  | 53 => ⟨S_, .f32⟩
  | 54 => ⟨S4096x64, .f32⟩
  | 55 => ⟨S4096x64, .f32⟩
  | 56 => ⟨S4096x64, .f32⟩
  | 57 => ⟨S4096x64, .f32⟩
  | 58 => ⟨S4096x64, .f32⟩
  | 59 => ⟨S4096x64x128, .f32⟩
  | 60 => ⟨S4096x64x128, .f32⟩
  | 61 => ⟨S_, .f32⟩
  | 62 => ⟨S4096x64, .f32⟩
  | 63 => ⟨S4096x1, .f32⟩
  | 64 => ⟨S4096x64, .f32⟩
  | 65 => ⟨S4096x64, .f32⟩
  | 66 => ⟨S4096x64, .f32⟩
  | 67 => ⟨S_, .f32⟩
  | 68 => ⟨S4096x64, .f32⟩
  | 69 => ⟨S4096x64, .f32⟩
  | 70 => ⟨S4096x64, .f32⟩
  | 71 => ⟨S4096x64x128, .f32⟩
  | 72 => ⟨S4096x64x128, .f32⟩
  | 73 => ⟨S4096x64x128, .f32⟩
  | 74 => ⟨S_, .f32⟩
  | 75 => ⟨S4096x64, .f32⟩
  | 76 => ⟨S4096x64, .f32⟩
  | 77 => ⟨S_, .f32⟩
  | 78 => ⟨S4096x64, .f32⟩
  | 79 => ⟨S4096x64, .f32⟩
  | 80 => ⟨S_, .i32⟩
  | 81 => ⟨S4096x64, .i32⟩
  | 82 => ⟨S4096x64, .i1⟩
  | 83 => ⟨S_, .i32⟩
  | 84 => ⟨S4096x64, .i32⟩
  | 85 => ⟨S4096x64, .i32⟩
  | 86 => ⟨S4096x64, .i32⟩
  | 87 => ⟨S4096x64x1, .i32⟩
  | 88 => ⟨S4096x64, .f32⟩
  | 89 => ⟨S4096x64, .f32⟩
  | 90 => ⟨S4096x64x1, .f32⟩
  | 91 => ⟨S4096x64x1, .f32⟩
  | 92 => ⟨S4096x64x1, .f32⟩
  | 93 => ⟨S4096x64x1, .f32⟩
  | 94 => ⟨S4096x64x4, .f32⟩
  | 95 => ⟨S4096x64x1, .f32⟩
  | 96 => ⟨S4096x64x133, .f32⟩
  | 97 => ⟨S4096x8512, .f32⟩
  | 98 => ⟨S4096x8640, .f32⟩
  | 99 => ⟨S4096x2048, .f32⟩
  | 100 => ⟨S1x2048, .f32⟩
  | 101 => ⟨S4096x2048, .f32⟩
  | 102 => ⟨S4096x2048, .f32⟩
  | 103 => ⟨S_, .f32⟩
  | 104 => ⟨S4096x2048, .f32⟩
  | 105 => ⟨S4096x2048, .f32⟩
  | 106 => ⟨S4096x2048, .f32⟩
  | 107 => ⟨S1x2048, .f32⟩
  | 108 => ⟨S4096x2048, .f32⟩
  | 109 => ⟨S4096x2048, .f32⟩
  | 110 => ⟨S_, .f32⟩
  | 111 => ⟨S4096x2048, .f32⟩
  | 112 => ⟨S4096x2048, .f32⟩
  | 113 => ⟨S4096x2048, .f32⟩
  | 114 => ⟨S1x2048, .f32⟩
  | 115 => ⟨S4096x2048, .f32⟩
  | 116 => ⟨S4096x2048, .f32⟩
  | 117 => ⟨S_, .f32⟩
  | 118 => ⟨S4096x2048, .f32⟩
  | 119 => ⟨S4096x2048, .f32⟩
  | 120 => ⟨S4096x64, .f32⟩
  | 121 => ⟨S1x64, .f32⟩
  | 122 => ⟨S4096x64, .f32⟩
  | 123 => ⟨S4096x64, .f32⟩
  | 124 => ⟨S4096x64, .f32⟩
  | 125 => ⟨S4096x64, .f32⟩
  | 126 => ⟨S_, .f32⟩
  | 127 => ⟨S4096x64, .f32⟩
  | _ => ⟨S4096x128, .f32⟩

abbrev hbmTy0_1 (i : Nat) : BufTy := match i % 128 with
  | 0 => ⟨S4096x64, .f32⟩
  | 1 => ⟨S_, .f32⟩
  | 2 => ⟨S4096x64, .f32⟩
  | 3 => ⟨S4096x64, .f32⟩
  | 4 => ⟨S_, .f32⟩
  | 5 => ⟨S4096x64, .f32⟩
  | 6 => ⟨S4096x64, .f32⟩
  | 7 => ⟨S4096x64, .f32⟩
  | 8 => ⟨S4096x64, .f32⟩
  | 9 => ⟨S4096x64, .f32⟩
  | 10 => ⟨S4096x64, .f32⟩
  | 11 => ⟨S4096x64, .f32⟩
  | 12 => ⟨S4096x64, .f32⟩
  | 13 => ⟨S4096x64, .f32⟩
  | 14 => ⟨S_, .f32⟩
  | 15 => ⟨S_, .f32⟩
  | 16 => ⟨S_, .f32⟩
  | 17 => ⟨S_, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_cst_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_6 : Ref sig .tc := ⟨.hbm, 46, rfl⟩
abbrev main_v25 : Ref sig .tc := ⟨.hbm, 47, rfl⟩
abbrev main_v26 : Ref sig .tc := ⟨.hbm, 48, rfl⟩
abbrev main_cst_7 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_8 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_9 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_10 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_11 : Ref sig .tc := ⟨.hbm, 74, rfl⟩
abbrev main_v48 : Ref sig .tc := ⟨.hbm, 75, rfl⟩
abbrev main_v49 : Ref sig .tc := ⟨.hbm, 76, rfl⟩
abbrev main_cst_12 : Ref sig .tc := ⟨.hbm, 77, rfl⟩
abbrev main_v50 : Ref sig .tc := ⟨.hbm, 78, rfl⟩
abbrev main_v51 : Ref sig .tc := ⟨.hbm, 79, rfl⟩
abbrev main_c_13 : Ref sig .tc := ⟨.hbm, 80, rfl⟩
abbrev main_v52 : Ref sig .tc := ⟨.hbm, 81, rfl⟩
abbrev main_v53 : Ref sig .tc := ⟨.hbm, 82, rfl⟩
abbrev main_c_14 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_call0_cst : Ref sig .tc := ⟨.hbm, 103, rfl⟩
abbrev main_call0_v0 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_call1_cst : Ref sig .tc := ⟨.hbm, 110, rfl⟩
abbrev main_call1_v0 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_call2_cst : Ref sig .tc := ⟨.hbm, 117, rfl⟩
abbrev main_call2_v0 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_15 : Ref sig .tc := ⟨.hbm, 126, rfl⟩
abbrev main_v90 : Ref sig .tc := ⟨.hbm, 127, rfl⟩
abbrev main_v91 : Ref sig .tc := ⟨.hbm, 128, rfl⟩
abbrev main_cst_16 : Ref sig .tc := ⟨.hbm, 129, rfl⟩
abbrev main_v92 : Ref sig .tc := ⟨.hbm, 130, rfl⟩
abbrev main_v93 : Ref sig .tc := ⟨.hbm, 131, rfl⟩
abbrev main_cst_17 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_18 : Ref sig .tc := ⟨.hbm, 142, rfl⟩
abbrev main_v103 : Ref sig .tc := ⟨.hbm, 143, rfl⟩
abbrev main_cst_19 : Ref sig .tc := ⟨.hbm, 144, rfl⟩
abbrev main_v104 : Ref sig .tc := ⟨.hbm, 145, rfl⟩

abbrev nD : Nat := 1
abbrev τ : Topo := Topo.v7x

variable {F : FTy → Type} [FloatOps F]

class Facts₀ : Prop where
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  bcast_S4096x128_S4096x1x128_0_2 : S4096x128.BroadcastsInDim S4096x1x128 (![0, 2] : Fin 2 → Fin S4096x1x128.rank)
  reducesTo_S4096x1x128_S4096x1_d2 : S4096x1x128.ReducesTo [2] S4096x1
  h_S_ : 0 < S_.numel
  reducesTo_S4096x64x128_S4096x64_d2 : S4096x64x128.ReducesTo [2] S4096x64
  bcast_S4096x1x128_S4096x64x128_0_1_2 : S4096x1x128.BroadcastsInDim S4096x64x128 (![0, 1, 2] : Fin 3 → Fin S4096x64x128.rank)
  bcast_S_S4096x1 : S_.BroadcastsInDim S4096x1 (![] : Fin 0 → Fin S4096x1.rank)
  bcast_S4096x1_S4096x64_0_1 : S4096x1.BroadcastsInDim S4096x64 (![0, 1] : Fin 2 → Fin S4096x64.rank)
  concatenates_S4096x64x1_S4096x64x1_S4096x64x1_S4096x64x1_S4096x64x4_d2 : Shape.Concatenates [S4096x64x1, S4096x64x1, S4096x64x1, S4096x64x1] S4096x64x4 2
  concatenates_S4096x64x128_S4096x64x4_S4096x64x1_S4096x64x133_d2 : Shape.Concatenates [S4096x64x128, S4096x64x4, S4096x64x1] S4096x64x133 2
  shapeCasts_S4096x64x133_S4096x8512 : S4096x64x133.ShapeCasts S4096x8512
  concatenates_S4096x128_S4096x8512_S4096x8640_d1 : Shape.Concatenates [S4096x128, S4096x8512] S4096x8640 1
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  reducesTo_S4096x64_S_d0_1 : S4096x64.ReducesTo [0, 1] S_
  gather_S10000x128_S4096x64x1_S4096x64x128_2_0_n_n_0_2_1128_wf : GatherDims.WF S10000x128 S4096x64x1 S4096x64x128 [2] [0] [] [0] [] 2 ![1, 128]
  gather_S10000_S4096x64x1_S4096x64_n_0_n_n_0_2_1_wf : GatherDims.WF S10000 S4096x64x1 S4096x64 [] [0] [] [0] [] 2 ![1]
  dot_S4096x8640_S8640x2048_S4096x2048_1_0_0_1_n_n_wf : DotDims.WF S4096x8640 S8640x2048 S4096x2048 [1] [0] [0] [1] [] []
  dot_S4096x2048_S2048x2048_S4096x2048_1_0_0_1_n_n_wf : DotDims.WF S4096x2048 S2048x2048 S4096x2048 [1] [0] [0] [1] [] []
  dot_S4096x2048_S2048x64_S4096x64_1_0_0_1_n_n_wf : DotDims.WF S4096x2048 S2048x64 S4096x64 [1] [0] [0] [1] [] []

variable [Facts₀]

def gather_S10000x128_S4096x64x1_S4096x64x128_2_0_n_n_0_2_1128 : GatherDims S10000x128 S4096x64x1 S4096x64x128 where
  offsetDims := [2]
  collapsedSliceDims := [0]
  operandBatchingDims := []
  startIndicesBatchingDims := []
  startIndexMap := [0]
  indexVectorDim := 2
  sliceSizes := ![1, 128]
  wf := gather_S10000x128_S4096x64x1_S4096x64x128_2_0_n_n_0_2_1128_wf
def gather_S10000_S4096x64x1_S4096x64_n_0_n_n_0_2_1 : GatherDims S10000 S4096x64x1 S4096x64 where
  offsetDims := []
  collapsedSliceDims := [0]
  operandBatchingDims := []
  startIndicesBatchingDims := []
  startIndexMap := [0]
  indexVectorDim := 2
  sliceSizes := ![1]
  wf := gather_S10000_S4096x64x1_S4096x64_n_0_n_n_0_2_1_wf
def dot_S4096x8640_S8640x2048_S4096x2048_1_0_0_1_n_n : DotDims S4096x8640 S8640x2048 S4096x2048 where
  lhsContracting := [1]
  rhsContracting := [0]
  lhsNonContracting := [0]
  rhsNonContracting := [1]
  lhsBatch := []
  rhsBatch := []
  wf := dot_S4096x8640_S8640x2048_S4096x2048_1_0_0_1_n_n_wf
def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x2048_S2048x64_S4096x64_1_0_0_1_n_n : DotDims S4096x2048 S2048x64 S4096x64 where
  lhsContracting := [1]
  rhsContracting := [0]
  lhsNonContracting := [0]
  rhsNonContracting := [1]
  lhsBatch := []
  rhsBatch := []
  wf := dot_S4096x2048_S2048x64_S4096x64_1_0_0_1_n_n_wf

class Facts : Prop extends Facts₀ where

variable [Facts]
-- ==== Proof.KRegion0.lean ====
/- Pallas call 0 of the kernel program (relu((x·w + s) + b) on a grid of 64 row blocks), at the buffer contents `V`
   found when the call is entered, for any float carrier `F`: each window's block at a grid point, what the body
   leaves in the output block's buffer, the body's triple, the pipeline's proof data and its body obligation. -/
import proofs.«423201_j71829033059182_3_alg».proof.Proof.Gen.Kernel.Launch
import proofs.«423201_j71829033059182_3_alg».proof.Proof.Gen.Kernel.Skeleton
import proofs.«423201_j71829033059182_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is checked coordinate by coordinate along the long axes
set_option maxRecDepth 16384

noncomputable section

namespace Cert.Kernel.Gen'

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when pallas call 0 is entered
variable (V : (c : Dev nD) → (b : Ref sig .tc) → Buf (Elt F) ((c : Thread nD τ).loc b))

/-! ## The windows' blocks -/

/-- Window `w`'s block at grid point `t`, read off its array as the call finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window (64 rows of the 4096x8192 input per point): its current staging buffer holds its block at every
    point, for any proof data over `V`'s array whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The s window (64 rows of the 4096x2048 summand per point), likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The w window (the whole 8192x2048 weight, fetched at the first point only): unfetched, its block index has not
    moved, so the buffer still holds this point's block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The b window (the whole 1x2048 bias, fetched at the first point only), likewise. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer read or written whole -/

abbrev r0_0 : Rect S64x8192 := Rect.unit (s := S64x8192) ![0, 0] S64x8192.size inb_S64x8192_S64x8192_0_0
abbrev r0_1 : Rect S64x2048 := Rect.unit (s := S64x2048) ![0, 0] S64x2048.size inb_S64x2048_S64x2048_0_0
abbrev r0_2 : Rect S8192x2048 := Rect.unit (s := S8192x2048) ![0, 0] S8192x2048.size inb_S8192x2048_S8192x2048_0_0
abbrev r0_3 : Rect S1x2048 := Rect.unit (s := S1x2048) ![0, 0] S1x2048.size inb_S1x2048_S1x2048_0_0

/-! ## What the body leaves in the output window's buffer -/

/-- The output block's buffer after the body, from the four input blocks (x, s, w, b): one store of the whole
    64x2048 block, relu((x·w + s) + b) rounded to bf16. -/
def out0_4 (x0 : Vec F S64x8192 .bf16) (x1 : Vec F S64x2048 .f32) (x2 : Vec F S8192x2048 .bf16) (x3 : Vec F S1x2048 .f32) : Vec F S64x2048 .bf16 :=
  View.canon [⟨r0_1, k0_pay1 (View.ld x0 r0_0) (View.ld x2 r0_2) (View.ld x1 r0_1) (View.ld x3 r0_3)⟩]

/-- The one store is the whole buffer, so it covers it. -/
theorem cover0_4 (p0 : Vec F S64x2048 .bf16) (y : S64x2048.Idx) :
    ∃ pc ∈ ([⟨r0_1, p0⟩] : List (View.Piece (Elt F) S64x2048 .bf16)), y ∈ pc.1.set :=
  View.cover_of_tiled [⟨r0_1, p0⟩] S64x2048.size (by rfl) y

/-! ## The body's triple -/

set_option maxHeartbeats 4000000 in
/-- The body on whole staging memrefs, the four inputs' at read contents `x0 … x3` and the output's at anything, runs
    to the continuation holding the inputs' as they were and the output's at `out0_4` of them. The body also reads
    its output buffer before the store; that value is not used. -/
theorem sound_kernel0 (c : Dev nD) (E : Set ℕ) (i : grid0.Coords)
    (arg1 : Memref sig .tc .vmem S64x8192 .bf16) (harg1 : arg1.IsWhole) (arg2 : Memref sig .tc .vmem S64x2048 .f32) (harg2 : arg2.IsWhole)
    (arg3 : Memref sig .tc .vmem S8192x2048 .bf16) (harg3 : arg3.IsWhole) (arg4 : Memref sig .tc .vmem S1x2048 .f32) (harg4 : arg4.IsWhole)
    (arg5 : Memref sig .tc .vmem S64x2048 .bf16) (harg5 : arg5.IsWhole)
    (x0 : Vec F S64x8192 .bf16) (x1 : Vec F S64x2048 .f32) (x2 : Vec F S8192x2048 .bf16) (x3 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0_kernel i arg1 harg1 arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of pallas call 0 on core `c`: the arrays as the call finds them (`V`); after the body at point
    `t` each input's buffer at its block and the output's at `out0_4` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Gen'

end
-- ==== Proof.KRegion1.lean ====
/- The second pipelined region of the kernel program (three dense layers on a grid of 8 row blocks), at any
   float model `F` and at a PARAMETER `V`: the TensorCore's buffer contents when the region is entered.
   Each window's block at a grid point is a read of its array in `V`; the body loads the seven input blocks
   whole and stores its one result block whole, so what it leaves in the result window's buffer is one piece,
   the payload of the seven loads; the proof data take the arrays at `V`, each input buffer at its block and
   the result buffer at that piece; and the body's Hoare triple at a generic grid point discharges the
   pipeline library's body obligation. -/
import proofs.«423201_j71829033059182_3_alg».proof.Proof.Gen.Kernel.Launch
import proofs.«423201_j71829033059182_3_alg».proof.Proof.Gen.Kernel.Skeleton
import proofs.«423201_j71829033059182_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is found by a structural recursion along the long axes
set_option maxRecDepth 16384

noncomputable section

namespace Cert.Kernel.Gen'

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- what every TensorCore buffer holds when the region is entered
variable (V : (c : Dev nD) → (b : Ref sig .tc) → Buf (Elt F) ((c : Thread nD τ).loc b))

/-! ## The windows' blocks -/

/-- The block of window `w` at grid point `t`: the window's rectangle at `t`, read from its array in `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current buffer holds the window's block at every grid point, whether the pipeline fetched
    it at that point or at an earlier one (the six whole-array windows are fetched at the first point only and
    their index never moves): for any proof data over `V`'s arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each buffer, whole -/

abbrev r1_a : Rect S512x2048 := Rect.unit (s := S512x2048) ![0, 0] S512x2048.size inb_S512x2048_S512x2048_0_0
abbrev r1_b : Rect S2048x2048 := Rect.unit (s := S2048x2048) ![0, 0] S2048x2048.size inb_S2048x2048_S2048x2048_0_0
abbrev r1_c : Rect S1x2048 := Rect.unit (s := S1x2048) ![0, 0] S1x2048.size inb_S1x2048_S1x2048_0_0
abbrev r1_d : Rect S2048x128 := Rect.unit (s := S2048x128) ![0, 0] S2048x128.size inb_S2048x128_S2048x128_0_0
abbrev r1_e : Rect S1x128 := Rect.unit (s := S1x128) ![0, 0] S1x128.size inb_S1x128_S1x128_0_0
abbrev r1_o : Rect S512x128 := Rect.unit (s := S512x128) ![0, 0] S512x128.size inb_S512x128_S512x128_0_0

/-! ## What the body leaves in the result window's buffer -/

/-- The result buffer after the body, as a function of the seven input blocks: a single piece, the whole
    buffer, holding `relu(relu(x0·x1 + x2)·x3 + x4)·x5 + x6` as the payload computes it from the loads. -/
def out1_7 (x0 : Vec F S512x2048 .bf16) (x1 : Vec F S2048x2048 .bf16) (x2 : Vec F S1x2048 .f32) (x3 : Vec F S2048x2048 .bf16) (x4 : Vec F S1x2048 .f32) (x5 : Vec F S2048x128 .bf16) (x6 : Vec F S1x128 .f32) : Vec F S512x128 .f32 :=
  View.canon [⟨r1_o, k1_pay1 (View.ld x0 r1_a) (View.ld x1 r1_b) (View.ld x2 r1_c) (View.ld x3 r1_b) (View.ld x4 r1_c) (View.ld x5 r1_d) (View.ld x6 r1_e)⟩]

/-- That one piece covers the buffer. -/
theorem cover1_7 (p0 : Vec F S512x128 .f32) (y : S512x128.Idx) :
    ∃ pc ∈ ([⟨r1_o, p0⟩] : List (View.Piece (Elt F) S512x128 .f32)), y ∈ pc.1.set :=
  View.cover_of_tiled [⟨r1_o, p0⟩] S512x128.size (by rfl) y

/-! ## The body's triple -/

set_option maxHeartbeats 4000000 in
/-- The body, called at any grid coordinate on whole buffers — the seven inputs' holding `x0 … x6`, the result's
    holding anything — runs to its continuation with the inputs unchanged and the result buffer at
    `out1_7 x0 … x6`. The body also reads the result buffer before it writes it; the value read is not used. -/
theorem sound_kernel1 (c : Dev nD) (E : Set ℕ) (i : grid1.Coords)
    (arg0 : Memref sig .tc .vmem S512x2048 .bf16) (harg0 : arg0.IsWhole)
    (arg1 : Memref sig .tc .vmem S2048x2048 .bf16) (harg1 : arg1.IsWhole)
    (arg2 : Memref sig .tc .vmem S1x2048 .f32) (harg2 : arg2.IsWhole)
    (arg3 : Memref sig .tc .vmem S2048x2048 .bf16) (harg3 : arg3.IsWhole)
    (arg4 : Memref sig .tc .vmem S1x2048 .f32) (harg4 : arg4.IsWhole)
    (arg5 : Memref sig .tc .vmem S2048x128 .bf16) (harg5 : arg5.IsWhole)
    (arg6 : Memref sig .tc .vmem S1x128 .f32) (harg6 : arg6.IsWhole)
    (arg7 : Memref sig .tc .vmem S512x128 .f32) (harg7 : arg7.IsWhole)
    (x0 : Vec F S512x2048 .bf16) (x1 : Vec F S2048x2048 .bf16) (x2 : Vec F S1x2048 .f32) (x3 : Vec F S2048x2048 .bf16) (x4 : Vec F S1x2048 .f32) (x5 : Vec F S2048x128 .bf16) (x6 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5 x6)) -∗ K ⟨⟩))
      ⊢ wp frame (wpE (defs₀ (F := F)) Variants.none c none) E (cc1_kernel i arg0 harg0 arg1 harg1 arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of the region's pipeline on core `c`: the arrays at `V`; after the body at point `t`, each
    input window's buffer at its block and the result window's at `out1_7` of the seven blocks; the invariant
    that leaves the scoped rest and the generator register alone; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are `V`'s. -/
theorem A_eq1 (c : Dev nD) (w : Fin cfg1.W) : (dat1 V c).A w = V c (Pipeline.arrRef spec1 w) := by
  dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-! Each input window's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at point `t`: the input buffers hold their blocks, so the body's triple applies at those blocks;
    the invariant and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every grid point. -/
theorem body_obligation1 (c : Dev nD) : BodyObligation (dat1 (F := F) V c) (defs₀ (F := F)) Variants.none () Set.univ := fun t => by
  rw [bigSep_W1, bigSep_W1]
  exact sound_body1 V c t

end Region1

end Cert.Kernel.Gen'

end
-- ==== Proof.KRun.lean ====
/- The run of the kernel program's @main, at any float model: nine items — five stretches of host operations, the
   first pipelined region, a stretch, the second region, a last stretch. The buffer contents at each boundary are a
   fold from the launch memory: a stretch applies its operations in order; a region leaves its arrays at what its
   pipeline's write-backs leave and every other buffer as it found it. Each stretch is a host segment over the
   unscoped buffers, each region a segment whose arrays are split out of those buffers at entry and put back at exit.
   The run then says that every weakly fair execution terminates with every unscoped buffer at the last boundary's
   contents; no stretch and no region writes an argument, so each argument array ends as launched. -/
import proofs.«423201_j71829033059182_3_alg».proof.Proof.KRegion0
import proofs.«423201_j71829033059182_3_alg».proof.Proof.KRegion1

set_option maxRecDepth 16384

noncomputable section

namespace Cert.Kernel.Gen'

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
/-- The first region's entry contents. -/
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b
/-- At the first region's exit: its arrays at what the pipeline leaves, every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)
/-- The second region's entry contents. -/
abbrev W7 : Dev nD → Valuation τ sig (Elt F) := fun c => StableHlo.after hostOps1 (W6 m ρ c)
abbrev V7 : (c : Dev nD) → (b : Ref sig .tc) → Buf (Elt F) ((c : Thread nD τ).loc b) := fun c b => W7 m ρ c b
/-- At the second region's exit. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)
/-- The contents @main returns with. -/
abbrev W9 : Dev nD → Valuation τ sig (Elt F) := fun c => StableHlo.after hostOps2 (W8 m ρ c)

/-! ## What the stretches write -/

/-- No operation of `hostOps0` allocates a buffer. -/
theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_c, main_v0, main_v1, main_c_0, main_v2, main_v3, main_v4, main_v5, main_v6, main_v7, main_v8, main_cst, main_v9, main_v10, main_v11, main_cst_1, main_v12, main_v13, main_v14, main_cst_2, main_v15, main_v16, main_v17, main_cst_3, main_v18, main_v19, main_v20, main_cst_4, main_v21, main_v22, main_cst_5, main_v23, main_v24, main_cst_6, main_v25, main_v26, main_v27, main_v28, main_v29, main_cst_7, main_v30, main_v31, main_cst_8, main_v32, main_v33, main_v34, main_cst_9, main_v35, main_v36, main_v37, main_v38, main_v39, main_v40, main_v41, main_v42, main_v43, main_cst_10, main_v44, main_v45, main_v46, main_c_11, main_v47, main_v48, main_c_12, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_c_13]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of `hostOps0_1` allocates a buffer. -/
theorem hostOps0_1_fresh : (hostOps0_1 : List (HloOp τ sig (Elt F))).Forall fun op => op.fresh = ∅ := by
  simp only [List.Forall]; repeat' constructor
/-- The references `hostOps0_1`'s operations write. -/
abbrev hostOps0_1_W : List (Ref sig .tc) := [main_call0_v0, main_v78]
theorem hostOps0_1_writes : (hostOps0_1 : List (HloOp τ sig (Elt F))).Forall fun op => op.writes ⊆ (hostOps0_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of `hostOps0_2` allocates a buffer. -/
theorem hostOps0_2_fresh : (hostOps0_2 : List (HloOp τ sig (Elt F))).Forall fun op => op.fresh = ∅ := by
  simp only [List.Forall]; repeat' constructor
/-- The references `hostOps0_2`'s operations write. -/
abbrev hostOps0_2_W : List (Ref sig .tc) := [main_v79, main_c_14]
theorem hostOps0_2_writes : (hostOps0_2 : List (HloOp τ sig (Elt F))).Forall fun op => op.writes ⊆ (hostOps0_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of `hostOps0_3` allocates a buffer. -/
theorem hostOps0_3_fresh : (hostOps0_3 : List (HloOp τ sig (Elt F))).Forall fun op => op.fresh = ∅ := by
  simp only [List.Forall]; repeat' constructor
/-- The references `hostOps0_3`'s operations write. -/
abbrev hostOps0_3_W : List (Ref sig .tc) := [main_call1_v0, main_v80]
theorem hostOps0_3_writes : (hostOps0_3 : List (HloOp τ sig (Elt F))).Forall fun op => op.writes ⊆ (hostOps0_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of `hostOps0_4` allocates a buffer. -/
theorem hostOps0_4_fresh : (hostOps0_4 : List (HloOp τ sig (Elt F))).Forall fun op => op.fresh = ∅ := by
  simp only [List.Forall]; repeat' constructor
/-- The references `hostOps0_4`'s operations write. -/
abbrev hostOps0_4_W : List (Ref sig .tc) := [main_v81, main_v82]
theorem hostOps0_4_writes : (hostOps0_4 : List (HloOp τ sig (Elt F))).Forall fun op => op.writes ⊆ (hostOps0_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of `hostOps1` allocates a buffer. -/
theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_v84, main_v85]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of `hostOps2` allocates a buffer. -/
theorem hostOps2_fresh : (hostOps2 : List (HloOp τ sig (Elt F))).Forall fun op => op.fresh = ∅ := by
  simp only [List.Forall]; repeat' constructor
/-- The references `hostOps2`'s operations write. -/
abbrev hostOps2_W : List (Ref sig .tc) := [main_v87, main_v88, main_v89, main_cst_15, main_v90, main_v91, main_cst_16, main_v92, main_v93, main_cst_17, main_v94, main_v95, main_v96, main_v97, main_v98, main_v99, main_v100, main_v101, main_v102, main_cst_18, main_v103, main_cst_19, main_v104]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-! ## A buffer that no stretch writes and no region holds as an array ends as launched -/

theorem W9_kept (c : Dev nD) (r : Ref sig .tc) (h0 : r ∉ (hostOps0_W : List (Ref sig .tc))) (h01 : r ∉ (hostOps0_1_W : List (Ref sig .tc)))
    (h02 : r ∉ (hostOps0_2_W : List (Ref sig .tc))) (h03 : r ∉ (hostOps0_3_W : List (Ref sig .tc))) (h04 : r ∉ (hostOps0_4_W : List (Ref sig .tc)))
    (hr0 : ∀ w, Pipeline.arrRef spec0 w ≠ r) (h1 : r ∉ (hostOps1_W : List (Ref sig .tc))) (hr1 : ∀ w, Pipeline.arrRef spec1 w ≠ r)
    (h2 : r ∉ (hostOps2_W : List (Ref sig .tc))) :
    W9 m ρ c (Proc.devRef .tc r) = m ((c : Thread nD τ).loc r) :=
  calc W9 m ρ c (Proc.devRef .tc r)
    _ = W8 m ρ c (Proc.devRef .tc r) := StableHlo.after_of_writes_sub hostOps2 _ hostOps2_writes h2
    _ = W7 m ρ c (Proc.devRef .tc r) := W8_of_ne m ρ c r hr1
    _ = W6 m ρ c (Proc.devRef .tc r) := StableHlo.after_of_writes_sub hostOps1 _ hostOps1_writes h1
    _ = W5 m ρ c (Proc.devRef .tc r) := W6_of_ne m ρ c r hr0
    _ = W4 m ρ c (Proc.devRef .tc r) := StableHlo.after_of_writes_sub hostOps0_4 _ hostOps0_4_writes h04
    _ = W3 m ρ c (Proc.devRef .tc r) := StableHlo.after_of_writes_sub hostOps0_3 _ hostOps0_3_writes h03
    _ = W2 m ρ c (Proc.devRef .tc r) := StableHlo.after_of_writes_sub hostOps0_2 _ hostOps0_2_writes h02
    _ = W1 m ρ c (Proc.devRef .tc r) := StableHlo.after_of_writes_sub hostOps0_1 _ hostOps0_1_writes h01
    _ = W0 m ρ c (Proc.devRef .tc r) := StableHlo.after_of_writes_sub hostOps0 _ hostOps0_writes h0
    _ = m ((c : Thread nD τ).loc r) := rfl

/-- Up to the first region's exit: a buffer the first five stretches do not write and the region does not hold as an array
    is still at its launch contents. -/
theorem W6_kept (c : Dev nD) (r : Ref sig .tc) (h0 : r ∉ (hostOps0_W : List (Ref sig .tc))) (h01 : r ∉ (hostOps0_1_W : List (Ref sig .tc)))
    (h02 : r ∉ (hostOps0_2_W : List (Ref sig .tc))) (h03 : r ∉ (hostOps0_3_W : List (Ref sig .tc))) (h04 : r ∉ (hostOps0_4_W : List (Ref sig .tc)))
    (hr0 : ∀ w, Pipeline.arrRef spec0 w ≠ r) :
    W6 m ρ c (Proc.devRef .tc r) = m ((c : Thread nD τ).loc r) :=
  calc W6 m ρ c (Proc.devRef .tc r)
    _ = W5 m ρ c (Proc.devRef .tc r) := W6_of_ne m ρ c r hr0
    _ = W4 m ρ c (Proc.devRef .tc r) := StableHlo.after_of_writes_sub hostOps0_4 _ hostOps0_4_writes h04
    _ = W3 m ρ c (Proc.devRef .tc r) := StableHlo.after_of_writes_sub hostOps0_3 _ hostOps0_3_writes h03
    _ = W2 m ρ c (Proc.devRef .tc r) := StableHlo.after_of_writes_sub hostOps0_2 _ hostOps0_2_writes h02
    _ = W1 m ρ c (Proc.devRef .tc r) := StableHlo.after_of_writes_sub hostOps0_1 _ hostOps0_1_writes h01
    _ = W0 m ρ c (Proc.devRef .tc r) := StableHlo.after_of_writes_sub hostOps0 _ hostOps0_writes h0
    _ = m ((c : Thread nD τ).loc r) := rfl

theorem W9_main_arg0 (c : Dev nD) : W9 m ρ c (Proc.devRef .tc main_arg0) = m ((c : Thread nD τ).loc main_arg0) :=
  W9_kept m ρ c main_arg0 (by decide) (by decide) (by decide) (by decide) (by decide) (by decide) (by decide) (by decide) (by decide)
theorem W9_main_arg1 (c : Dev nD) : W9 m ρ c (Proc.devRef .tc main_arg1) = m ((c : Thread nD τ).loc main_arg1) :=
  W9_kept m ρ c main_arg1 (by decide) (by decide) (by decide) (by decide) (by decide) (by decide) (by decide) (by decide) (by decide)
theorem W9_main_arg2 (c : Dev nD) : W9 m ρ c (Proc.devRef .tc main_arg2) = m ((c : Thread nD τ).loc main_arg2) :=
  W9_kept m ρ c main_arg2 (by decide) (by decide) (by decide) (by decide) (by decide) (by decide) (by decide) (by decide) (by decide)
theorem W9_main_arg3 (c : Dev nD) : W9 m ρ c (Proc.devRef .tc main_arg3) = m ((c : Thread nD τ).loc main_arg3) :=
  W9_kept m ρ c main_arg3 (by decide) (by decide) (by decide) (by decide) (by decide) (by decide) (by decide) (by decide) (by decide)
theorem W9_main_arg4 (c : Dev nD) : W9 m ρ c (Proc.devRef .tc main_arg4) = m ((c : Thread nD τ).loc main_arg4) :=
  W9_kept m ρ c main_arg4 (by decide) (by decide) (by decide) (by decide) (by decide) (by decide) (by decide) (by decide) (by decide)
theorem W9_main_arg5 (c : Dev nD) : W9 m ρ c (Proc.devRef .tc main_arg5) = m ((c : Thread nD τ).loc main_arg5) :=
  W9_kept m ρ c main_arg5 (by decide) (by decide) (by decide) (by decide) (by decide) (by decide) (by decide) (by decide) (by decide)
theorem W9_main_arg6 (c : Dev nD) : W9 m ρ c (Proc.devRef .tc main_arg6) = m ((c : Thread nD τ).loc main_arg6) :=
  W9_kept m ρ c main_arg6 (by decide) (by decide) (by decide) (by decide) (by decide) (by decide) (by decide) (by decide) (by decide)
theorem W9_main_arg7 (c : Dev nD) : W9 m ρ c (Proc.devRef .tc main_arg7) = m ((c : Thread nD τ).loc main_arg7) :=
  W9_kept m ρ c main_arg7 (by decide) (by decide) (by decide) (by decide) (by decide) (by decide) (by decide) (by decide) (by decide)
theorem W9_main_arg8 (c : Dev nD) : W9 m ρ c (Proc.devRef .tc main_arg8) = m ((c : Thread nD τ).loc main_arg8) :=
  W9_kept m ρ c main_arg8 (by decide) (by decide) (by decide) (by decide) (by decide) (by decide) (by decide) (by decide) (by decide)
theorem W9_main_arg9 (c : Dev nD) : W9 m ρ c (Proc.devRef .tc main_arg9) = m ((c : Thread nD τ).loc main_arg9) :=
  W9_kept m ρ c main_arg9 (by decide) (by decide) (by decide) (by decide) (by decide) (by decide) (by decide) (by decide) (by decide)
theorem W9_main_arg10 (c : Dev nD) : W9 m ρ c (Proc.devRef .tc main_arg10) = m ((c : Thread nD τ).loc main_arg10) :=
  W9_kept m ρ c main_arg10 (by decide) (by decide) (by decide) (by decide) (by decide) (by decide) (by decide) (by decide) (by decide)
theorem W9_main_arg11 (c : Dev nD) : W9 m ρ c (Proc.devRef .tc main_arg11) = m ((c : Thread nD τ).loc main_arg11) :=
  W9_kept m ρ c main_arg11 (by decide) (by decide) (by decide) (by decide) (by decide) (by decide) (by decide) (by decide) (by decide)
theorem W9_main_arg12 (c : Dev nD) : W9 m ρ c (Proc.devRef .tc main_arg12) = m ((c : Thread nD τ).loc main_arg12) :=
  W9_kept m ρ c main_arg12 (by decide) (by decide) (by decide) (by decide) (by decide) (by decide) (by decide) (by decide) (by decide)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 over the thread state: entered from every unscoped buffer at `W5`, left at `W6`. Its arrays are split
    out of the unscoped buffers and put back at what the pipeline leaves; the generator register goes into the class
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W7`, left at `W8`. Its arrays are split
    out of the unscoped buffers and put back at what the pipeline leaves; the generator register goes into the class
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => (show (iprop(StableHlo.held (c : Thread nD τ) (Pipeline.ucRefs τ sig) (W9 m ρ c)
            ∗ ((∃ r, prngReg c r) ∗ ∃ W, owes (c : Thread nD τ) (0 : CellTallies nD τ sig Unit) W)) : sProp 𝕄)
          ⊢ iprop((StableHlo.held (c : Thread nD τ) (Pipeline.ucRefs τ sig) (W9 m ρ c) ∗ ∃ r, prngReg c r)
            ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c),
      (h c _ (mem_uc main_arg9 (by decide))).trans (W9_main_arg9 m ρ c),
      (h c _ (mem_uc main_arg10 (by decide))).trans (W9_main_arg10 m ρ c),
      (h c _ (mem_uc main_arg11 (by decide))).trans (W9_main_arg11 m ρ c),
      (h c _ (mem_uc main_arg12 (by decide))).trans (W9_main_arg12 m ρ c)⟩) (run_all m ρ)

end Cert.Kernel.Gen'

end
-- ==== Proof.KIRegion0.lean ====
/- Pallas call 0 of the kernel program (relu((x·w + s) + b) on a grid of 64 row blocks), at the buffer contents `V`
   found when the call is entered, for any float carrier `F`: each window's block at a grid point, what the body
   leaves in the output block's buffer, the body's triple, the pipeline's proof data and its body obligation. -/
import proofs.«423201_j71829033059182_3_alg».proof.Proof.Gen.KernelIdeal.Launch
import proofs.«423201_j71829033059182_3_alg».proof.Proof.Gen.KernelIdeal.Skeleton
import proofs.«423201_j71829033059182_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is checked coordinate by coordinate along the long axes
set_option maxRecDepth 16384

noncomputable section

namespace Cert.KernelIdeal.Gen'

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when pallas call 0 is entered
variable (V : (c : Dev nD) → (b : Ref sig .tc) → Buf (Elt F) ((c : Thread nD τ).loc b))

/-! ## The windows' blocks -/

/-- Window `w`'s block at grid point `t`, read off its array as the call finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window (64 rows of the 4096x8192 input per point): its current staging buffer holds its block at every
    point, for any proof data over `V`'s array whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The s window (64 rows of the 4096x2048 summand per point), likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The w window (the whole 8192x2048 weight, fetched at the first point only): unfetched, its block index has not
    moved, so the buffer still holds this point's block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The b window (the whole 1x2048 bias, fetched at the first point only), likewise. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer read or written whole -/

abbrev r0_0 : Rect S64x8192 := Rect.unit (s := S64x8192) ![0, 0] S64x8192.size inb_S64x8192_S64x8192_0_0
abbrev r0_1 : Rect S64x2048 := Rect.unit (s := S64x2048) ![0, 0] S64x2048.size inb_S64x2048_S64x2048_0_0
abbrev r0_2 : Rect S8192x2048 := Rect.unit (s := S8192x2048) ![0, 0] S8192x2048.size inb_S8192x2048_S8192x2048_0_0
abbrev r0_3 : Rect S1x2048 := Rect.unit (s := S1x2048) ![0, 0] S1x2048.size inb_S1x2048_S1x2048_0_0

/-! ## What the body leaves in the output window's buffer -/

/-- The output block's buffer after the body, from the four input blocks (x, s, w, b): one store of the whole
    64x2048 block, relu((x·w + s) + b) rounded to bf16. -/
def out0_4 (x0 : Vec F S64x8192 .bf16) (x1 : Vec F S64x2048 .f32) (x2 : Vec F S8192x2048 .bf16) (x3 : Vec F S1x2048 .f32) : Vec F S64x2048 .bf16 :=
  View.canon [⟨r0_1, k0_pay1 (View.ld x0 r0_0) (View.ld x2 r0_2) (View.ld x1 r0_1) (View.ld x3 r0_3)⟩]

/-- The one store is the whole buffer, so it covers it. -/
theorem cover0_4 (p0 : Vec F S64x2048 .bf16) (y : S64x2048.Idx) :
    ∃ pc ∈ ([⟨r0_1, p0⟩] : List (View.Piece (Elt F) S64x2048 .bf16)), y ∈ pc.1.set :=
  View.cover_of_tiled [⟨r0_1, p0⟩] S64x2048.size (by rfl) y

/-! ## The body's triple -/

set_option maxHeartbeats 4000000 in
/-- The body on whole staging memrefs, the four inputs' at read contents `x0 … x3` and the output's at anything, runs
    to the continuation holding the inputs' as they were and the output's at `out0_4` of them. The body also reads
    its output buffer before the store; that value is not used. -/
theorem sound_kernel0 (c : Dev nD) (E : Set ℕ) (i : grid0.Coords)
    (arg1 : Memref sig .tc .vmem S64x8192 .bf16) (harg1 : arg1.IsWhole) (arg2 : Memref sig .tc .vmem S64x2048 .f32) (harg2 : arg2.IsWhole)
    (arg3 : Memref sig .tc .vmem S8192x2048 .bf16) (harg3 : arg3.IsWhole) (arg4 : Memref sig .tc .vmem S1x2048 .f32) (harg4 : arg4.IsWhole)
    (arg5 : Memref sig .tc .vmem S64x2048 .bf16) (harg5 : arg5.IsWhole)
    (x0 : Vec F S64x8192 .bf16) (x1 : Vec F S64x2048 .f32) (x2 : Vec F S8192x2048 .bf16) (x3 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0_kernel i arg1 harg1 arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of pallas call 0 on core `c`: the arrays as the call finds them (`V`); after the body at point
    `t` each input's buffer at its block and the output's at `out0_4` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Gen'

end
-- ==== Proof.KIRegion1.lean ====
/- The second pipelined region of the kernel program (three dense layers on a grid of 8 row blocks), at any
   float model `F` and at a PARAMETER `V`: the TensorCore's buffer contents when the region is entered.
   Each window's block at a grid point is a read of its array in `V`; the body loads the seven input blocks
   whole and stores its one result block whole, so what it leaves in the result window's buffer is one piece,
   the payload of the seven loads; the proof data take the arrays at `V`, each input buffer at its block and
   the result buffer at that piece; and the body's Hoare triple at a generic grid point discharges the
   pipeline library's body obligation. -/
import proofs.«423201_j71829033059182_3_alg».proof.Proof.Gen.KernelIdeal.Launch
import proofs.«423201_j71829033059182_3_alg».proof.Proof.Gen.KernelIdeal.Skeleton
import proofs.«423201_j71829033059182_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is found by a structural recursion along the long axes
set_option maxRecDepth 16384

noncomputable section

namespace Cert.KernelIdeal.Gen'

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- what every TensorCore buffer holds when the region is entered
variable (V : (c : Dev nD) → (b : Ref sig .tc) → Buf (Elt F) ((c : Thread nD τ).loc b))

/-! ## The windows' blocks -/

/-- The block of window `w` at grid point `t`: the window's rectangle at `t`, read from its array in `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current buffer holds the window's block at every grid point, whether the pipeline fetched
    it at that point or at an earlier one (the six whole-array windows are fetched at the first point only and
    their index never moves): for any proof data over `V`'s arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each buffer, whole -/

abbrev r1_a : Rect S512x2048 := Rect.unit (s := S512x2048) ![0, 0] S512x2048.size inb_S512x2048_S512x2048_0_0
abbrev r1_b : Rect S2048x2048 := Rect.unit (s := S2048x2048) ![0, 0] S2048x2048.size inb_S2048x2048_S2048x2048_0_0
abbrev r1_c : Rect S1x2048 := Rect.unit (s := S1x2048) ![0, 0] S1x2048.size inb_S1x2048_S1x2048_0_0
abbrev r1_d : Rect S2048x128 := Rect.unit (s := S2048x128) ![0, 0] S2048x128.size inb_S2048x128_S2048x128_0_0
abbrev r1_e : Rect S1x128 := Rect.unit (s := S1x128) ![0, 0] S1x128.size inb_S1x128_S1x128_0_0
abbrev r1_o : Rect S512x128 := Rect.unit (s := S512x128) ![0, 0] S512x128.size inb_S512x128_S512x128_0_0

/-! ## What the body leaves in the result window's buffer -/

/-- The result buffer after the body, as a function of the seven input blocks: a single piece, the whole
    buffer, holding `relu(relu(x0·x1 + x2)·x3 + x4)·x5 + x6` as the payload computes it from the loads. -/
def out1_7 (x0 : Vec F S512x2048 .bf16) (x1 : Vec F S2048x2048 .bf16) (x2 : Vec F S1x2048 .f32) (x3 : Vec F S2048x2048 .bf16) (x4 : Vec F S1x2048 .f32) (x5 : Vec F S2048x128 .bf16) (x6 : Vec F S1x128 .f32) : Vec F S512x128 .f32 :=
  View.canon [⟨r1_o, k1_pay1 (View.ld x0 r1_a) (View.ld x1 r1_b) (View.ld x2 r1_c) (View.ld x3 r1_b) (View.ld x4 r1_c) (View.ld x5 r1_d) (View.ld x6 r1_e)⟩]

/-- That one piece covers the buffer. -/
theorem cover1_7 (p0 : Vec F S512x128 .f32) (y : S512x128.Idx) :
    ∃ pc ∈ ([⟨r1_o, p0⟩] : List (View.Piece (Elt F) S512x128 .f32)), y ∈ pc.1.set :=
  View.cover_of_tiled [⟨r1_o, p0⟩] S512x128.size (by rfl) y

/-! ## The body's triple -/

set_option maxHeartbeats 4000000 in
/-- The body, called at any grid coordinate on whole buffers — the seven inputs' holding `x0 … x6`, the result's
    holding anything — runs to its continuation with the inputs unchanged and the result buffer at
    `out1_7 x0 … x6`. The body also reads the result buffer before it writes it; the value read is not used. -/
theorem sound_kernel1 (c : Dev nD) (E : Set ℕ) (i : grid1.Coords)
    (arg0 : Memref sig .tc .vmem S512x2048 .bf16) (harg0 : arg0.IsWhole)
    (arg1 : Memref sig .tc .vmem S2048x2048 .bf16) (harg1 : arg1.IsWhole)
    (arg2 : Memref sig .tc .vmem S1x2048 .f32) (harg2 : arg2.IsWhole)
    (arg3 : Memref sig .tc .vmem S2048x2048 .bf16) (harg3 : arg3.IsWhole)
    (arg4 : Memref sig .tc .vmem S1x2048 .f32) (harg4 : arg4.IsWhole)
    (arg5 : Memref sig .tc .vmem S2048x128 .bf16) (harg5 : arg5.IsWhole)
    (arg6 : Memref sig .tc .vmem S1x128 .f32) (harg6 : arg6.IsWhole)
    (arg7 : Memref sig .tc .vmem S512x128 .f32) (harg7 : arg7.IsWhole)
    (x0 : Vec F S512x2048 .bf16) (x1 : Vec F S2048x2048 .bf16) (x2 : Vec F S1x2048 .f32) (x3 : Vec F S2048x2048 .bf16) (x4 : Vec F S1x2048 .f32) (x5 : Vec F S2048x128 .bf16) (x6 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5 x6)) -∗ K ⟨⟩))
      ⊢ wp frame (wpE (defs₀ (F := F)) Variants.none c none) E (cc1_kernel i arg0 harg0 arg1 harg1 arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of the region's pipeline on core `c`: the arrays at `V`; after the body at point `t`, each
    input window's buffer at its block and the result window's at `out1_7` of the seven blocks; the invariant
    that leaves the scoped rest and the generator register alone; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are `V`'s. -/
theorem A_eq1 (c : Dev nD) (w : Fin cfg1.W) : (dat1 V c).A w = V c (Pipeline.arrRef spec1 w) := by
  dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-! Each input window's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at point `t`: the input buffers hold their blocks, so the body's triple applies at those blocks;
    the invariant and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every grid point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Gen'

end
-- ==== Proof.KIRun.lean ====
/- The run of the kernel program's @main, at any float model: nine items — five stretches of host operations, the
   first pipelined region, a stretch, the second region, a last stretch. The buffer contents at each boundary are a
   fold from the launch memory: a stretch applies its operations in order; a region leaves its arrays at what its
   pipeline's write-backs leave and every other buffer as it found it. Each stretch is a host segment over the
   unscoped buffers, each region a segment whose arrays are split out of those buffers at entry and put back at exit.
   The run then says that every weakly fair execution terminates with every unscoped buffer at the last boundary's
   contents; no stretch and no region writes an argument, so each argument array ends as launched. -/
import proofs.«423201_j71829033059182_3_alg».proof.Proof.KIRegion0
import proofs.«423201_j71829033059182_3_alg».proof.Proof.KIRegion1

set_option maxRecDepth 16384

noncomputable section

namespace Cert.KernelIdeal.Gen'

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
/-- The first region's entry contents. -/
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b
/-- At the first region's exit: its arrays at what the pipeline leaves, every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)
/-- The second region's entry contents. -/
abbrev W7 : Dev nD → Valuation τ sig (Elt F) := fun c => StableHlo.after hostOps1 (W6 m ρ c)
abbrev V7 : (c : Dev nD) → (b : Ref sig .tc) → Buf (Elt F) ((c : Thread nD τ).loc b) := fun c b => W7 m ρ c b
/-- At the second region's exit. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)
/-- The contents @main returns with. -/
abbrev W9 : Dev nD → Valuation τ sig (Elt F) := fun c => StableHlo.after hostOps2 (W8 m ρ c)

/-! ## What the stretches write -/

/-- No operation of `hostOps0` allocates a buffer. -/
theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_c, main_v0, main_v1, main_c_0, main_v2, main_v3, main_v4, main_v5, main_v6, main_v7, main_v8, main_cst, main_v9, main_v10, main_v11, main_cst_1, main_v12, main_v13, main_v14, main_cst_2, main_v15, main_v16, main_v17, main_cst_3, main_v18, main_v19, main_v20, main_cst_4, main_v21, main_v22, main_cst_5, main_v23, main_v24, main_cst_6, main_v25, main_v26, main_v27, main_v28, main_v29, main_cst_7, main_v30, main_v31, main_cst_8, main_v32, main_v33, main_v34, main_cst_9, main_v35, main_v36, main_v37, main_v38, main_v39, main_v40, main_v41, main_v42, main_v43, main_cst_10, main_v44, main_v45, main_v46, main_c_11, main_v47, main_v48, main_c_12, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_c_13]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of `hostOps0_1` allocates a buffer. -/
theorem hostOps0_1_fresh : (hostOps0_1 : List (HloOp τ sig (Elt F))).Forall fun op => op.fresh = ∅ := by
  simp only [List.Forall]; repeat' constructor
/-- The references `hostOps0_1`'s operations write. -/
abbrev hostOps0_1_W : List (Ref sig .tc) := [main_call0_v0, main_v78]
theorem hostOps0_1_writes : (hostOps0_1 : List (HloOp τ sig (Elt F))).Forall fun op => op.writes ⊆ (hostOps0_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of `hostOps0_2` allocates a buffer. -/
theorem hostOps0_2_fresh : (hostOps0_2 : List (HloOp τ sig (Elt F))).Forall fun op => op.fresh = ∅ := by
  simp only [List.Forall]; repeat' constructor
/-- The references `hostOps0_2`'s operations write. -/
abbrev hostOps0_2_W : List (Ref sig .tc) := [main_v79, main_c_14]
theorem hostOps0_2_writes : (hostOps0_2 : List (HloOp τ sig (Elt F))).Forall fun op => op.writes ⊆ (hostOps0_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of `hostOps0_3` allocates a buffer. -/
theorem hostOps0_3_fresh : (hostOps0_3 : List (HloOp τ sig (Elt F))).Forall fun op => op.fresh = ∅ := by
  simp only [List.Forall]; repeat' constructor
/-- The references `hostOps0_3`'s operations write. -/
abbrev hostOps0_3_W : List (Ref sig .tc) := [main_call1_v0, main_v80]
theorem hostOps0_3_writes : (hostOps0_3 : List (HloOp τ sig (Elt F))).Forall fun op => op.writes ⊆ (hostOps0_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of `hostOps0_4` allocates a buffer. -/
theorem hostOps0_4_fresh : (hostOps0_4 : List (HloOp τ sig (Elt F))).Forall fun op => op.fresh = ∅ := by
  simp only [List.Forall]; repeat' constructor
/-- The references `hostOps0_4`'s operations write. -/
abbrev hostOps0_4_W : List (Ref sig .tc) := [main_v81, main_v82]
theorem hostOps0_4_writes : (hostOps0_4 : List (HloOp τ sig (Elt F))).Forall fun op => op.writes ⊆ (hostOps0_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of `hostOps1` allocates a buffer. -/
theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_v84, main_v85]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- No operation of `hostOps2` allocates a buffer. -/
theorem hostOps2_fresh : (hostOps2 : List (HloOp τ sig (Elt F))).Forall fun op => op.fresh = ∅ := by
  simp only [List.Forall]; repeat' constructor
/-- The references `hostOps2`'s operations write. -/
abbrev hostOps2_W : List (Ref sig .tc) := [main_v87, main_v88, main_v89, main_cst_15, main_v90, main_v91, main_cst_16, main_v92, main_v93, main_cst_17, main_v94, main_v95, main_v96, main_v97, main_v98, main_v99, main_v100, main_v101, main_v102, main_cst_18, main_v103, main_cst_19, main_v104]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-! ## A buffer that no stretch writes and no region holds as an array ends as launched -/

theorem W9_kept (c : Dev nD) (r : Ref sig .tc) (h0 : r ∉ (hostOps0_W : List (Ref sig .tc))) (h01 : r ∉ (hostOps0_1_W : List (Ref sig .tc)))
    (h02 : r ∉ (hostOps0_2_W : List (Ref sig .tc))) (h03 : r ∉ (hostOps0_3_W : List (Ref sig .tc))) (h04 : r ∉ (hostOps0_4_W : List (Ref sig .tc)))
    (hr0 : ∀ w, Pipeline.arrRef spec0 w ≠ r) (h1 : r ∉ (hostOps1_W : List (Ref sig .tc))) (hr1 : ∀ w, Pipeline.arrRef spec1 w ≠ r)
    (h2 : r ∉ (hostOps2_W : List (Ref sig .tc))) :
    W9 m ρ c (Proc.devRef .tc r) = m ((c : Thread nD τ).loc r) :=
  calc W9 m ρ c (Proc.devRef .tc r)
    _ = W8 m ρ c (Proc.devRef .tc r) := StableHlo.after_of_writes_sub hostOps2 _ hostOps2_writes h2
    _ = W7 m ρ c (Proc.devRef .tc r) := W8_of_ne m ρ c r hr1
    _ = W6 m ρ c (Proc.devRef .tc r) := StableHlo.after_of_writes_sub hostOps1 _ hostOps1_writes h1
    _ = W5 m ρ c (Proc.devRef .tc r) := W6_of_ne m ρ c r hr0
    _ = W4 m ρ c (Proc.devRef .tc r) := StableHlo.after_of_writes_sub hostOps0_4 _ hostOps0_4_writes h04
    _ = W3 m ρ c (Proc.devRef .tc r) := StableHlo.after_of_writes_sub hostOps0_3 _ hostOps0_3_writes h03
    _ = W2 m ρ c (Proc.devRef .tc r) := StableHlo.after_of_writes_sub hostOps0_2 _ hostOps0_2_writes h02
    _ = W1 m ρ c (Proc.devRef .tc r) := StableHlo.after_of_writes_sub hostOps0_1 _ hostOps0_1_writes h01
    _ = W0 m ρ c (Proc.devRef .tc r) := StableHlo.after_of_writes_sub hostOps0 _ hostOps0_writes h0
    _ = m ((c : Thread nD τ).loc r) := rfl

/-- Up to the first region's exit: a buffer the first five stretches do not write and the region does not hold as an array
    is still at its launch contents. -/
theorem W6_kept (c : Dev nD) (r : Ref sig .tc) (h0 : r ∉ (hostOps0_W : List (Ref sig .tc))) (h01 : r ∉ (hostOps0_1_W : List (Ref sig .tc)))
    (h02 : r ∉ (hostOps0_2_W : List (Ref sig .tc))) (h03 : r ∉ (hostOps0_3_W : List (Ref sig .tc))) (h04 : r ∉ (hostOps0_4_W : List (Ref sig .tc)))
    (hr0 : ∀ w, Pipeline.arrRef spec0 w ≠ r) :
    W6 m ρ c (Proc.devRef .tc r) = m ((c : Thread nD τ).loc r) :=
  calc W6 m ρ c (Proc.devRef .tc r)
    _ = W5 m ρ c (Proc.devRef .tc r) := W6_of_ne m ρ c r hr0
    _ = W4 m ρ c (Proc.devRef .tc r) := StableHlo.after_of_writes_sub hostOps0_4 _ hostOps0_4_writes h04
    _ = W3 m ρ c (Proc.devRef .tc r) := StableHlo.after_of_writes_sub hostOps0_3 _ hostOps0_3_writes h03
    _ = W2 m ρ c (Proc.devRef .tc r) := StableHlo.after_of_writes_sub hostOps0_2 _ hostOps0_2_writes h02
    _ = W1 m ρ c (Proc.devRef .tc r) := StableHlo.after_of_writes_sub hostOps0_1 _ hostOps0_1_writes h01
    _ = W0 m ρ c (Proc.devRef .tc r) := StableHlo.after_of_writes_sub hostOps0 _ hostOps0_writes h0
    _ = m ((c : Thread nD τ).loc r) := rfl

theorem W9_main_arg0 (c : Dev nD) : W9 m ρ c (Proc.devRef .tc main_arg0) = m ((c : Thread nD τ).loc main_arg0) :=
  W9_kept m ρ c main_arg0 (by decide) (by decide) (by decide) (by decide) (by decide) (by decide) (by decide) (by decide) (by decide)
theorem W9_main_arg1 (c : Dev nD) : W9 m ρ c (Proc.devRef .tc main_arg1) = m ((c : Thread nD τ).loc main_arg1) :=
  W9_kept m ρ c main_arg1 (by decide) (by decide) (by decide) (by decide) (by decide) (by decide) (by decide) (by decide) (by decide)
theorem W9_main_arg2 (c : Dev nD) : W9 m ρ c (Proc.devRef .tc main_arg2) = m ((c : Thread nD τ).loc main_arg2) :=
  W9_kept m ρ c main_arg2 (by decide) (by decide) (by decide) (by decide) (by decide) (by decide) (by decide) (by decide) (by decide)
theorem W9_main_arg3 (c : Dev nD) : W9 m ρ c (Proc.devRef .tc main_arg3) = m ((c : Thread nD τ).loc main_arg3) :=
  W9_kept m ρ c main_arg3 (by decide) (by decide) (by decide) (by decide) (by decide) (by decide) (by decide) (by decide) (by decide)
theorem W9_main_arg4 (c : Dev nD) : W9 m ρ c (Proc.devRef .tc main_arg4) = m ((c : Thread nD τ).loc main_arg4) :=
  W9_kept m ρ c main_arg4 (by decide) (by decide) (by decide) (by decide) (by decide) (by decide) (by decide) (by decide) (by decide)
theorem W9_main_arg5 (c : Dev nD) : W9 m ρ c (Proc.devRef .tc main_arg5) = m ((c : Thread nD τ).loc main_arg5) :=
  W9_kept m ρ c main_arg5 (by decide) (by decide) (by decide) (by decide) (by decide) (by decide) (by decide) (by decide) (by decide)
theorem W9_main_arg6 (c : Dev nD) : W9 m ρ c (Proc.devRef .tc main_arg6) = m ((c : Thread nD τ).loc main_arg6) :=
  W9_kept m ρ c main_arg6 (by decide) (by decide) (by decide) (by decide) (by decide) (by decide) (by decide) (by decide) (by decide)
theorem W9_main_arg7 (c : Dev nD) : W9 m ρ c (Proc.devRef .tc main_arg7) = m ((c : Thread nD τ).loc main_arg7) :=
  W9_kept m ρ c main_arg7 (by decide) (by decide) (by decide) (by decide) (by decide) (by decide) (by decide) (by decide) (by decide)
theorem W9_main_arg8 (c : Dev nD) : W9 m ρ c (Proc.devRef .tc main_arg8) = m ((c : Thread nD τ).loc main_arg8) :=
  W9_kept m ρ c main_arg8 (by decide) (by decide) (by decide) (by decide) (by decide) (by decide) (by decide) (by decide) (by decide)
theorem W9_main_arg9 (c : Dev nD) : W9 m ρ c (Proc.devRef .tc main_arg9) = m ((c : Thread nD τ).loc main_arg9) :=
  W9_kept m ρ c main_arg9 (by decide) (by decide) (by decide) (by decide) (by decide) (by decide) (by decide) (by decide) (by decide)
theorem W9_main_arg10 (c : Dev nD) : W9 m ρ c (Proc.devRef .tc main_arg10) = m ((c : Thread nD τ).loc main_arg10) :=
  W9_kept m ρ c main_arg10 (by decide) (by decide) (by decide) (by decide) (by decide) (by decide) (by decide) (by decide) (by decide)
theorem W9_main_arg11 (c : Dev nD) : W9 m ρ c (Proc.devRef .tc main_arg11) = m ((c : Thread nD τ).loc main_arg11) :=
  W9_kept m ρ c main_arg11 (by decide) (by decide) (by decide) (by decide) (by decide) (by decide) (by decide) (by decide) (by decide)
theorem W9_main_arg12 (c : Dev nD) : W9 m ρ c (Proc.devRef .tc main_arg12) = m ((c : Thread nD τ).loc main_arg12) :=
  W9_kept m ρ c main_arg12 (by decide) (by decide) (by decide) (by decide) (by decide) (by decide) (by decide) (by decide) (by decide)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 over the thread state: entered from every unscoped buffer at `W5`, left at `W6`. Its arrays are split
    out of the unscoped buffers and put back at what the pipeline leaves; the generator register goes into the class
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W7`, left at `W8`. Its arrays are split
    out of the unscoped buffers and put back at what the pipeline leaves; the generator register goes into the class
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => (show (iprop(StableHlo.held (c : Thread nD τ) (Pipeline.ucRefs τ sig) (W9 m ρ c)
            ∗ ((∃ r, prngReg c r) ∗ ∃ W, owes (c : Thread nD τ) (0 : CellTallies nD τ sig Unit) W)) : sProp 𝕄)
          ⊢ iprop((StableHlo.held (c : Thread nD τ) (Pipeline.ucRefs τ sig) (W9 m ρ c) ∗ ∃ r, prngReg c r)
            ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c),
      (h c _ (mem_uc main_arg9 (by decide))).trans (W9_main_arg9 m ρ c),
      (h c _ (mem_uc main_arg10 (by decide))).trans (W9_main_arg10 m ρ c),
      (h c _ (mem_uc main_arg11 (by decide))).trans (W9_main_arg11 m ρ c),
      (h c _ (mem_uc main_arg12 (by decide))).trans (W9_main_arg12 m ρ c)⟩) (run_all m ρ)

end Cert.KernelIdeal.Gen'

end
-- ==== Proof.LibMatmulPlain.lean ====
import Idealize.ShloMosaic.PureOps.Ideal
import Idealize.ShloMosaic.PureOps.Ideal.Laws
import Idealize.ShloMosaic.Lib.ValueIdx
import Mathlib.Algebra.BigOperators.Group.Finset.Basic

/-!
# The plain matrix product of the matrix unit, read at an index

For the dimension numbers of an M×K by K×N product (the left operand contracted on its axis 1, the right on its
axis 0, no batch axes), the matrix unit's product into an accumulator is, at (p, n), the accumulator there plus
the sum over q of lhs(p, q) · rhs(q, n) on the extended reals.
-/

noncomputable section

open scoped BigOperators

namespace Cert.MatmulPlain

open Idealize.ShloMosaic Idealize.ShloMosaic.ValueIdx

variable {M K N : Nat} (D : DotDims ⟨2, ![M, K]⟩ ⟨2, ![K, N]⟩ ⟨2, ![M, N]⟩)

/-- The one contracted extent is the left operand's extent on its axis 1. -/
private theorem contr_size_plain (hlc : D.lhsContracting = [1]) (h0 : 0 < D.contr.rank) :
    D.contr.size ⟨0, h0⟩ = K := by
  have hp : 0 < D.lhsContracting.length := by rw [hlc]; exact Nat.one_pos
  have hsz := D.size_contr 0 hp
  have hK : ∀ (l : List (Fin 2)) (h : 0 < l.length), l = [1] → (⟨2, ![M, K]⟩ : Shape).size l[0] = K := by
    intro l h e; subst e; rfl
  exact hsz.trans (hK _ hp hlc)

/-- On the left operand's axis 0, its one non-contracting axis and the result's first, the left index reads the
    result index's first coordinate. -/
theorem lhsIdx_val_zero (hln : D.lhsNonContracting = [0]) (hlb : D.lhsBatch = [])
    (j : (⟨2, ![M, N]⟩ : Shape).Idx) (k : D.contr.Idx) :
    (D.lhsIdx j k (0 : Fin 2)).val = (j (0 : Fin 2)).val := by
  unfold DotDims.lhsIdx
  rw [dif_neg (by rw [hlb]; exact List.not_mem_nil), dif_pos (by rw [hln]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val :=
    fun a b ha hb h => by subst h; rfl
  exact key _ _ _ _ (by simp [hlb, hln])

/-- On the left operand's axis 1, the contracted one, the left index reads the contraction position's coordinate. -/
theorem lhsIdx_val_one (hlc : D.lhsContracting = [1]) (j : (⟨2, ![M, N]⟩ : Shape).Idx) (k : D.contr.Idx) :
    (D.lhsIdx j k (1 : Fin 2)).val = (k ⟨0, by rw [D.rank_contr, hlc]; exact Nat.one_pos⟩).val :=
  D.lhsIdx_val_of_single hlc j k

/-- On the right operand's axis 0, the contracted one, the right index reads the contraction position's coordinate. -/
theorem rhsIdx_val_zero (hrc : D.rhsContracting = [0]) (j : (⟨2, ![M, N]⟩ : Shape).Idx) (k : D.contr.Idx) :
    (D.rhsIdx j k (0 : Fin 2)).val = (k ⟨0, by rw [D.rank_contr, ← D.length_contracting, hrc]; exact Nat.one_pos⟩).val :=
  D.rhsIdx_val_of_single hrc j k

/-- On the right operand's axis 1, its one non-contracting axis and the result's second (after the left operand's
    one), the right index reads the result index's second coordinate. -/
theorem rhsIdx_val_one (hln : D.lhsNonContracting = [0]) (hrn : D.rhsNonContracting = [1]) (hlb : D.lhsBatch = [])
    (hrb : D.rhsBatch = []) (j : (⟨2, ![M, N]⟩ : Shape).Idx) (k : D.contr.Idx) :
    (D.rhsIdx j k (1 : Fin 2)).val = (j (1 : Fin 2)).val := by
  unfold DotDims.rhsIdx
  rw [dif_neg (by rw [hrb]; exact List.not_mem_nil), dif_pos (by rw [hrn]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val :=
    fun a b ha hb h => by subst h; rfl
  exact key _ _ _ _ (by simp [hlb, hln, hrn])

/-- THE PRODUCT READ AT (p, n): the accumulator's entry plus the sum over the contracted position q of
    lhs(p, q) · rhs(q, n). -/
theorem matmul_plain_apply (hlc : D.lhsContracting = [1]) (hrc : D.rhsContracting = [0])
    (hln : D.lhsNonContracting = [0]) (hrn : D.rhsNonContracting = [1]) (hlb : D.lhsBatch = []) (hrb : D.rhsBatch = [])
    {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul D prec lhs rhs acc (ix2 p n) = acc (ix2 p n) + ∑ q : Fin K, lhs (ix2 p q) * rhs (ix2 q n) := by
  have hr : D.contr.rank = 1 := by rw [DotDims.rank_contr, hlc]; rfl
  have hs : D.contr.size ⟨0, by omega⟩ = K := contr_size_plain D hlc (by omega)
  rw [Ideal.matmul_apply]
  congr 1
  -- the contraction index set is its one coordinate's range: re-index the sum through that bijection
  rw [← Equiv.sum_comp (contrEquiv1 D K hr hs).symm]
  refine Finset.sum_congr rfl fun q _ => ?_
  have hl : D.lhsIdx (ix2 p n) ((contrEquiv1 D K hr hs).symm q) = ix2 p q := by
    funext a
    match a with
    | ⟨0, _⟩ => exact Fin.ext (lhsIdx_val_zero D hln hlb (ix2 p n) _)
    | ⟨1, _⟩ => exact Fin.ext ((lhsIdx_val_one D hlc (ix2 p n) _).trans (contrEquiv1_symm_val D K hr hs q))
  have hrr : D.rhsIdx (ix2 p n) ((contrEquiv1 D K hr hs).symm q) = ix2 q n := by
    funext a
    match a with
    | ⟨0, _⟩ => exact Fin.ext ((rhsIdx_val_zero D hrc (ix2 p n) _).trans (contrEquiv1_symm_val D K hr hs q))
    | ⟨1, _⟩ => exact Fin.ext (rhsIdx_val_one D hln hrn hlb hrb (ix2 p n) _)
  rw [hl, hrr]

end Cert.MatmulPlain

end
-- ==== Proof.KIValue1.lean ====
/- The value of the second pipelined region's result array on the extended reals: whatever the TensorCore's
   buffers hold when the region is entered (`V`), after the region's eight grid points the 4096×128 result
   array holds, at (p, n), three dense layers of row p of the 4096×2048 input:
     h₁(p, j) = max (∑ q, x(p, q) · w₁(q, j) + b₁(0, j)) 0,
     h₂(p, j) = max (∑ q, h₁(p, q) · w₂(q, j) + b₂(0, j)) 0,
     out(p, n) = ∑ q, h₂(p, q) · w₃(q, n) + b₃(0, n).
   First the body's payload at an entry of its block; then each window's block as rows of its array; then what a
   grid point writes back is its block of ONE function of the entry arrays; the eight blocks cover the array. -/
import proofs.«423201_j71829033059182_3_alg».proof.Proof.KIRegion1
import proofs.«423201_j71829033059182_3_alg».proof.Proof.LibMatmulPlain
import Idealize.ShloMosaic.PureOps.Ideal
import Idealize.ShloMosaic.PureOps.Ideal.Laws
import Idealize.ShloMosaic.Lib.ValueIdx
import Idealize.ShloMosaic.Lib.Pipeline.Value
import Mathlib.Algebra.BigOperators.Group.Finset.Basic

set_option maxRecDepth 16384

noncomputable section

namespace Cert.KernelIdeal.Value1

open Cert.KernelIdeal Cert.KernelIdeal.Gen Cert.KernelIdeal.Gen'
open Idealize.ShloMosaic Idealize.ShloMosaic.TcCoe Idealize.ShloMosaic.ValueIdx Idealize.SL.Sem
open Idealize.ShloMosaic.Pipeline (Dat)
open scoped BigOperators

/-! ## The three layers, entry by entry -/

/-- The first hidden layer at (p, j). -/
def hidden1 (x : S4096x2048.Idx → EReal) (w1 : S2048x2048.Idx → EReal) (b1 : S1x2048.Idx → EReal)
    (p : Fin 4096) (j : Fin 2048) : EReal :=
  max (∑ q : Fin 2048, x (ix2 p q) * w1 (ix2 q j) + b1 (ix2 0 j)) 0

/-- The second hidden layer at (p, j). -/
def hidden2 (x : S4096x2048.Idx → EReal) (w1 : S2048x2048.Idx → EReal) (b1 : S1x2048.Idx → EReal)
    (w2 : S2048x2048.Idx → EReal) (b2 : S1x2048.Idx → EReal) (p : Fin 4096) (j : Fin 2048) : EReal :=
  max (∑ q : Fin 2048, hidden1 x w1 b1 p q * w2 (ix2 q j) + b2 (ix2 0 j)) 0

/-- The output layer at (p, n). -/
def dense3 (x : S4096x2048.Idx → EReal) (w1 : S2048x2048.Idx → EReal) (b1 : S1x2048.Idx → EReal)
    (w2 : S2048x2048.Idx → EReal) (b2 : S1x2048.Idx → EReal) (w3 : S2048x128.Idx → EReal) (b3 : S1x128.Idx → EReal)
    (p : Fin 4096) (n : Fin 128) : EReal :=
  ∑ q : Fin 2048, hidden2 x w1 b1 w2 b2 p q * w3 (ix2 q n) + b3 (ix2 0 n)

/-! ## The body's payload at an entry of its block -/

/-- One hidden layer at an entry: relu of the row-by-column product plus the bias row. -/
theorem layer_wide (a : FVec Ideal S512x2048 .bf16) (w : FVec Ideal S2048x2048 .bf16) (b : FVec Ideal S1x2048 .f32)
    (r : Fin 512) (j : Fin 2048) :
    (truncf .bf16 (maximumf (addf (matmul (φ₁ := .bf16) (φ₂ := .bf16) dot_S512x2048_S2048x2048_S512x2048_1_0_0_1_n_n none a
          (shapeCast S2048x2048 w shapeCasts_S2048x2048_S2048x2048) (constant S512x2048 .f32 0x00000000#32))
        (broadcastTo S512x2048 (shapeCast S1x2048 b shapeCasts_S1x2048_S1x2048) broadcasts_S1x2048_S512x2048))
      (broadcast S512x2048 (Scalar.ofBits .f32 0x00000000#32))) bitsLt_bf16_f32 : FVec Ideal S512x2048 .bf16) (ix2 r j)
      = max (∑ q : Fin 2048, (a (ix2 r q) : EReal) * (w (ix2 q j) : EReal) + (b (ix2 0 j) : EReal)) 0 := by
  rw [truncf_apply, maximumf_apply, addf_apply, broadcast_apply, shapeCast_self, shapeCast_self]
  simp only [matmul]
  rw [Cert.MatmulPlain.matmul_plain_apply _ rfl rfl rfl rfl rfl rfl, constant_apply, Ideal.ofBits_zero_f32, zero_add]
  rw [broadcastTo_apply b _ (ix2 r j) (ix2 0 j) (fun a => by match a with | ⟨0, _⟩ => rfl | ⟨1, _⟩ => rfl)]
  rw [show (Scalar.ofBits (F := Ideal) .f32 0x00000000#32) = 0 from Ideal.ofBits_zero_f32]

/-- The last layer at an entry: the row-by-column product plus the bias row. -/
theorem layer_out (a : FVec Ideal S512x2048 .bf16) (w : FVec Ideal S2048x128 .bf16) (b : FVec Ideal S1x128 .f32)
    (r : Fin 512) (n : Fin 128) :
    (addf (matmul (φ₁ := .bf16) (φ₂ := .bf16) dot_S512x2048_S2048x128_S512x128_1_0_0_1_n_n none a
          (shapeCast S2048x128 w shapeCasts_S2048x128_S2048x128) (constant S512x128 .f32 0x00000000#32))
        (broadcastTo S512x128 (shapeCast S1x128 b shapeCasts_S1x128_S1x128) broadcasts_S1x128_S512x128) : FVec Ideal S512x128 .f32) (ix2 r n)
      = ∑ q : Fin 2048, (a (ix2 r q) : EReal) * (w (ix2 q n) : EReal) + (b (ix2 0 n) : EReal) := by
  rw [addf_apply, shapeCast_self, shapeCast_self]
  simp only [matmul]
  rw [Cert.MatmulPlain.matmul_plain_apply _ rfl rfl rfl rfl rfl rfl, constant_apply, Ideal.ofBits_zero_f32, zero_add]
  rw [broadcastTo_apply b _ (ix2 r n) (ix2 0 n) (fun a => by match a with | ⟨0, _⟩ => rfl | ⟨1, _⟩ => rfl)]

/-- The body's payload at entry (r, n) of the result block. -/
theorem pay_apply (x0 : Vec Ideal S512x2048 .bf16) (x1 : Vec Ideal S2048x2048 .bf16) (x2 : Vec Ideal S1x2048 .f32)
    (x3 : Vec Ideal S2048x2048 .bf16) (x4 : Vec Ideal S1x2048 .f32) (x5 : Vec Ideal S2048x128 .bf16) (x6 : Vec Ideal S1x128 .f32)
    (r : Fin 512) (n : Fin 128) :
    (k1_pay1 (F := Ideal) x0 x1 x2 x3 x4 x5 x6 (ix2 r n) : EReal)
      = ∑ q : Fin 2048,
          max (∑ q' : Fin 2048,
            max (∑ q'' : Fin 2048, (x0 (ix2 r q'') : EReal) * (x1 (ix2 q'' q') : EReal) + (x2 (ix2 0 q') : EReal)) 0
              * (x3 (ix2 q' q) : EReal) + (x4 (ix2 0 q) : EReal)) 0
            * (x5 (ix2 q n) : EReal) + (x6 (ix2 0 n) : EReal) := by
  unfold k1_pay1
  refine (layer_out _ x5 x6 r n).trans ?_
  refine congrArg (fun s : EReal => s + (x6 (ix2 0 n) : EReal)) (Finset.sum_congr rfl fun q _ => ?_)
  refine congrArg (fun s : EReal => s * (x5 (ix2 q n) : EReal)) ?_
  refine (layer_wide _ x3 x4 r q).trans ?_
  refine congrArg (fun s : EReal => max (s + (x4 (ix2 0 q) : EReal)) 0) (Finset.sum_congr rfl fun q' _ => ?_)
  refine congrArg (fun s : EReal => s * (x3 (ix2 q' q) : EReal)) ?_
  refine (layer_wide _ x1 x2 r q').trans ?_
  rw [shapeCast_self]

/-! ## From blocks to the array -/

section Region1
variable (V : (c : Dev nD) → (b : Ref sig .tc) → Buf (Elt Ideal) ((c : Thread nD τ).loc b))

theorem hz : (![0, 0] : Fin 2 → Nat) = fun _ => 0 := funext fun a => by fin_cases a <;> rfl

/-- The result array as one function of the arrays the region finds. -/
def G1 (c : Dev nD) : S4096x128.Idx → EReal := fun i =>
  dense3 (V c main_v83) (V c main_v76) (V c main_v84) (V c main_v77) (V c main_v85) (V c main_v79) (V c main_v81) (i 0) (i 1)

/-- The windows' block indices over the grid: the input and the result move one row block per point, the six
    weight and bias windows stay on their one block. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The input window's block at point `t` is rows 512·t … 512·t + 511 of its array. -/
theorem blk0_apply (c : Dev nD) (t : Fin cfg1.N) (r : Fin 512) (q : Fin 2048) (hp : 512 * t.val + r.val < 4096) :
    (iblk1 V c 0 t : Vec Ideal S512x2048 .bf16) (ix2 r q) = V c main_v83 (ix2 ⟨512 * t.val + r.val, hp⟩ q) := by
  obtain ⟨e00, e01, -, -, -, -, -, -, -, -, -, -, -, -, -, -⟩ := idx_facts1 t
  unfold iblk1
  rw [View.read_apply]
  show V c main_v83 _ = V c main_v83 _
  congr 1
  funext a
  apply Fin.ext
  match a with
  | ⟨0, _⟩ => show win1_0.index t (0 : Fin 2) * 512 + 1 * r.val = 512 * t.val + r.val; rw [e00]; omega
  | ⟨1, _⟩ => show win1_0.index t (1 : Fin 2) * 2048 + 1 * q.val = q.val; rw [e01]; omega

/-! Each weight or bias window's block, at every point, is its whole array. -/
theorem blk1_eq (c : Dev nD) (t : Fin cfg1.N) : (iblk1 V c 1 t : Vec Ideal S2048x2048 .bf16) = V c main_v76 := by
  obtain ⟨-, -, e10, e11, -, -, -, -, -, -, -, -, -, -, -, -⟩ := idx_facts1 t
  funext y
  unfold iblk1
  rw [View.read_apply]
  show V c main_v76 _ = V c main_v76 y
  congr 1
  funext a
  apply Fin.ext
  match a with
  | ⟨0, _⟩ => show win1_1.index t (0 : Fin 2) * 2048 + 1 * (y 0).val = (y 0).val; rw [e10]; omega
  | ⟨1, _⟩ => show win1_1.index t (1 : Fin 2) * 2048 + 1 * (y 1).val = (y 1).val; rw [e11]; omega
theorem blk2_eq (c : Dev nD) (t : Fin cfg1.N) : (iblk1 V c 2 t : Vec Ideal S1x2048 .f32) = V c main_v84 := by
  obtain ⟨-, -, -, -, e20, e21, -, -, -, -, -, -, -, -, -, -⟩ := idx_facts1 t
  funext y
  unfold iblk1
  rw [View.read_apply]
  show V c main_v84 _ = V c main_v84 y
  congr 1
  funext a
  apply Fin.ext
  match a with
  | ⟨0, _⟩ => show win1_2.index t (0 : Fin 2) * 1 + 1 * (y 0).val = (y 0).val; rw [e20]; omega
  | ⟨1, _⟩ => show win1_2.index t (1 : Fin 2) * 2048 + 1 * (y 1).val = (y 1).val; rw [e21]; omega
theorem blk3_eq (c : Dev nD) (t : Fin cfg1.N) : (iblk1 V c 3 t : Vec Ideal S2048x2048 .bf16) = V c main_v77 := by
  obtain ⟨-, -, -, -, -, -, e30, e31, -, -, -, -, -, -, -, -⟩ := idx_facts1 t
  funext y
  unfold iblk1
  rw [View.read_apply]
  show V c main_v77 _ = V c main_v77 y
  congr 1
  funext a
  apply Fin.ext
  match a with
  | ⟨0, _⟩ => show win1_3.index t (0 : Fin 2) * 2048 + 1 * (y 0).val = (y 0).val; rw [e30]; omega
  | ⟨1, _⟩ => show win1_3.index t (1 : Fin 2) * 2048 + 1 * (y 1).val = (y 1).val; rw [e31]; omega
theorem blk4_eq (c : Dev nD) (t : Fin cfg1.N) : (iblk1 V c 4 t : Vec Ideal S1x2048 .f32) = V c main_v85 := by
  obtain ⟨-, -, -, -, -, -, -, -, e40, e41, -, -, -, -, -, -⟩ := idx_facts1 t
  funext y
  unfold iblk1
  rw [View.read_apply]
  show V c main_v85 _ = V c main_v85 y
  congr 1
  funext a
  apply Fin.ext
  match a with
  | ⟨0, _⟩ => show win1_4.index t (0 : Fin 2) * 1 + 1 * (y 0).val = (y 0).val; rw [e40]; omega
  | ⟨1, _⟩ => show win1_4.index t (1 : Fin 2) * 2048 + 1 * (y 1).val = (y 1).val; rw [e41]; omega
theorem blk5_eq (c : Dev nD) (t : Fin cfg1.N) : (iblk1 V c 5 t : Vec Ideal S2048x128 .bf16) = V c main_v79 := by
  obtain ⟨-, -, -, -, -, -, -, -, -, -, e50, e51, -, -, -, -⟩ := idx_facts1 t
  funext y
  unfold iblk1
  rw [View.read_apply]
  show V c main_v79 _ = V c main_v79 y
  congr 1
  funext a
  apply Fin.ext
  match a with
  | ⟨0, _⟩ => show win1_5.index t (0 : Fin 2) * 2048 + 1 * (y 0).val = (y 0).val; rw [e50]; omega
  | ⟨1, _⟩ => show win1_5.index t (1 : Fin 2) * 128 + 1 * (y 1).val = (y 1).val; rw [e51]; omega
theorem blk6_eq (c : Dev nD) (t : Fin cfg1.N) : (iblk1 V c 6 t : Vec Ideal S1x128 .f32) = V c main_v81 := by
  obtain ⟨-, -, -, -, -, -, -, -, -, -, -, -, e60, e61, -, -⟩ := idx_facts1 t
  funext y
  unfold iblk1
  rw [View.read_apply]
  show V c main_v81 _ = V c main_v81 y
  congr 1
  funext a
  apply Fin.ext
  match a with
  | ⟨0, _⟩ => show win1_6.index t (0 : Fin 2) * 1 + 1 * (y 0).val = (y 0).val; rw [e60]; omega
  | ⟨1, _⟩ => show win1_6.index t (1 : Fin 2) * 128 + 1 * (y 1).val = (y 1).val; rw [e61]; omega

/-- What point `t` writes back is block `t` of `G1`. -/
theorem flushed_eq1 (c : Dev nD) (t : Fin cfg1.N) :
    (dat1 (F := Ideal) V c).flushed 7 t = ((cfg1.win 7).blk t).view.read (Elt Ideal) (G1 V c) := by
  show (cfg1.win 7).cut (grid1.coords t) ((dat1 (F := Ideal) V c).after 7 t) = _
  rw [after1_7]
  unfold out1_7
  rw [View.canon_unit_zero hz]
  simp only [View.ld_unit_zero (S := S512x2048) hz, View.ld_unit_zero (S := S2048x2048) hz, View.ld_unit_zero (S := S1x2048) hz,
    View.ld_unit_zero (S := S2048x128) hz, View.ld_unit_zero (S := S1x128) hz]
  funext j
  obtain ⟨r, n, rfl⟩ : ∃ (r : Fin 512) (n : Fin 128), j = ix2 r n := ⟨j 0, j 1, eq_ix2 j⟩
  have ht : t.val < 8 := Nat.lt_of_lt_of_eq t.isLt N_1
  have hp : 512 * t.val + r.val < 4096 := by have := r.isLt; omega
  obtain ⟨-, -, -, -, -, -, -, -, -, -, -, -, -, -, e70, e71⟩ := idx_facts1 t
  have hemb : ((cfg1.win 7).blk t).view.emb (ix2 r n) = ix2 (⟨512 * t.val + r.val, hp⟩ : Fin 4096) n := by
    funext a
    apply Fin.ext
    match a with
    | ⟨0, _⟩ => show win1_7.index t (0 : Fin 2) * 512 + 1 * r.val = 512 * t.val + r.val; rw [e70]; omega
    | ⟨1, _⟩ => show win1_7.index t (1 : Fin 2) * 128 + 1 * n.val = n.val; rw [e71]; omega
  show k1_pay1 (F := Ideal) (iblk1 V c 0 t) (iblk1 V c 1 t) (iblk1 V c 2 t) (iblk1 V c 3 t) (iblk1 V c 4 t) (iblk1 V c 5 t) (iblk1 V c 6 t) (ix2 r n)
    = G1 V c (((cfg1.win 7).blk t).view.emb (ix2 r n))
  rw [hemb]
  refine (pay_apply (iblk1 V c 0 t) (iblk1 V c 1 t) (iblk1 V c 2 t) (iblk1 V c 3 t) (iblk1 V c 4 t) (iblk1 V c 5 t) (iblk1 V c 6 t) r n).trans ?_
  rw [blk1_eq V c t, blk2_eq V c t, blk3_eq V c t, blk4_eq V c t, blk5_eq V c t, blk6_eq V c t]
  simp only [blk0_apply V c t r _ hp]
  rfl

/-- An index of the result array is in point `t`'s block iff each coordinate is in the block's range. -/
theorem mem_blk7 (t : Fin cfg1.N) (i : S4096x128.Idx) :
    i ∈ ((cfg1.win 7).blk t).view.set ↔ ∀ a : Fin 2, win1_7.index t a * S512x128.size a ≤ (i a).val ∧ (i a).val < win1_7.index t a * S512x128.size a + S512x128.size a := by
  show i ∈ ((View.whole main_v86).slice (win1_7.rect t)).set ↔ _
  rw [View.set_slice_whole, Rect.mem_set_unit]
  exact Iff.rfl

/-- Row p of the result array is in the block of point p / 512, which writes back. -/
theorem cover7 (i : S4096x128.Idx) :
    ∃ t : Fin cfg1.N, (cfg1.win 7).flush t = true ∧ i ∈ ((cfg1.win 7).blk t).view.set := by
  have hi0 : (i 0).val < 4096 := (i 0).isLt
  have hi1 : (i 1).val < 128 := (i 1).isLt
  obtain ⟨t, htv⟩ : ∃ t : Fin cfg1.N, t.val = (i 0).val / 512 :=
    ⟨⟨(i 0).val / 512, Nat.lt_of_lt_of_eq (by omega : (i 0).val / 512 < 8) N_1.symm⟩, rfl⟩
  obtain ⟨-, -, -, -, -, -, -, -, -, -, -, -, -, -, e70, e71⟩ := idx_facts1 t
  refine ⟨t, flush1_7 t, ?_⟩
  rw [mem_blk7]
  intro a
  match a with
  | ⟨0, _⟩ => show win1_7.index t (0 : Fin 2) * 512 ≤ (i 0).val ∧ (i 0).val < win1_7.index t (0 : Fin 2) * 512 + 512; rw [e70, htv]; omega
  | ⟨1, _⟩ => show win1_7.index t (1 : Fin 2) * 128 ≤ (i 1).val ∧ (i 1).val < win1_7.index t (1 : Fin 2) * 128 + 128; rw [e71]; omega

/-- THE RESULT ARRAY after the region's last point is `G1`. -/
theorem region1_array (c : Dev nD) : (dat1 (F := Ideal) V c).arrAt 7 cfg1.N = G1 V c :=
  (dat1 (F := Ideal) V c).arrAt_eq_of_cover 7 (G1 V c) (fun t _ => flushed_eq1 V c t) cover7

/-- The same, entry by entry: three dense layers of the arrays the region finds. -/
theorem region1_value (c : Dev nD) (p : Fin 4096) (n : Fin 128) :
    (dat1 (F := Ideal) V c).arrAt 7 cfg1.N (ix2 p n)
      = dense3 (V c main_v83) (V c main_v76) (V c main_v84) (V c main_v77) (V c main_v85) (V c main_v79) (V c main_v81) p n :=
  congrFun (region1_array V c) (ix2 p n)

end Region1

end Cert.KernelIdeal.Value1

end
-- ==== Proof.KIHost.lean ====
/- The host-side arithmetic around the two regions. Three kinds of fact, all at the ideal (extended-real) floats and for
   an arbitrary initial valuation of the buffers.
   (1) What the first stretch of host operations leaves in the first region's three computed operands, written over the
       features the stretch computes on the way: the neighbours' embeddings flattened to 64·128 entries a row; of each
       neighbour's 133 weight rows the first 128; and the 448 remaining entries of a row contracted with the 448
       remaining weight rows.
   (2) The operands of the two regions that are copies of arguments, read at an entry: reshapes of bias vectors to
       one-row matrices, two weight matrices narrowed (the identity on extended reals), and the last layer's weights and
       bias padded from 64 to 128 columns, whose first 64 columns are the arguments' entries.
   (3) The last stretch as two functions of the logits (and of the targets): the probabilities 1/(1 + exp(−l)) and the
       mean of max(l, 0) − l·t + log(1 + exp(−|l|)). -/
import proofs.«423201_j71829033059182_3_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

set_option maxRecDepth 16384

noncomputable section

namespace Cert.Bridge.Host

open Cert.KernelIdeal Cert.KernelIdeal.Gen Idealize.ShloMosaic Idealize.ShloMosaic.StableHlo Idealize.ShloMosaic.ValueIdx

/-- A tensor value's buffer on the TensorCore, as a buffer of the device. -/
local notation "⟪" r "⟫" => Proc.devRef (τ := τ) Proc.tc r

/-- An operation over a literal family of three references leaves in its result buffer its function of the three
    operands' contents, each read at its own reference. -/
theorem nary3_at {Val : EltTy → Type} {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) := by
  rw [nary_result]; congr 1; funext k; fin_cases k <;> rfl

/-- What one buffer holds after a stretch of host operations, computed in one pass: each operation's result at its own
    buffer is its function of its operands' contents, and at any other buffer what was there. -/
macro "host_results" : tactic =>
  `(tactic| (simp (disch := decide) only [after_cons, after_nil,
      nullary_result', unary_result', binary_result', ternary_result', quaternary_result', reshape_result', nary4_result', nary3_at,
      nary_result', unaryIndexed_result', binaryIndexed_result',
      nullary_result_ne', unary_result_ne', binary_result_ne', ternary_result_ne', quaternary_result_ne', reshape_result_ne',
      nary_result_ne', unaryIndexed_result_ne', binaryIndexed_result_ne']))

/-! ## The first region's computed operands -/

section Part1
variable (W : Valuation τ sig (Elt Ideal))

/-- The contents after the first stretch of host operations. -/
local notation "K[" r "]" => StableHlo.after (hostOps0 (F := Ideal)) W (Proc.devRef (τ := τ) Proc.tc r)

/-- The weight rows below the target embedding's, one group of 133 rows per neighbour. -/
local notation "W166[" W "]" =>
  (shapeCast S64x133x2048 (extractStridedSlice S8512x2048 ![128, 0] (W (Proc.devRef (τ := τ) Proc.tc main_arg5) : FVec Ideal S8640x2048 FTy.f32)
    slices_S8640x2048_S8512x2048_128_0) shapeCasts_S8512x2048_S64x133x2048 : FVec Ideal S64x133x2048 FTy.f32)

set_option maxHeartbeats 4000000 in
/-- The first region's left operand: the neighbours' embeddings, 64·128 entries a row. -/
theorem K_v61 :
    (K[main_v61] : FVec Ideal S4096x8192 .bf16)
      = (shapeCast S4096x8192 (truncf (F := Ideal) .bf16 (K[main_v6] : FVec Ideal S4096x64x128 .f32) bitsLt_bf16_f32) shapeCasts_S4096x64x128_S4096x8192 : FVec Ideal S4096x8192 .bf16) := by
  host_results
  rfl

set_option maxHeartbeats 4000000 in
/-- The first region's right operand: of each neighbour's 133 weight rows the first 128, 64·128 rows in all. -/
theorem K_v69 :
    (K[main_v69] : FVec Ideal S8192x2048 .bf16)
      = (truncf (F := Ideal) .bf16 (shapeCast S8192x2048 (extractStridedSlice S64x128x2048 ![0, 0, 0] W166[W]
          slices_S64x133x2048_S64x128x2048_0_0_0) shapeCasts_S64x128x2048_S8192x2048 : FVec Ideal S8192x2048 .f32) bitsLt_bf16_f32 : FVec Ideal S8192x2048 .bf16) := by
  host_results
  rfl

set_option maxHeartbeats 8000000 in
/-- The first region's addend: the 448 remaining entries of a row (the target's embedding, four features of each
    neighbour, one popularity feature of each neighbour) contracted with the 448 matching weight rows. -/
theorem K_v75 :
    (K[main_v75] : FVec Ideal S4096x2048 .f32)
      = Host.dotGeneral (F := Ideal) dot_S4096x448_S448x2048_S4096x2048_1_0_0_1_n_n (some .fp32)
          (concatenate (α := Ideal .f32) S4096x448 1 [⟨S4096x128, (W (Proc.devRef (τ := τ) Proc.tc main_arg0) : FVec Ideal S4096x128 .f32)⟩,
            ⟨S4096x256, shapeCast S4096x256 (concatenate (α := Ideal .f32) S4096x64x4 2
              [⟨S4096x64x1, broadcastInDim S4096x64x1 ![0, 1] bcast_S4096x64_S4096x64x1_0_1 (K[main_v39] : FVec Ideal S4096x64 .f32)⟩,
               ⟨S4096x64x1, broadcastInDim S4096x64x1 ![0, 1] bcast_S4096x64_S4096x64x1_0_1 (K[main_v46] : FVec Ideal S4096x64 .f32)⟩,
               ⟨S4096x64x1, broadcastInDim S4096x64x1 ![0, 1] bcast_S4096x64_S4096x64x1_0_1 (K[main_v15] : FVec Ideal S4096x64 .f32)⟩,
               ⟨S4096x64x1, broadcastInDim S4096x64x1 ![0, 1] bcast_S4096x64_S4096x64x1_0_1 (K[main_v15] : FVec Ideal S4096x64 .f32)⟩]
              concatenates_S4096x64x1_S4096x64x1_S4096x64x1_S4096x64x1_S4096x64x4_d2) shapeCasts_S4096x64x4_S4096x256⟩,
            ⟨S4096x64, (K[main_v54] : FVec Ideal S4096x64 .f32)⟩]
            concatenates_S4096x128_S4096x256_S4096x64_S4096x448_d1)
          (concatenate (α := Ideal .f32) S448x2048 0 [⟨S128x2048, extractStridedSlice S128x2048 ![0, 0] (W (Proc.devRef (τ := τ) Proc.tc main_arg5) : FVec Ideal S8640x2048 .f32) slices_S8640x2048_S128x2048_0_0⟩,
            ⟨S256x2048, shapeCast S256x2048 (extractStridedSlice S64x4x2048 ![0, 128, 0] W166[W] slices_S64x133x2048_S64x4x2048_0_128_0) shapeCasts_S64x4x2048_S256x2048⟩,
            ⟨S64x2048, shapeCast S64x2048 (extractStridedSlice S64x1x2048 ![0, 132, 0] W166[W] slices_S64x133x2048_S64x1x2048_0_132_0) shapeCasts_S64x1x2048_S64x2048⟩]
            concatenates_S128x2048_S256x2048_S64x2048_S448x2048_d0) := by
  host_results
  rfl

end Part1

/-! ## Operands that are copies of arguments -/

section Part2

variable (V W Y : Valuation τ sig (Elt Ideal))

/-- The four short stretches between the first stretch and the first region. -/
local notation "E[" V "]" => StableHlo.after (hostOps0_4 (F := Ideal)) (StableHlo.after (hostOps0_3 (F := Ideal)) (StableHlo.after (hostOps0_2 (F := Ideal)) (StableHlo.after (hostOps0_1 (F := Ideal)) V)))

theorem entry0_v61 : E[V] ⟪main_v61⟫ = V ⟪main_v61⟫ := by host_results
theorem entry0_v75 : E[V] ⟪main_v75⟫ = V ⟪main_v75⟫ := by host_results
theorem entry0_v69 : E[V] ⟪main_v69⟫ = V ⟪main_v69⟫ := by host_results
theorem entry0_v76 : E[V] ⟪main_v76⟫ = V ⟪main_v76⟫ := by host_results
theorem entry0_v77 : E[V] ⟪main_v77⟫ = V ⟪main_v77⟫ := by host_results

/-- The first layer's bias as a one-row matrix. -/
theorem entry0_v82_apply (s : Fin 2048) : E[V] ⟪main_v82⟫ (ix2 (0 : Fin 1) s) = V ⟪main_arg6⟫ (ix1 s) := by
  host_results
  exact shapeCast_a_1a_apply _ _ _ _

/-- The last layer's weights, 64 columns padded to 128: the first 64 columns are the weights. -/
theorem entry0_v79_apply (q : Fin 2048) (j : Fin 64) :
    E[V] ⟪main_v79⟫ (ix2 q (⟨j.val, Nat.lt_trans j.isLt (by decide)⟩ : Fin 128)) = V ⟪main_arg11⟫ (ix2 q j) := by
  host_results
  refine (pad_apply_of_inside _ _ _ _ _ pads_S2048x64_S2048x128_000_0640 h_S_ _ (ix2 q j) fun a => ?_)
  match a with
  | ⟨0, _⟩ => show q.val = 0 + q.val * (0 + 1); omega
  | ⟨1, _⟩ => show j.val = 0 + j.val * (0 + 1); omega

/-- The last layer's bias, 64 entries padded to 128, as a one-row matrix: the first 64 entries are the bias. -/
theorem entry0_v81_apply (j : Fin 64) :
    E[V] ⟪main_v81⟫ (ix2 (0 : Fin 1) (⟨j.val, Nat.lt_trans j.isLt (by decide)⟩ : Fin 128)) = V ⟪main_arg12⟫ (ix1 j) := by
  host_results
  refine (shapeCast_a_1a_apply _ _ _ _).trans ?_
  refine (pad_apply_of_inside _ _ _ _ _ pads_S64_S128_0640 h_S_ _ (ix1 j) fun a => ?_)
  match a with
  | ⟨0, _⟩ => show j.val = 0 + j.val * (0 + 1); omega

/-! The first stretch writes no argument, and holds the two middle layers' weights as they are. -/

set_option maxHeartbeats 4000000 in
theorem after_hostOps0_arg6 : StableHlo.after (hostOps0 (F := Ideal)) W ⟪main_arg6⟫ = W ⟪main_arg6⟫ := by host_results
set_option maxHeartbeats 4000000 in
theorem after_hostOps0_arg11 : StableHlo.after (hostOps0 (F := Ideal)) W ⟪main_arg11⟫ = W ⟪main_arg11⟫ := by host_results
set_option maxHeartbeats 4000000 in
theorem after_hostOps0_arg12 : StableHlo.after (hostOps0 (F := Ideal)) W ⟪main_arg12⟫ = W ⟪main_arg12⟫ := by host_results

set_option maxHeartbeats 4000000 in
theorem after_hostOps0_v76_apply (i : S2048x2048.Idx) :
    StableHlo.after (hostOps0 (F := Ideal)) W ⟪main_v76⟫ i = W ⟪main_arg7⟫ i := by
  host_results
  rfl
set_option maxHeartbeats 4000000 in
theorem after_hostOps0_v77_apply (i : S2048x2048.Idx) :
    StableHlo.after (hostOps0 (F := Ideal)) W ⟪main_v77⟫ i = W ⟪main_arg9⟫ i := by
  host_results
  rfl

/-! The stretch between the two regions reshapes two biases and writes nothing else. -/

theorem after_hostOps1_v84_apply (r : Fin 2048) :
    StableHlo.after (hostOps1 (F := Ideal)) Y ⟪main_v84⟫ (ix2 (0 : Fin 1) r) = Y ⟪main_arg8⟫ (ix1 r) := by
  host_results
  exact shapeCast_a_1a_apply _ _ _ _
theorem after_hostOps1_v85_apply (r : Fin 2048) :
    StableHlo.after (hostOps1 (F := Ideal)) Y ⟪main_v85⟫ (ix2 (0 : Fin 1) r) = Y ⟪main_arg10⟫ (ix1 r) := by
  host_results
  exact shapeCast_a_1a_apply _ _ _ _
theorem after_hostOps1_v83 : StableHlo.after (hostOps1 (F := Ideal)) Y ⟪main_v83⟫ = Y ⟪main_v83⟫ := by host_results
theorem after_hostOps1_v76 : StableHlo.after (hostOps1 (F := Ideal)) Y ⟪main_v76⟫ = Y ⟪main_v76⟫ := by host_results
theorem after_hostOps1_v77 : StableHlo.after (hostOps1 (F := Ideal)) Y ⟪main_v77⟫ = Y ⟪main_v77⟫ := by host_results
theorem after_hostOps1_v79 : StableHlo.after (hostOps1 (F := Ideal)) Y ⟪main_v79⟫ = Y ⟪main_v79⟫ := by host_results
theorem after_hostOps1_v81 : StableHlo.after (hostOps1 (F := Ideal)) Y ⟪main_v81⟫ = Y ⟪main_v81⟫ := by host_results

/-! The same entries read from the initial valuation, through the first stretch. -/

set_option maxHeartbeats 4000000 in
theorem entry_v82_apply (s : Fin 2048) :
    E[StableHlo.after (hostOps0 (F := Ideal)) W] ⟪main_v82⟫ (ix2 (0 : Fin 1) s) = W ⟪main_arg6⟫ (ix1 s) :=
  (entry0_v82_apply _ s).trans (congrFun (after_hostOps0_arg6 W) _)

set_option maxHeartbeats 4000000 in
theorem entry_v79_apply (q : Fin 2048) (j : Fin 64) :
    E[StableHlo.after (hostOps0 (F := Ideal)) W] ⟪main_v79⟫ (ix2 q (⟨j.val, Nat.lt_trans j.isLt (by decide)⟩ : Fin 128))
      = W ⟪main_arg11⟫ (ix2 q j) :=
  (entry0_v79_apply _ q j).trans (congrFun (after_hostOps0_arg11 W) _)

set_option maxHeartbeats 4000000 in
theorem entry_v81_apply (j : Fin 64) :
    E[StableHlo.after (hostOps0 (F := Ideal)) W] ⟪main_v81⟫ (ix2 (0 : Fin 1) (⟨j.val, Nat.lt_trans j.isLt (by decide)⟩ : Fin 128))
      = W ⟪main_arg12⟫ (ix1 j) :=
  (entry0_v81_apply _ j).trans (congrFun (after_hostOps0_arg12 W) _)

set_option maxHeartbeats 4000000 in
theorem entry_v76_apply (i : S2048x2048.Idx) :
    E[StableHlo.after (hostOps0 (F := Ideal)) W] ⟪main_v76⟫ i = W ⟪main_arg7⟫ i :=
  (congrFun (entry0_v76 _) i).trans (after_hostOps0_v76_apply W i)

set_option maxHeartbeats 4000000 in
theorem entry_v77_apply (i : S2048x2048.Idx) :
    E[StableHlo.after (hostOps0 (F := Ideal)) W] ⟪main_v77⟫ i = W ⟪main_arg9⟫ i :=
  (congrFun (entry0_v77 _) i).trans (after_hostOps0_v77_apply W i)

end Part2

/-! ## The last stretch -/

section Part3

/-- The probabilities from the logits: one over one plus the exponential of the negated logit. -/
def tailDist (L : FVec Ideal S4096x64 .f32) : FVec Ideal S4096x64 .f32 :=
  Host.divf (broadcastInDim S4096x64 ![] bcast_S_S4096x64 (constant S_ .f32 0x3F800000#32))
    (addf (broadcastInDim S4096x64 ![] bcast_S_S4096x64 (constant S_ .f32 0x3F800000#32)) (Host.exp (Host.negf L)))

/-- The mean, over all 4096·64 entries, of max(l, 0) − l·t + log(1 + exp(−|l|)) at logit l and target t. -/
def tailLoss (L T : FVec Ideal S4096x64 .f32) : FVec Ideal S_ .f32 :=
  Host.divf
    (Host.reduceAdd
      (addf (subf (maximumf L (broadcastInDim S4096x64 ![] bcast_S_S4096x64 (constant S_ .f32 0x00000000#32))) (mulf L T))
        (Host.log1p (Host.exp (Host.negf (Host.absf L)))))
      (constant S_ .f32 0x00000000#32) reducesTo_S4096x64_S_d0_1 h_S_)
    (constant S_ .f32 0x48800000#32)

variable (Y : Valuation τ sig (Elt Ideal))

/-- The kernel's probabilities are the tail applied to the first 64 columns of the second region's result. -/
theorem after_hostOps2_v93 :
    StableHlo.after (hostOps2 (F := Ideal)) Y ⟪main_v93⟫
      = tailDist (extractStridedSlice S4096x64 ![0, 0] (Y ⟪main_v86⟫) slices_S4096x128_S4096x64_0_0) := by
  host_results
  rfl

/-- The kernel's loss is the tail applied to the first 64 columns of the second region's result and the targets. -/
theorem after_hostOps2_v104 :
    StableHlo.after (hostOps2 (F := Ideal)) Y ⟪main_v104⟫
      = tailLoss (extractStridedSlice S4096x64 ![0, 0] (Y ⟪main_v86⟫) slices_S4096x128_S4096x64_0_0) (Y ⟪main_arg2⟫) := by
  host_results
  rfl

/-- The first 64 of 128 columns, read at an entry. -/
theorem slice_cols64_apply (O : (⟨S4096x128, .f32⟩ : BufTy).Contents (Elt Ideal)) (b : Fin 4096) (j : Fin 64) :
    extractStridedSlice S4096x64 ![0, 0] O slices_S4096x128_S4096x64_0_0 (ix2 b j)
      = O (ix2 b (⟨j.val, Nat.lt_trans j.isLt (by decide)⟩ : Fin 128)) :=
  extractStridedSlice_apply _ O slices_S4096x128_S4096x64_0_0 (ix2 b j) _ fun a =>
    match a with
    | ⟨0, _⟩ => (Nat.zero_add _).symm
    | ⟨1, _⟩ => (Nat.zero_add _).symm

end Part3

end Cert.Bridge.Host
-- ==== Proof.KILogitsKernel.lean ====
/- The kernel program's logits over its first hidden layer, on the extended reals. The second pipelined region's
   result array holds three dense layers of the seven arrays the region finds; each of those seven is traced back
   through the host operations before it: the first is the first region's result, untouched between the regions;
   the two square weight matrices and the two bias rows are copies of arguments; the last layer's weights and bias
   are arguments padded from 64 to 128 columns, so on the first 64 columns they are the arguments' entries. Hence
   entry (b, j), j < 64, of the result is
     (∑ q, max ((∑ r, max ((∑ s, h₁(b, s) · W₂(s, r)) + b₂(r)) 0 · W₃(r, q)) + b₃(q)) 0 · W₄(q, j)) + b₄(j)
   for whatever row b of the first hidden layer h₁ the first region leaves. -/
import proofs.«423201_j71829033059182_3_alg».proof.Proof.KIRun
import proofs.«423201_j71829033059182_3_alg».proof.Proof.KIValue1
import proofs.«423201_j71829033059182_3_alg».proof.Proof.KIHost

set_option maxRecDepth 16384

noncomputable section

namespace Cert.Bridge.Logits

open Cert.KernelIdeal Cert.KernelIdeal.Gen Cert.KernelIdeal.Gen' Cert.KernelIdeal.Value1
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

/-! ## The six arguments the last three layers read, each at its literal shape -/

abbrev argW2 (c : Dev nD) : FVec Ideal S2048x2048 .f32 := m ((c.tc : Thread nD τ).loc main_arg7)
abbrev argB2 (c : Dev nD) : FVec Ideal S2048 .f32 := m ((c.tc : Thread nD τ).loc main_arg8)
abbrev argW3 (c : Dev nD) : FVec Ideal S2048x2048 .f32 := m ((c.tc : Thread nD τ).loc main_arg9)
abbrev argB3 (c : Dev nD) : FVec Ideal S2048 .f32 := m ((c.tc : Thread nD τ).loc main_arg10)
abbrev argW4 (c : Dev nD) : FVec Ideal S2048x64 .f32 := m ((c.tc : Thread nD τ).loc main_arg11)
abbrev argB4 (c : Dev nD) : FVec Ideal S64 .f32 := m ((c.tc : Thread nD τ).loc main_arg12)

/-! ## What the second region finds in its seven arrays -/

/-- The second layer's weights, as the second region finds them, are the argument's. -/
theorem found_v76 (c : Dev nD) (i : S2048x2048.Idx) :
    (V7 m ρ c main_v76 : FVec Ideal S2048x2048 .bf16) i = argW2 m c i :=
  (congrFun (Host.after_hostOps1_v76 (W6 m ρ c)) i).trans
    ((congrFun (W6_of_ne m ρ c main_v76 (by decide)) i).trans (Host.entry_v76_apply (W0 m ρ c) i))

/-- The third layer's weights likewise. -/
theorem found_v77 (c : Dev nD) (i : S2048x2048.Idx) :
    (V7 m ρ c main_v77 : FVec Ideal S2048x2048 .bf16) i = argW3 m c i :=
  (congrFun (Host.after_hostOps1_v77 (W6 m ρ c)) i).trans
    ((congrFun (W6_of_ne m ρ c main_v77 (by decide)) i).trans (Host.entry_v77_apply (W0 m ρ c) i))

/-- The second layer's bias as a one-row matrix. -/
theorem found_v84 (c : Dev nD) (r : Fin 2048) :
    (V7 m ρ c main_v84 : FVec Ideal S1x2048 .f32) (ix2 (0 : Fin 1) r) = argB2 m c (ix1 r) :=
  (Host.after_hostOps1_v84_apply (W6 m ρ c) r).trans
    (congrFun (W6_kept m ρ c main_arg8 (by decide) (by decide) (by decide) (by decide) (by decide) (by decide)) (ix1 r))

/-- The third layer's bias as a one-row matrix. -/
theorem found_v85 (c : Dev nD) (r : Fin 2048) :
    (V7 m ρ c main_v85 : FVec Ideal S1x2048 .f32) (ix2 (0 : Fin 1) r) = argB3 m c (ix1 r) :=
  (Host.after_hostOps1_v85_apply (W6 m ρ c) r).trans
    (congrFun (W6_kept m ρ c main_arg10 (by decide) (by decide) (by decide) (by decide) (by decide) (by decide)) (ix1 r))

/-- The last layer's weights, padded to 128 columns: the first 64 columns are the argument's. -/
theorem found_v79 (c : Dev nD) (q : Fin 2048) (j : Fin 64) :
    (V7 m ρ c main_v79 : FVec Ideal S2048x128 .bf16) (ix2 q (⟨j.val, Nat.lt_trans j.isLt (by decide)⟩ : Fin 128)) = argW4 m c (ix2 q j) :=
  (congrFun (Host.after_hostOps1_v79 (W6 m ρ c)) _).trans
    ((congrFun (W6_of_ne m ρ c main_v79 (by decide)) _).trans (Host.entry_v79_apply (W0 m ρ c) q j))

/-- The last layer's bias, padded to 128 entries, as a one-row matrix: the first 64 entries are the argument's. -/
theorem found_v81 (c : Dev nD) (j : Fin 64) :
    (V7 m ρ c main_v81 : FVec Ideal S1x128 .f32) (ix2 (0 : Fin 1) (⟨j.val, Nat.lt_trans j.isLt (by decide)⟩ : Fin 128)) = argB4 m c (ix1 j) :=
  (congrFun (Host.after_hostOps1_v81 (W6 m ρ c)) _).trans
    ((congrFun (W6_of_ne m ρ c main_v81 (by decide)) _).trans (Host.entry_v81_apply (W0 m ρ c) j))

/-- The first region's result is untouched between the regions. -/
theorem found_v83 (c : Dev nD) (i : S4096x2048.Idx) :
    (V7 m ρ c main_v83 : FVec Ideal S4096x2048 .bf16) i = (W6 m ρ c (Proc.devRef .tc main_v83) : FVec Ideal S4096x2048 .bf16) i :=
  congrFun (Host.after_hostOps1_v83 (W6 m ρ c)) i

/-! ## The kernel program's logits over the first hidden layer -/

/-- Row `b`, column `j` (of the first 64) of the second region's result, given row `b` of the first hidden layer
    as the first region leaves it: the three remaining layers over the arguments' weights and biases. -/
theorem kernel_logits (c : Dev nD) (b : Fin 4096) (j : Fin 64) (H1 : Fin 2048 → EReal)
    (hH1 : ∀ s : Fin 2048, (W6 m ρ c (Proc.devRef .tc main_v83) : FVec Ideal S4096x2048 .bf16) (ix2 b s) = H1 s) :
    (W8 m ρ c (Proc.devRef .tc main_v86) : FVec Ideal S4096x128 .f32) (ix2 b (⟨j.val, Nat.lt_trans j.isLt (by decide)⟩ : Fin 128))
      = (∑ q : Fin 2048, max ((∑ r : Fin 2048, max ((∑ s : Fin 2048, H1 s * argW2 m c (ix2 s r)) + argB2 m c (ix1 r)) 0
            * argW3 m c (ix2 r q)) + argB3 m c (ix1 q)) 0 * argW4 m c (ix2 q j)) + argB4 m c (ix1 j) := by
  refine (congrFun (W8_arr m ρ c 7) _).trans ?_
  refine (region1_value (V7 m ρ) c b _).trans ?_
  unfold dense3 hidden2 hidden1
  refine congrArg₂ (fun (x y : EReal) => x + y) (Finset.sum_congr rfl fun q _ => ?_) (found_v81 m ρ c j)
  refine congrArg₂ (fun (x y : EReal) => x * y) (congrArg (fun x : EReal => max x 0) ?_) (found_v79 m ρ c q j)
  refine congrArg₂ (fun (x y : EReal) => x + y) (Finset.sum_congr rfl fun r _ => ?_) (found_v85 m ρ c q)
  refine congrArg₂ (fun (x y : EReal) => x * y) (congrArg (fun x : EReal => max x 0) ?_) (found_v77 m ρ c (ix2 r q))
  refine congrArg₂ (fun (x y : EReal) => x + y) (Finset.sum_congr rfl fun s _ => ?_) (found_v84 m ρ c r)
  exact congrArg₂ (fun (x y : EReal) => x * y) ((found_v83 m ρ c (ix2 b s)).trans (hH1 s)) (found_v76 m ρ c (ix2 s r))

end Cert.Bridge.Logits

end
-- ==== Proof.KIValue0.lean ====
/- The value of pallas call 0's result array on the extended reals: after the 64 grid points have written their row
   blocks back, the 4096x2048 result holds relu((x·w + s) + b) of the four arrays as the call finds them, the product
   a sum over the 8192 contracted positions. The body's arithmetic is read at an index of one block; each input block
   is placed in its array (row block t of x and s, the whole of w and b); block t of the result is rows 64t … 64t + 63
   of one whole-array function; row r is written back by point r / 64, so the blocks cover the array. -/
import proofs.«423201_j71829033059182_3_alg».proof.Proof.KIRegion0
import proofs.«423201_j71829033059182_3_alg».proof.Proof.LibMatmulPlain
import Idealize.ShloMosaic.Lib.Pipeline.Value
import Idealize.ShloMosaic.Lib.ValueIdx
import Idealize.ShloMosaic.PureOps.Ideal
import Idealize.ShloMosaic.PureOps.Ideal.Laws
import Mathlib.Algebra.BigOperators.Group.Finset.Basic

set_option maxRecDepth 16384

noncomputable section

open scoped BigOperators

namespace Cert.KernelIdeal.Gen'

open Cert.KernelIdeal Cert.KernelIdeal.Gen
open Idealize.ShloMosaic Idealize.ShloMosaic.TcCoe Idealize.ShloMosaic.ValueIdx Idealize.SL.Sem
open Idealize.ShloMosaic.Pipeline (Dat)

/-! ## The result as one function of the four entry arrays -/

/-- relu((x·w + s) + b) at row `p` and column `n`, on the extended reals: the row of x against the column of w,
    summed over the 8192 contracted positions, plus s there, plus the bias of the column, cut below at zero. -/
def g0 (x : FVec Ideal S4096x8192 .bf16) (s : FVec Ideal S4096x2048 .f32) (w : FVec Ideal S8192x2048 .bf16) (b : FVec Ideal S1x2048 .f32)
    (p : Fin 4096) (n : Fin 2048) : EReal :=
  max (((∑ q : Fin 8192, x (ix2 p q) * w (ix2 q n)) + s (ix2 p n)) + b (ix2 (0 : Fin 1) n)) 0

/-- The same as an array of 4096 rows and 2048 columns. -/
def G0 (x : FVec Ideal S4096x8192 .bf16) (s : FVec Ideal S4096x2048 .f32) (w : FVec Ideal S8192x2048 .bf16) (b : FVec Ideal S1x2048 .f32) :
    FVec Ideal S4096x2048 .bf16 :=
  fun i => g0 x s w b (i 0) (i 1)

theorem hz0 : (![0, 0] : Fin 2 → Nat) = fun _ => 0 := funext fun a => by fin_cases a <;> rfl

/-! ## The body's arithmetic at an index of its block -/

/-- The stored value at row `p`, column `n` of a block: the casts to the same shape are identities, the product into
    a zero accumulator is the sum of products, the bias row is repeated down the rows, the rounding to bf16 is
    the identity on the extended reals. -/
theorem pay0_apply (x0 : FVec Ideal S64x8192 .bf16) (w : FVec Ideal S8192x2048 .bf16) (s0 : FVec Ideal S64x2048 .f32) (b : FVec Ideal S1x2048 .f32)
    (p : Fin 64) (n : Fin 2048) :
    k0_pay1 (F := Ideal) x0 w s0 b (ix2 p n)
      = max (((∑ q : Fin 8192, x0 (ix2 p q) * w (ix2 q n)) + s0 (ix2 p n)) + b (ix2 (0 : Fin 1) n)) 0 := by
  have hm : FloatOps.matmul dot_S64x8192_S8192x2048_S64x2048_1_0_0_1_n_n none x0 w (constant (F := Ideal) S64x2048 .f32 0x00000000#32) (ix2 p n)
      = ∑ q : Fin 8192, x0 (ix2 p q) * w (ix2 q n) := by
    refine (Cert.MatmulPlain.matmul_plain_apply dot_S64x8192_S8192x2048_S64x2048_1_0_0_1_n_n rfl rfl rfl rfl rfl rfl none x0 w _ p n).trans ?_
    rw [constant_apply, Ideal.ofBits_zero_f32, zero_add]
  have hb : broadcastTo S64x2048 b broadcasts_S1x2048_S64x2048 (ix2 p n) = b (ix2 (0 : Fin 1) n) :=
    broadcastTo_apply b broadcasts_S1x2048_S64x2048 (ix2 p n) (ix2 (0 : Fin 1) n) (fun a => by
      match a with
      | ⟨0, _⟩ => rfl
      | ⟨1, _⟩ => rfl)
  have h0 : (Scalar.ofBits (F := Ideal) .f32 0x00000000#32 : Ideal .f32) = 0 := Ideal.ofBits_zero_f32
  unfold k0_pay1
  simp only [shapeCast_self]
  show max ((FloatOps.matmul dot_S64x8192_S8192x2048_S64x2048_1_0_0_1_n_n none x0 w (constant (F := Ideal) S64x2048 .f32 0x00000000#32) (ix2 p n)
      + s0 (ix2 p n)) + broadcastTo S64x2048 b broadcasts_S1x2048_S64x2048 (ix2 p n)) (Scalar.ofBits (F := Ideal) .f32 0x00000000#32) = _
  rw [hm, hb, h0]

/-! ## Where each block sits in its array -/

/-- The index maps over the 64 grid points: the x, s and result blocks are row block `t` (64 rows) of their arrays,
    all columns; the w and b blocks are their whole arrays. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

section Value0

variable (V : (c : Dev nD) → (b : Ref sig .tc) → Buf (Elt Ideal) ((c : Thread nD τ).loc b))

/-- The x block at point `t` is rows 64t … 64t + 63 of the x array as the call finds it. -/
theorem iblk0_0_apply (c : Dev nD) (t : Fin cfg0.N) (y : S64x8192.Idx) (k : S4096x8192.Idx)
    (hk0 : (k 0).val = 64 * t.val + (y 0).val) (hk1 : (k 1).val = (y 1).val) :
    (iblk0 V c 0 t : Vec Ideal S64x8192 .bf16) y = (V c main_v61 : Vec Ideal S4096x8192 .bf16) k := by
  obtain ⟨e0, e1, -⟩ := idx_facts0 t
  unfold iblk0
  rw [View.read_apply]
  show V c main_v61 _ = V c main_v61 _
  refine congrArg (V c main_v61 : Vec Ideal S4096x8192 .bf16) ?_
  funext a
  apply Fin.ext
  match a with
  | ⟨0, _⟩ => show win0_0.index t 0 * 64 + 1 * (y 0).val = (k 0).val; rw [e0, hk0]; omega
  | ⟨1, _⟩ => show win0_0.index t 1 * 8192 + 1 * (y 1).val = (k 1).val; rw [e1, hk1]; omega

/-- The s block at point `t` is rows 64t … 64t + 63 of the s array. -/
theorem iblk0_1_apply (c : Dev nD) (t : Fin cfg0.N) (y : S64x2048.Idx) (k : S4096x2048.Idx)
    (hk0 : (k 0).val = 64 * t.val + (y 0).val) (hk1 : (k 1).val = (y 1).val) :
    (iblk0 V c 1 t : Vec Ideal S64x2048 .f32) y = (V c main_v75 : Vec Ideal S4096x2048 .f32) k := by
  obtain ⟨-, -, e0, e1, -⟩ := idx_facts0 t
  unfold iblk0
  rw [View.read_apply]
  show V c main_v75 _ = V c main_v75 _
  refine congrArg (V c main_v75 : Vec Ideal S4096x2048 .f32) ?_
  funext a
  apply Fin.ext
  match a with
  | ⟨0, _⟩ => show win0_1.index t 0 * 64 + 1 * (y 0).val = (k 0).val; rw [e0, hk0]; omega
  | ⟨1, _⟩ => show win0_1.index t 1 * 2048 + 1 * (y 1).val = (k 1).val; rw [e1, hk1]; omega

/-- The w block at every point is the whole w array. -/
theorem iblk0_2_eq (c : Dev nD) (t : Fin cfg0.N) :
    (iblk0 V c 2 t : Vec Ideal S8192x2048 .bf16) = (V c main_v69 : Vec Ideal S8192x2048 .bf16) := by
  obtain ⟨-, -, -, -, e0, e1, -⟩ := idx_facts0 t
  funext y
  unfold iblk0
  rw [View.read_apply]
  show V c main_v69 _ = V c main_v69 _
  refine congrArg (V c main_v69 : Vec Ideal S8192x2048 .bf16) ?_
  funext a
  apply Fin.ext
  match a with
  | ⟨0, _⟩ => show win0_2.index t 0 * 8192 + 1 * (y 0).val = (y 0).val; rw [e0]; omega
  | ⟨1, _⟩ => show win0_2.index t 1 * 2048 + 1 * (y 1).val = (y 1).val; rw [e1]; omega

/-- The b block at every point is the whole b array. -/
theorem iblk0_3_eq (c : Dev nD) (t : Fin cfg0.N) :
    (iblk0 V c 3 t : Vec Ideal S1x2048 .f32) = (V c main_v82 : Vec Ideal S1x2048 .f32) := by
  obtain ⟨-, -, -, -, -, -, e0, e1, -⟩ := idx_facts0 t
  funext y
  unfold iblk0
  rw [View.read_apply]
  show V c main_v82 _ = V c main_v82 _
  refine congrArg (V c main_v82 : Vec Ideal S1x2048 .f32) ?_
  funext a
  apply Fin.ext
  match a with
  | ⟨0, _⟩ => show win0_3.index t 0 * 1 + 1 * (y 0).val = (y 0).val; rw [e0]; omega
  | ⟨1, _⟩ => show win0_3.index t 1 * 2048 + 1 * (y 1).val = (y 1).val; rw [e1]; omega

end Value0

/-! ## One block of the result -/

/-- For blocks that are rows 64T … 64T + 63 of x and s, the whole w and the whole b, the stored value at row `p`,
    column `n` of the block is the result function at row 64T + p, column n. -/
theorem block0_eq (X : FVec Ideal S4096x8192 .bf16) (S : FVec Ideal S4096x2048 .f32) (W : FVec Ideal S8192x2048 .bf16) (B : FVec Ideal S1x2048 .f32)
    (T : Nat) (hT : T < 64)
    (x0 : FVec Ideal S64x8192 .bf16) (x1 : FVec Ideal S64x2048 .f32) (x2 : FVec Ideal S8192x2048 .bf16) (x3 : FVec Ideal S1x2048 .f32)
    (h0 : ∀ (y : S64x8192.Idx) (k : S4096x8192.Idx), (k 0).val = 64 * T + (y 0).val → (k 1).val = (y 1).val → x0 y = X k)
    (h1 : ∀ (y : S64x2048.Idx) (k : S4096x2048.Idx), (k 0).val = 64 * T + (y 0).val → (k 1).val = (y 1).val → x1 y = S k)
    (h2 : x2 = W) (h3 : x3 = B) (p : Fin 64) (n : Fin 2048) :
    k0_pay1 (F := Ideal) x0 x2 x1 x3 (ix2 p n) = g0 X S W B ⟨64 * T + p.val, by omega⟩ n := by
  subst h2 h3
  refine (pay0_apply x0 x2 x1 x3 p n).trans ?_
  unfold g0
  rw [h1 (ix2 p n) (ix2 (⟨64 * T + p.val, by omega⟩ : Fin 4096) n) rfl rfl]
  refine congrArg (fun z : EReal => max ((z + S (ix2 (⟨64 * T + p.val, by omega⟩ : Fin 4096) n)) + x3 (ix2 (0 : Fin 1) n)) 0) ?_
  exact Finset.sum_congr rfl fun q _ => by rw [h0 (ix2 p q) (ix2 (⟨64 * T + p.val, by omega⟩ : Fin 4096) q) rfl rfl]

/-! ## From the blocks to the array -/

section Final0

variable (V : (c : Dev nD) → (b : Ref sig .tc) → Buf (Elt Ideal) ((c : Thread nD τ).loc b))

/-- What point `t` writes back is block `t` (rows 64t … 64t + 63) of the result function of the entry arrays. -/
theorem flushed0_eq (c : Dev nD) (t : Fin cfg0.N) :
    (dat0 (F := Ideal) V c).flushed 4 t
      = ((cfg0.win 4).blk t).view.read (Elt Ideal) (G0 (V c main_v61) (V c main_v75) (V c main_v69) (V c main_v82)) := by
  show (cfg0.win 4).cut (grid0.coords t) ((dat0 (F := Ideal) V c).after 4 t) = _
  rw [after0_4]
  unfold out0_4
  rw [View.canon_unit_zero hz0]
  simp only [View.ld_unit_zero (S := S64x8192) hz0, View.ld_unit_zero (S := S64x2048) hz0,
    View.ld_unit_zero (S := S8192x2048) hz0, View.ld_unit_zero (S := S1x2048) hz0]
  obtain ⟨-, -, -, -, -, -, -, -, e0, e1⟩ := idx_facts0 t
  have hT : t.val < 64 := Nat.lt_of_lt_of_eq t.isLt N_0
  funext j
  have hj0 : (j 0).val < 64 := (j 0).isLt
  have hj : (j : S64x2048.Idx) = ix2 (n0 := 64) (n1 := 2048) (j 0) (j 1) := eq_ix2 (n0 := 64) (n1 := 2048) j
  show k0_pay1 (F := Ideal) (iblk0 V c 0 t) (iblk0 V c 2 t) (iblk0 V c 1 t) (iblk0 V c 3 t) j
      = g0 (V c main_v61) (V c main_v75) (V c main_v69) (V c main_v82)
          ((((cfg0.win 4).blk t).view.emb j : S4096x2048.Idx) 0) ((((cfg0.win 4).blk t).view.emb j : S4096x2048.Idx) 1)
  have hb := block0_eq (V c main_v61) (V c main_v75) (V c main_v69) (V c main_v82) t.val hT
    (iblk0 V c 0 t) (iblk0 V c 1 t) (iblk0 V c 2 t) (iblk0 V c 3 t)
    (fun y k hk0 hk1 => iblk0_0_apply V c t y k hk0 hk1) (fun y k hk0 hk1 => iblk0_1_apply V c t y k hk0 hk1)
    (iblk0_2_eq V c t) (iblk0_3_eq V c t) (j 0) (j 1)
  have hlt : 64 * t.val + (j 0).val < 4096 := by omega
  have hr0 : ((((cfg0.win 4).blk t).view.emb j : S4096x2048.Idx) 0 : Fin 4096) = (⟨64 * t.val + (j 0).val, hlt⟩ : Fin 4096) := by
    apply Fin.ext
    show win0_4.index t 0 * 64 + 1 * (j 0).val = 64 * t.val + (j 0).val
    rw [e0]; omega
  have hr1 : ((((cfg0.win 4).blk t).view.emb j : S4096x2048.Idx) 1 : Fin 2048) = j 1 := by
    apply Fin.ext
    show win0_4.index t 1 * 2048 + 1 * (j 1).val = (j 1).val
    rw [e1]; omega
  rw [hr0, hr1]
  exact (congrArg (k0_pay1 (F := Ideal) (iblk0 V c 0 t) (iblk0 V c 2 t) (iblk0 V c 1 t) (iblk0 V c 3 t)) hj).trans hb

/-- An index of the result array is in point `t`'s block iff each coordinate is in the block's range on its axis. -/
theorem mem_blk0 (t : Fin cfg0.N) (i : S4096x2048.Idx) :
    i ∈ ((cfg0.win 4).blk t).view.set ↔ ∀ a : Fin 2, win0_4.index t a * S64x2048.size a ≤ (i a).val ∧ (i a).val < win0_4.index t a * S64x2048.size a + S64x2048.size a := by
  show i ∈ ((View.whole main_v83).slice (win0_4.rect t)).set ↔ _
  rw [View.set_slice_whole, Rect.mem_set_unit]
  exact Iff.rfl

/-- Row `r` of the result is written back by point `r / 64`: the 64 blocks cover the array. -/
theorem cover0 (i : S4096x2048.Idx) : ∃ t : Fin cfg0.N, (cfg0.win 4).flush t = true ∧ i ∈ ((cfg0.win 4).blk t).view.set := by
  have hi0 : (i 0).val < 4096 := (i 0).isLt
  have hi1 : (i 1).val < 2048 := (i 1).isLt
  obtain ⟨t, ht⟩ : ∃ t : Fin cfg0.N, t.val = (i 0).val / 64 := ⟨⟨(i 0).val / 64, by rw [show cfg0.N = 64 from N_0]; omega⟩, rfl⟩
  obtain ⟨-, -, -, -, -, -, -, -, e0, e1⟩ := idx_facts0 t
  refine ⟨t, flush0_4 t, ?_⟩
  rw [mem_blk0]
  intro a
  match a with
  | ⟨0, _⟩ => show win0_4.index t (0 : Fin 2) * 64 ≤ (i 0).val ∧ (i 0).val < win0_4.index t (0 : Fin 2) * 64 + 64; rw [e0, ht]; omega
  | ⟨1, _⟩ => show win0_4.index t (1 : Fin 2) * 2048 ≤ (i 1).val ∧ (i 1).val < win0_4.index t (1 : Fin 2) * 2048 + 2048; rw [e1]; omega

/-- THE RESULT ARRAY of pallas call 0, after its 64 write-backs, is the result function of the four arrays as the call
    finds them. -/
theorem region0_array (c : Dev nD) :
    (dat0 (F := Ideal) V c).arrAt 4 cfg0.N = G0 (V c main_v61) (V c main_v75) (V c main_v69) (V c main_v82) :=
  (dat0 (F := Ideal) V c).arrAt_eq_of_cover 4 (G0 (V c main_v61) (V c main_v75) (V c main_v69) (V c main_v82))
    (fun t _ => flushed0_eq V c t) cover0

/-- The four arrays as pallas call 0 finds them, and its result array after the 64 write-backs, each at its literal
    shape (x 4096x8192, s 4096x2048, w 8192x2048, b 1x2048, the result 4096x2048). -/
abbrev arrX0 (c : Dev nD) : FVec Ideal S4096x8192 .bf16 := V c main_v61
abbrev arrS0 (c : Dev nD) : FVec Ideal S4096x2048 .f32 := V c main_v75
abbrev arrW0 (c : Dev nD) : FVec Ideal S8192x2048 .bf16 := V c main_v69
abbrev arrB0 (c : Dev nD) : FVec Ideal S1x2048 .f32 := V c main_v82
abbrev arrO0 (c : Dev nD) : FVec Ideal S4096x2048 .bf16 := (dat0 (F := Ideal) V c).arrAt 4 cfg0.N

/-- The result at row `p`, column `n`: relu((x·w + s) + b) there, the product a sum over the 8192 contracted positions. -/
theorem region0_value (c : Dev nD) (p : Fin 4096) (n : Fin 2048) :
    arrO0 V c (ix2 p n)
      = max (((∑ q : Fin 8192, arrX0 V c (ix2 p q) * arrW0 V c (ix2 q n)) + arrS0 V c (ix2 p n)) + arrB0 V c (ix2 (0 : Fin 1) n)) 0 :=
  congrFun (region0_array V c) (ix2 p n)

end Final0

end Cert.KernelIdeal.Gen'

end
-- ==== Proof.LibGatherRows3.lean ====
import Idealize.ShloMosaic.PureOps.ShapeOps
import Idealize.ShloMosaic.Lib.ValueIdx

/-!
# A gather of whole rows addressed by a rank-3 column of start indices

For a table `x : [N, C]` and an `[A, B]` array of row indices, `x[idx]` prints as a `stablehlo.gather` whose
start indices are the `[A, B, 1]` array of the indices, with operand axis 0 collapsed and start-indexed, the offset
on the result's axis 2, no batching axes and the index vector on axis 2. Result element `(a, b, k)` is the table at
`(row, k)`, where `row` is the `(a, b)`-th start index read as a signed integer and clamped into `[0, N − 1]`.
-/

namespace Cert.Segment

open Idealize.ShloMosaic Idealize.ShloMosaic.ValueIdx

/-- A coordinate of a rank-3 index on an axis known to be the first. -/
private theorem ix3_val_of_eq_zero {n0 n1 n2 : Nat} (a : Fin n0) (b : Fin n1) (c : Fin n2) (X : Fin 3) (hX : X = 0) :
    ((ix3 a b c) X).val = a.val := by
  subst hX; rfl

/-- A coordinate of a rank-3 index on an axis known to be the second. -/
private theorem ix3_val_of_eq_one {n0 n1 n2 : Nat} (a : Fin n0) (b : Fin n1) (c : Fin n2) (X : Fin 3) (hX : X = 1) :
    ((ix3 a b c) X).val = b.val := by
  subst hX; rfl

/-- A coordinate of a rank-3 index on an axis known to be the third. -/
private theorem ix3_val_of_eq_two {n0 n1 n2 : Nat} (a : Fin n0) (b : Fin n1) (c : Fin n2) (X : Fin 3) (hX : X = 2) :
    ((ix3 a b c) X).val = c.val := by
  subst hX; rfl

/-- In two equal lists, the entry of one at the position an element has in the other is that element. -/
private theorem getElem_idxOf_of_eq (l l' : List (Fin 3)) (h : l = l') (x : Fin 3) (hx : List.idxOf x l' < l.length) :
    l[List.idxOf x l'] = x := by
  subst h; exact List.getElem_idxOf hx

section Gather

variable {N C A B w : Nat} (d : GatherDims ⟨2, ![N, C]⟩ ⟨3, ![A, B, 1]⟩ ⟨3, ![A, B, C]⟩)

/-- With the offset on the result's axis 2 and the index vector on the start indices' axis 2, the result's batch
    axes and the start indices' axes that carry them are the same two axes, 0 and 1, in the same order. -/
private theorem batchDims_eq_siKept (hoff : d.offsetDims = [2]) (hivd : d.indexVectorDim = 2) :
    (d.batchDims : List (Fin 3)) = (d.siKept : List (Fin 3)) := by
  have h1 : (d.batchDims : List (Fin 3)) = [0, 1] := by
    show (List.finRange 3).filter (fun X => decide (X ∉ d.offsetDims)) = [0, 1]
    rw [hoff]; rfl
  have h2 : (d.siKept : List (Fin 3)) = [0, 1] := by
    show (List.finRange 3).filter (fun X : Fin 3 => decide (X.val ≠ d.indexVectorDim)) = [0, 1]
    rw [hivd]; rfl
  rw [h1, h2]

/-- The start-indices index result `(a, b, k)` reads its one start component at: entry `(a, b)` of the column. -/
theorem gather_siIdx_rows3 (hoff : d.offsetDims = [2]) (hsim : d.startIndexMap = [0]) (hivd : d.indexVectorDim = 2)
    (a : Fin A) (b : Fin B) (k : Fin C) (c : Fin d.startIndexMap.length) :
    d.siIdx (ix3 a b k) c = ix3 a b (0 : Fin 1) := by
  have hbs := batchDims_eq_siKept d hoff hivd
  funext b'
  match b' with
  | ⟨0, _⟩ =>
    -- a batch axis of the result reads the start indices' axis in the same position: axis 0 reads axis 0
    unfold GatherDims.siIdx
    rw [dif_neg (by rw [hivd]; simp)]
    unfold GatherDims.siCoord
    apply Fin.ext
    simp only [Fin.val_cast]
    exact ix3_val_of_eq_zero a b k _ (getElem_idxOf_of_eq _ _ hbs _ _)
  | ⟨1, _⟩ =>
    unfold GatherDims.siIdx
    rw [dif_neg (by rw [hivd]; simp)]
    unfold GatherDims.siCoord
    apply Fin.ext
    simp only [Fin.val_cast]
    exact ix3_val_of_eq_one a b k _ (getElem_idxOf_of_eq _ _ hbs _ _)
  | ⟨2, _⟩ =>
    unfold GatherDims.siIdx
    rw [dif_pos (by rw [hivd])]
    apply Fin.ext
    show c.val = 0
    have hl : d.startIndexMap.length = 1 := by rw [hsim]; rfl
    have := c.isLt
    omega

end Gather

/-- THE GATHER READ AT `(a, b, k)`: the operand's row named by the start index at `(a, b)`, read signed and clamped
    into `[0, N − 1]`, at column `k`. The five hypotheses are the printed dimension numbers, each by `rfl` at a
    generated record. -/
theorem gather_rows3 {α : Type} {N C A B w : Nat}
    (d : GatherDims ⟨2, ![N, C]⟩ ⟨3, ![A, B, 1]⟩ ⟨3, ![A, B, C]⟩)
    (hoff : d.offsetDims = [2]) (hcoll : d.collapsedSliceDims = [0]) (hob : d.operandBatchingDims = [])
    (hsim : d.startIndexMap = [0]) (hivd : d.indexVectorDim = 2)
    (x : (⟨2, ![N, C]⟩ : Shape).Idx → α) (idx : IVec ⟨3, ![A, B, 1]⟩ w) (a : Fin A) (b : Fin B) (k : Fin C) (hN : 0 < N) :
    Host.gather d x idx (ix3 a b k)
      = x (ix2 ⟨min (idx (ix3 a b (0 : Fin 1))).toInt.toNat (N - 1), by omega⟩ k) := by
  unfold Host.gather
  congr 1
  have hb : ∀ r : Fin 2, r ∉ d.operandBatchingDims := fun r => by rw [hob]; exact List.not_mem_nil
  refine funext (Fin.forall_fin_two.2 ⟨?_, ?_⟩)
  · -- the row: operand axis 0 is collapsed and start-indexed with slice size 1, so it is the clamped start alone
    apply Fin.ext
    show d.start (ix3 a b k) idx (0 : Fin 2) + d.batchCoord (ix3 a b k) (0 : Fin 2) + d.offCoord (ix3 a b k) (0 : Fin 2)
      = min (idx (ix3 a b (0 : Fin 1))).toInt.toNat (N - 1)
    have hk0 : (0 : Fin 2) ∉ d.sKept := by rw [GatherDims.mem_sKept, hcoll]; simp
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    rw [GatherDims.batchCoord_eq_zero _ _ _ (hb 0), GatherDims.offCoord_eq_zero _ _ _ hk0, Nat.add_zero]
    unfold GatherDims.start
    rw [dif_pos hm, gather_siIdx_rows3 d hoff hsim hivd, hsl]
    rfl
  · -- the column: operand axis 1 is not start-indexed, so it is the result's coordinate on its one offset axis
    apply Fin.ext
    show d.start (ix3 a b k) idx (1 : Fin 2) + d.batchCoord (ix3 a b k) (1 : Fin 2) + d.offCoord (ix3 a b k) (1 : Fin 2)
      = k.val
    have hk1 : (1 : Fin 2) ∈ d.sKept := by rw [GatherDims.mem_sKept, hcoll, hob]; simp
    have hs1 : d.start (ix3 a b k) idx (1 : Fin 2) = 0 := by
      unfold GatherDims.start
      rw [dif_neg (by rw [hsim]; simp)]
    rw [hs1, GatherDims.batchCoord_eq_zero _ _ _ (hb 1), Nat.zero_add]
    unfold GatherDims.offCoord
    rw [dif_pos hk1]
    refine ix3_val_of_eq_two a b k _ ?_
    have hall : ∀ X ∈ d.offsetDims, X = 2 := by
      intro X hX; rw [hoff] at hX; exact List.mem_singleton.1 hX
    exact hall _ (List.getElem_mem _)

end Cert.Segment
-- ==== Proof.KIFeat.lean ====
/- The feature stretch of the kernel program's host operations, read against the reference program's feature
   values: the gathered rows, the popularity, the inner products, the Poincaré distance and the cosine.

   The kernel program expands the squared distance, |u − v|² = (|u|² + |v|²) − 2 u·v, takes |u|² as a sum over the
   rank-2 embedding array, and replaces the polarization (|u + v|² − |u − v|²) / 4 by the inner product u·v; the
   reference sums (u − v)² and (u + v)² over the broadcast arrays. On real (finite) entries the two agree. -/
import proofs.«423201_j71829033059182_3_alg».proof.Proof.Gen.KernelIdeal.Launch
import proofs.«423201_j71829033059182_3_alg».proof.Proof.RefReadP
import proofs.«423201_j71829033059182_3_alg».proof.Proof.LibGatherRows3
import Idealize.ShloMosaic.Lib.StableHlo.Run
import Idealize.ShloMosaic.Lib.Pipeline.Value
import Idealize.ShloMosaic.Lib.ValueIdx
import Idealize.ShloMosaic.Lib.IdealHost
import Idealize.ShloMosaic.PureOps.Ideal.Laws
import Mathlib.Data.EReal.Operations
import Mathlib.Tactic.Ring
import Mathlib.Tactic.NormNum

set_option maxRecDepth 16384

noncomputable section

namespace Cert.Bridge.Feat

open Idealize.ShloMosaic Idealize.ShloMosaic.TcCoe Idealize.SL.Sem Idealize.ShloMosaic.StableHlo
open Idealize.ShloMosaic.ValueIdx
open Cert.KernelIdeal Cert.KernelIdeal.Gen Cert.ReferenceIdeal.ReadP
open scoped BigOperators

/-! ## The kernel program's own stages, as functions of their operands -/

section Stages

variable {F : FTy → Type} [FloatOps F]

/-- |u|² per row, as the kernel program computes it: the rank-2 array squared, summed along its columns, one column. -/
def kv10 (x0 : (⟨S4096x128, .f32⟩ : BufTy).Contents (Elt F)) : (⟨S4096x1, .f32⟩ : BufTy).Contents (Elt F) :=
  broadcastInDim S4096x1 ![0] bcast_S4096_S4096x1_0
    (Host.reduceAdd (mulf x0 x0) (constant S_ .f32 0x00000000#32) reducesTo_S4096x128_S4096_d1 h_S_)

/-- The squared distance expanded: (|u|² + |v|²) − 2 (u·v). -/
def kv20 (s : (⟨S4096x1, .f32⟩ : BufTy).Contents (Elt F)) (q dt : (⟨S4096x64, .f32⟩ : BufTy).Contents (Elt F)) :
    (⟨S4096x64, .f32⟩ : BufTy).Contents (Elt F) :=
  subf (addf (broadcastInDim S4096x64 ![0, 1] bcast_S4096x1_S4096x64_0_1 s) q)
    (mulf (broadcastInDim S4096x64 ![] bcast_S_S4096x64 (constant S_ .f32 0x40000000#32)) dt)

/-- The argument of the inverse hyperbolic cosine: max (1 + 2 d / ((1 − |u|²) (1 − |v|²))) (1 + ε). -/
def kx (d : (⟨S4096x64, .f32⟩ : BufTy).Contents (Elt F)) (s : (⟨S4096x1, .f32⟩ : BufTy).Contents (Elt F))
    (q : (⟨S4096x64, .f32⟩ : BufTy).Contents (Elt F)) : (⟨S4096x64, .f32⟩ : BufTy).Contents (Elt F) :=
  maximumf
    (addf (broadcastInDim S4096x64 ![] bcast_S_S4096x64 (constant S_ .f32 0x3F800000#32))
      (Host.divf (mulf (broadcastInDim S4096x64 ![] bcast_S_S4096x64 (constant S_ .f32 0x40000000#32)) d)
        (mulf
          (broadcastInDim S4096x64 ![0, 1] bcast_S4096x1_S4096x64_0_1
            (subf (broadcastInDim S4096x1 ![] bcast_S_S4096x1 (constant S_ .f32 0x3F800000#32)) s))
          (subf (broadcastInDim S4096x64 ![] bcast_S_S4096x64 (constant S_ .f32 0x3F800000#32)) q))))
    (broadcastInDim S4096x64 ![] bcast_S_S4096x64 (constant S_ .f32 0x3F800054#32))

/-- The Poincaré distance: log (x + sqrt (x² − 1)). -/
def kpoinc (d : (⟨S4096x64, .f32⟩ : BufTy).Contents (Elt F)) (s : (⟨S4096x1, .f32⟩ : BufTy).Contents (Elt F))
    (q : (⟨S4096x64, .f32⟩ : BufTy).Contents (Elt F)) : (⟨S4096x64, .f32⟩ : BufTy).Contents (Elt F) :=
  Host.log (addf (kx d s q)
    (Host.sqrt (subf (mulf (kx d s q) (kx d s q))
      (broadcastInDim S4096x64 ![] bcast_S_S4096x64 (constant S_ .f32 0x3F800000#32)))))

/-- The cosine: u·v / max (sqrt |u|² · sqrt |v|²) tiny. -/
def kcos (dt : (⟨S4096x64, .f32⟩ : BufTy).Contents (Elt F)) (s : (⟨S4096x1, .f32⟩ : BufTy).Contents (Elt F))
    (q : (⟨S4096x64, .f32⟩ : BufTy).Contents (Elt F)) : (⟨S4096x64, .f32⟩ : BufTy).Contents (Elt F) :=
  Host.divf dt
    (maximumf (mulf (broadcastInDim S4096x64 ![0, 1] bcast_S4096x1_S4096x64_0_1 (Host.sqrt s)) (Host.sqrt q))
      (broadcastInDim S4096x64 ![] bcast_S_S4096x64 (constant S_ .f32 0x322BCC77#32)))

/-- The reference's Poincaré distance is the same function of its own squared distance, |u|² and |v|². -/
theorem ref_poinc (x0 : (⟨S4096x128, .f32⟩ : BufTy).Contents (Elt F)) (x1 : (⟨S4096x64, .i32⟩ : BufTy).Contents (Elt F))
    (x4 : (⟨S10000x128, .f32⟩ : BufTy).Contents (Elt F)) :
    val_main_v34 x0 x1 x4 = kpoinc (val_main_v15 x0 x1 x4) (val_main_v9 x0) (val_main_v11 x1 x4) := rfl

/-- The reference's cosine is the same function of its own inner product, |u|² and |v|². -/
theorem ref_cos (x0 : (⟨S4096x128, .f32⟩ : BufTy).Contents (Elt F)) (x1 : (⟨S4096x64, .i32⟩ : BufTy).Contents (Elt F))
    (x4 : (⟨S10000x128, .f32⟩ : BufTy).Contents (Elt F)) :
    val_main_v44 x0 x1 x4 = kcos (val_main_v37 x0 x1 x4) (val_main_v9 x0) (val_main_v11 x1 x4) := rfl

/-! ## What the buffers hold after the host operations before the first kernel call -/

variable (W : Valuation Cert.KernelIdeal.τ Cert.KernelIdeal.sig (Elt F))

/-- What a buffer holds after the host operations that precede the first kernel call. -/
abbrev K (r : Ref Cert.KernelIdeal.sig .tc) :=
  StableHlo.after (Cert.KernelIdeal.Gen.hostOps0 (F := F)) W (Proc.devRef .tc r)

abbrev A0 := W (Proc.devRef .tc Cert.KernelIdeal.main_arg0)
abbrev A1 := W (Proc.devRef .tc Cert.KernelIdeal.main_arg1)
abbrev A3 := W (Proc.devRef .tc Cert.KernelIdeal.main_arg3)
abbrev A4 := W (Proc.devRef .tc Cert.KernelIdeal.main_arg4)

set_option maxHeartbeats 4000000 in
/-- The gathered rows. -/
theorem s6 : K W main_v6 = val_main_v6 (A1 W) (A4 W) := by
  unfold K hostOps0
  after_results_simp
  rfl

set_option maxHeartbeats 4000000 in
/-- The popularity. -/
theorem s54 : K W main_v54 = val_main_v59 (A1 W) (A3 W) := by
  unfold K hostOps0
  after_results_simp
  rfl

set_option maxHeartbeats 4000000 in
/-- The inner products. -/
theorem s15 : K W main_v15 = val_main_v37 (A0 W) (A1 W) (A4 W) := by
  unfold K hostOps0
  after_results_simp
  rfl

set_option maxHeartbeats 4000000 in
/-- |v|². -/
theorem s12 : K W main_v12 = val_main_v11 (A1 W) (A4 W) := by
  unfold K hostOps0
  after_results_simp
  rfl

set_option maxHeartbeats 4000000 in
/-- |u|². -/
theorem s10 : K W main_v10 = kv10 (A0 W) := by
  unfold K hostOps0
  after_results_simp
  rfl

set_option maxHeartbeats 8000000 in
/-- The expanded squared distance. -/
theorem s20 : K W main_v20
    = kv20 (kv10 (A0 W)) (val_main_v11 (A1 W) (A4 W)) (val_main_v37 (A0 W) (A1 W) (A4 W)) := by
  unfold K hostOps0
  after_results_simp
  rfl

set_option maxHeartbeats 16000000 in
/-- The Poincaré distance, over the expanded squared distance. -/
theorem s39 : K W main_v39
    = kpoinc (kv20 (kv10 (A0 W)) (val_main_v11 (A1 W) (A4 W)) (val_main_v37 (A0 W) (A1 W) (A4 W)))
        (kv10 (A0 W)) (val_main_v11 (A1 W) (A4 W)) := by
  unfold K hostOps0
  after_results_simp
  rfl

set_option maxHeartbeats 16000000 in
/-- The cosine. -/
theorem s46 : K W main_v46
    = kcos (val_main_v37 (A0 W) (A1 W) (A4 W)) (kv10 (A0 W)) (val_main_v11 (A1 W) (A4 W)) := by
  unfold K hostOps0
  after_results_simp
  rfl

end Stages

/-! ## Real arithmetic -/

/-- The coercion of the reals into the extended reals commutes with finite sums. -/
theorem coe_finset_sum {ι : Type} [DecidableEq ι] (s : Finset ι) (f : ι → ℝ) :
    ((∑ i ∈ s, f i : ℝ) : EReal) = ∑ i ∈ s, (f i : EReal) := by
  induction s using Finset.induction_on with
  | empty => simp
  | insert a s ha ih => rw [Finset.sum_insert ha, Finset.sum_insert ha, EReal.coe_add, ih]

/-- The f32 pattern of 2. -/
theorem two_eq : Ideal.ofBits .f32 0x40000000#32 = ((2 : ℝ) : EReal) := by
  simp [Ideal.ofBits, Ideal.ieee, -EReal.coe_mul]; norm_num

/-- The f32 pattern of 4. -/
theorem four_eq : Ideal.ofBits .f32 0x40800000#32 = ((4 : ℝ) : EReal) := by
  simp [Ideal.ofBits, Ideal.ieee, -EReal.coe_mul]; norm_num

/-- (|u|² + |v|²) − 2 u·v = |u − v|², on real entries. -/
theorem sqdist_real {n : Nat} (u v : Fin n → ℝ) :
    (((0 : EReal) + ∑ k, (u k : EReal) * (u k : EReal)) + ((0 : EReal) + ∑ k, (v k : EReal) * (v k : EReal)))
        - ((2 : ℝ) : EReal) * ((0 : EReal) + ∑ k, (u k : EReal) * (v k : EReal))
      = (0 : EReal) + ∑ k, ((u k : EReal) - (v k : EReal)) * ((u k : EReal) - (v k : EReal)) := by
  simp only [zero_add, ← EReal.coe_mul, ← EReal.coe_sub, ← coe_finset_sum, ← EReal.coe_add]
  congr 1
  simp only [Finset.mul_sum, ← Finset.sum_add_distrib, ← Finset.sum_sub_distrib]
  exact Finset.sum_congr rfl fun k _ => by ring

/-- (|u + v|² − |u − v|²) / 4 = u·v, on real entries. -/
theorem polar_real {n : Nat} (u v : Fin n → ℝ) :
    Ideal.div (((0 : EReal) + ∑ k, ((u k : EReal) + (v k : EReal)) * ((u k : EReal) + (v k : EReal)))
        - ((0 : EReal) + ∑ k, ((u k : EReal) - (v k : EReal)) * ((u k : EReal) - (v k : EReal)))) ((4 : ℝ) : EReal)
      = (0 : EReal) + ∑ k, (u k : EReal) * (v k : EReal) := by
  rw [Ideal.div_coe (by norm_num : (4 : ℝ) ≠ 0)]
  simp only [zero_add, ← EReal.coe_mul, ← EReal.coe_sub, ← coe_finset_sum, ← EReal.coe_add]
  congr 1
  rw [← Finset.sum_sub_distrib, Finset.sum_mul]
  exact Finset.sum_congr rfl fun k _ => by ring

/-! ## The two programs' sums, index by index -/

section Values

/-- Entry (row of i, k) of the embedding array. -/
abbrev iu (i : Cert.ReferenceIdeal.S4096x64.Idx) (k : Fin 128) : Cert.ReferenceIdeal.S4096x128.Idx := fun a => match a with
  | ⟨0, _⟩ => ⟨(i 0).val, (i 0).isLt⟩
  | ⟨1, _⟩ => ⟨k.val, k.isLt⟩

/-- Entry (i, k) of the gathered rows. -/
abbrev iv (i : Cert.ReferenceIdeal.S4096x64.Idx) (k : Fin 128) : Cert.ReferenceIdeal.S4096x64x128.Idx := idx_main_v11 i k

theorem iu_sq (i : Cert.ReferenceIdeal.S4096x64.Idx) (k : Fin 128) :
    idx_main_v7 (idx_main_v9 (idx_main_v22 i) k) = iu i k :=
  funext fun a => match a with | ⟨0, _⟩ => rfl | ⟨1, _⟩ => rfl

theorem iu_diff (i : Cert.ReferenceIdeal.S4096x64.Idx) (k : Fin 128) :
    idx_main_v7 (idx_main_v12 (idx_main_v15 i k)) = iu i k :=
  funext fun a => match a with | ⟨0, _⟩ => rfl | ⟨1, _⟩ => rfl

theorem iu_dot (i : Cert.ReferenceIdeal.S4096x64.Idx) (k : Fin 128) :
    idx_main_v7 (idx_main_v35 (idx_main_v37 i k)) = iu i k :=
  funext fun a => match a with | ⟨0, _⟩ => rfl | ⟨1, _⟩ => rfl

theorem iu_sum (i : Cert.ReferenceIdeal.S4096x64.Idx) (k : Fin 128) :
    idx_main_v7 (idx_main_v45 (idx_main_v48 i k)) = iu i k :=
  funext fun a => match a with | ⟨0, _⟩ => rfl | ⟨1, _⟩ => rfl

/-- The kernel program's sum along the columns of a rank-2 array, read at a row. -/
abbrev idx_k9 (j : S4096.Idx) (k : Fin 128) : S4096x128.Idx := fun a => match a with
  | ⟨0, _⟩ => ⟨(j 0).val, (j 0).isLt⟩
  | ⟨1, _⟩ => ⟨k.val, k.isLt⟩

theorem k9_apply (y0 : (⟨S4096x128, .f32⟩ : BufTy).Contents (Elt Ideal)) (j : S4096.Idx) :
    Host.reduceAdd y0 (constant (F := Ideal) S_ .f32 0x00000000#32) reducesTo_S4096x128_S4096_d1 h_S_ j
      = (constant (F := Ideal) S_ .f32 0x00000000#32) (Shape.Idx.first h_S_) + ∑ k : Fin 128, y0 (idx_k9 j k) := by
  simp only [Host.reduceAdd, Ideal.hostReduceAdd_def]
  rw [Ideal.hostReduceAdd_single reducesTo_S4096x128_S4096_d1 (by decide)]
  refine congrArg (_ + ·) (Finset.sum_congr rfl fun k _ => ?_)
  exact congrArg y0 (funext fun a => Fin.ext (by match a with | ⟨0, _⟩ => rfl | ⟨1, _⟩ => rfl))

abbrev idx_k10 (i : S4096x1.Idx) : S4096.Idx := fun a => match a with
  | ⟨0, _⟩ => ⟨(i 0).val, (i 0).isLt⟩

theorem k10_apply (y : (⟨S4096, .f32⟩ : BufTy).Contents (Elt Ideal)) (i : S4096x1.Idx) :
    broadcastInDim S4096x1 ![0] bcast_S4096_S4096x1_0 y i = y (idx_k10 i) :=
  broadcastInDim_apply _ bcast_S4096_S4096x1_0 y i (idx_k10 i) (fun a => match a with
    | ⟨0, _⟩ => by show (i 0).val = if (4096 : Nat) = 1 then 0 else (i 0).val; rw [if_neg (by decide)])

/-- A one-column array broadcast along the columns reads its row's entry. -/
theorem bc41_apply (y : (⟨S4096x1, .f32⟩ : BufTy).Contents (Elt Ideal)) (i : S4096x64.Idx) :
    broadcastInDim S4096x64 ![0, 1] bcast_S4096x1_S4096x64_0_1 y i = y (idx_main_v22 i) :=
  broadcastInDim_apply _ bcast_S4096x1_S4096x64_0_1 y i (idx_main_v22 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

/-- |u|² is the same sum in both programs. -/
theorem kv10_eq (x0 : (⟨S4096x128, .f32⟩ : BufTy).Contents (Elt Ideal)) : kv10 x0 = val_main_v9 x0 := by
  funext i
  rw [val_main_v9_apply]
  unfold kv10
  rw [k10_apply, k9_apply]
  refine congrArg₂ (· + ·) rfl (Finset.sum_congr rfl fun k _ => ?_)
  rw [val_main_v8_apply, val_main_v7_apply]
  exact congrArg (fun j => x0 j * x0 j)
    (funext fun a => match a with | ⟨0, _⟩ => rfl | ⟨1, _⟩ => rfl)

variable (x0 : (⟨S4096x128, .f32⟩ : BufTy).Contents (Elt Ideal)) (x1 : (⟨S4096x64, .i32⟩ : BufTy).Contents (Elt Ideal))
  (x4 : (⟨S10000x128, .f32⟩ : BufTy).Contents (Elt Ideal))

/-- Every gathered entry is an entry of the table, so a real when the table's entries are. -/
theorem v6_real_ix (h4 : ∀ j, ∃ r : ℝ, x4 j = (r : EReal)) (a : Fin 4096) (b : Fin 64) (k : Fin 128) :
    ∃ r : ℝ, val_main_v6 x1 x4 (ix3 a b k) = (r : EReal) := by
  unfold val_main_v6
  rw [Cert.Segment.gather_rows3 Cert.ReferenceIdeal.gather_S10000x128_S4096x64x1_S4096x64x128_2_0_n_n_0_2_1128
    rfl rfl rfl rfl rfl x4 (val_main_v5 x1) a b k (by decide)]
  exact h4 _

theorem v6_real (h4 : ∀ j, ∃ r : ℝ, x4 j = (r : EReal)) (j : Cert.ReferenceIdeal.S4096x64x128.Idx) :
    ∃ r : ℝ, val_main_v6 x1 x4 j = (r : EReal) := by
  obtain ⟨r, hr⟩ := v6_real_ix x1 x4 h4 (j 0) (j 1) (j 2)
  exact ⟨r, (congrArg (val_main_v6 x1 x4) (eq_ix3 j)).trans hr⟩

/-- The expanded squared distance is the reference's sum of squared differences, on real entries. -/
theorem kv20_eq (h0 : ∀ j, ∃ r : ℝ, x0 j = (r : EReal)) (h4 : ∀ j, ∃ r : ℝ, x4 j = (r : EReal)) :
    kv20 (val_main_v9 x0) (val_main_v11 x1 x4) (val_main_v37 x0 x1 x4) = val_main_v15 x0 x1 x4 := by
  choose U hU using h0
  choose V hV using v6_real x1 x4 h4
  funext i
  rw [val_main_v15_apply]
  unfold kv20
  rw [subf_apply, addf_apply, mulf_apply, bc41_apply, broadcastInDim_scalar_apply, constant_apply,
    val_main_v9_apply, val_main_v11_apply, val_main_v37_apply]
  simp only [val_main_v8_apply, val_main_v7_apply, val_main_v10_apply, val_main_v36_apply, val_main_v35_apply,
    val_main_v14_apply, val_main_v13_apply, val_main_v12_apply, val_main_cst_apply, val_main_cst_1_apply,
    val_main_cst_2_apply, val_main_cst_9_apply, Ideal.mulf_def, Ideal.subf_def, iu_sq, iu_diff, iu_dot, hU, hV,
    Ideal.ofBits_def, Ideal.ofBits_zero_f32, two_eq]
  exact sqdist_real (fun k => U (iu i k)) (fun k => V (iv i k))

/-- The reference's polarization is the inner product, on real entries. -/
theorem pol_eq (h0 : ∀ j, ∃ r : ℝ, x0 j = (r : EReal)) (h4 : ∀ j, ∃ r : ℝ, x4 j = (r : EReal)) :
    val_main_v51 x0 x1 x4 = val_main_v37 x0 x1 x4 := by
  choose U hU using h0
  choose V hV using v6_real x1 x4 h4
  funext i
  rw [val_main_v51_apply, val_main_v49_apply, val_main_v50_apply, val_main_cst_12_apply, val_main_v48_apply,
    val_main_v15_apply, val_main_v37_apply]
  simp only [val_main_v47_apply, val_main_v46_apply, val_main_v45_apply, val_main_v7_apply, val_main_v36_apply,
    val_main_v35_apply, val_main_v14_apply, val_main_v13_apply, val_main_v12_apply, val_main_cst_2_apply,
    val_main_cst_9_apply, val_main_cst_11_apply, Ideal.mulf_def, Ideal.subf_def, Ideal.addf_def, Ideal.hostDivf_def,
    iu_sum, iu_diff, iu_dot, hU, hV, Ideal.ofBits_def, Ideal.ofBits_zero_f32, four_eq]
  exact polar_real (fun k => U (iu i k)) (fun k => V (iv i k))

end Values

/-! ## The statements -/

section Statements

variable (W : Valuation Cert.KernelIdeal.τ Cert.KernelIdeal.sig (Elt Ideal))

/-- The gathered rows. -/
theorem f6 : K W Cert.KernelIdeal.main_v6 = Cert.ReferenceIdeal.ReadP.val_main_v6 (A1 W) (A4 W) := s6 W

/-- The popularity. -/
theorem f54 : K W Cert.KernelIdeal.main_v54 = Cert.ReferenceIdeal.ReadP.val_main_v59 (A1 W) (A3 W) := s54 W

/-- The inner products. -/
theorem f15 : K W Cert.KernelIdeal.main_v15 = Cert.ReferenceIdeal.ReadP.val_main_v37 (A0 W) (A1 W) (A4 W) := s15 W

/-- |u|². -/
theorem f10 : K W Cert.KernelIdeal.main_v10 = Cert.ReferenceIdeal.ReadP.val_main_v9 (A0 W) :=
  (s10 W).trans (kv10_eq _)

/-- |v|². -/
theorem f12 : K W Cert.KernelIdeal.main_v12 = Cert.ReferenceIdeal.ReadP.val_main_v11 (A1 W) (A4 W) := s12 W

/-- The squared distance, on real entries. -/
theorem f20 (hA0 : ∀ i, ∃ r : ℝ, A0 W i = (r : EReal)) (hA4 : ∀ i, ∃ r : ℝ, A4 W i = (r : EReal)) :
    K W Cert.KernelIdeal.main_v20 = Cert.ReferenceIdeal.ReadP.val_main_v15 (A0 W) (A1 W) (A4 W) := by
  rw [s20, kv10_eq]
  exact kv20_eq _ _ _ hA0 hA4

/-- The Poincaré distance, on real entries. -/
theorem f39 (hA0 : ∀ i, ∃ r : ℝ, A0 W i = (r : EReal)) (hA4 : ∀ i, ∃ r : ℝ, A4 W i = (r : EReal)) :
    K W Cert.KernelIdeal.main_v39 = Cert.ReferenceIdeal.ReadP.val_main_v34 (A0 W) (A1 W) (A4 W) := by
  rw [s39, kv10_eq, kv20_eq _ _ _ hA0 hA4, ref_poinc]

/-- The cosine. -/
theorem f46 : K W Cert.KernelIdeal.main_v46 = Cert.ReferenceIdeal.ReadP.val_main_v44 (A0 W) (A1 W) (A4 W) := by
  rw [s46, kv10_eq, ref_cos]

/-- The reference's polarization is the inner product, on real entries. -/
theorem pol (hA0 : ∀ i, ∃ r : ℝ, A0 W i = (r : EReal)) (hA4 : ∀ i, ∃ r : ℝ, A4 W i = (r : EReal)) :
    Cert.ReferenceIdeal.ReadP.val_main_v51 (A0 W) (A1 W) (A4 W) = Cert.ReferenceIdeal.ReadP.val_main_v37 (A0 W) (A1 W) (A4 W) :=
  pol_eq _ _ _ hA0 hA4

end Statements

end Cert.Bridge.Feat
-- ==== Proof.KILayer1.lean ====
/- The first dense layer's contraction, re-indexed. The reference contracts the joined row
   (the target embedding, then for each of 64 neighbours its 128 embedding entries, four extra features and one
   popularity feature) with the weight matrix of 8640 rows. The kernel contracts the 64·128 embedding entries with
   the matching 8192 weight rows, and separately the 448 remaining entries with the 448 remaining weight rows. Both
   are sums of the same products; only the order of the terms differs, and addition of extended reals is commutative
   and associative. -/
import proofs.«423201_j71829033059182_3_alg».proof.Proof.Gen.KernelIdeal.Launch
import proofs.«423201_j71829033059182_3_alg».proof.Proof.Gen.ReferenceIdeal
import Idealize.ShloMosaic.Lib.Pipeline.Value
import Idealize.ShloMosaic.Lib.ValueIdx
import Idealize.ShloMosaic.PureOps.Ideal.Laws
import Mathlib.Algebra.BigOperators.Fin
import Mathlib.Algebra.BigOperators.Intervals
import Mathlib.Tactic.Abel

set_option maxRecDepth 16384

noncomputable section

namespace Cert.Bridge.Layer1

open Idealize.ShloMosaic Idealize.ShloMosaic.TcCoe Idealize.SL.Sem Idealize.ShloMosaic.StableHlo
open Idealize.ShloMosaic.ValueIdx

/-! ## Sums over the joined positions, cut into their segments -/

section Comb
open Finset
variable {M : Type*} [AddCommMonoid M]

/-- A sum over the first `n * p` naturals, cut into `n` runs of `p`. -/
theorem sum_range_mul (g : ℕ → M) (p : ℕ) : ∀ n : ℕ,
    ∑ m ∈ range (n * p), g m = ∑ i ∈ range n, ∑ j ∈ range p, g (i * p + j)
  | 0 => by simp
  | n + 1 => by rw [Nat.succ_mul, sum_range_add, sum_range_mul g p n, sum_range_succ]

/-- A function on `Fin N` continued by zero to all naturals. -/
def ext0 {N : ℕ} (F : Fin N → M) (k : ℕ) : M := if h : k < N then F ⟨k, h⟩ else 0

theorem ext0_of_lt {N : ℕ} (F : Fin N → M) (k : ℕ) (h : k < N) : ext0 F k = F ⟨k, h⟩ := dif_pos h

theorem fin_sum_eq_range {N : ℕ} (F : Fin N → M) : ∑ k, F k = ∑ k ∈ range N, ext0 F k := by
  rw [← Fin.sum_univ_eq_sum_range]
  exact Finset.sum_congr rfl fun k _ => (ext0_of_lt F k.val k.isLt).symm

theorem range_sum_ext0 {N : ℕ} (F : Fin N → M) (n : ℕ) (φ : ℕ → ℕ) (hφ : ∀ i, i < n → φ i < N) :
    ∑ i ∈ range n, ext0 F (φ i) = ∑ i : Fin n, F ⟨φ i.val, hφ i.val i.isLt⟩ := by
  rw [← Fin.sum_univ_eq_sum_range (fun i => ext0 F (φ i))]
  exact Finset.sum_congr rfl fun i _ => ext0_of_lt F _ _

theorem range_sum2_ext0 {N : ℕ} (F : Fin N → M) (n p : ℕ) (φ : ℕ → ℕ → ℕ) (hφ : ∀ i j, i < n → j < p → φ i j < N) :
    ∑ i ∈ range n, ∑ j ∈ range p, ext0 F (φ i j)
      = ∑ i : Fin n, ∑ j : Fin p, F ⟨φ i.val j.val, hφ i.val j.val i.isLt j.isLt⟩ := by
  rw [← Fin.sum_univ_eq_sum_range (fun i => ∑ j ∈ range p, ext0 F (φ i j))]
  refine Finset.sum_congr rfl fun i _ => ?_
  rw [← Fin.sum_univ_eq_sum_range (fun j => ext0 F (φ i.val j))]
  exact Finset.sum_congr rfl fun j _ => ext0_of_lt F _ _

/-- The 8640 positions of the joined row: the 128 leading ones, then 64 groups of 128 + 4 + 1. -/
theorem sum_8640 (F : Fin 8640 → M) :
    ∑ k, F k
      = (∑ n : Fin 64, ∑ d : Fin 128, F ⟨128 + (n.val * 133 + d.val), by have := n.isLt; have := d.isLt; omega⟩)
        + (∑ d : Fin 128, F ⟨d.val, by have := d.isLt; omega⟩
          + ∑ n : Fin 64, ∑ e : Fin 4, F ⟨128 + (n.val * 133 + (128 + e.val)), by have := n.isLt; have := e.isLt; omega⟩
          + ∑ n : Fin 64, F ⟨128 + (n.val * 133 + 132), by have := n.isLt; omega⟩) := by
  rw [fin_sum_eq_range F]
  show ∑ k ∈ range (128 + 64 * 133), ext0 F k = _
  rw [sum_range_add, sum_range_mul]
  have h133 : ∀ i : ℕ, ∑ j ∈ range 133, ext0 F (128 + (i * 133 + j))
      = ∑ j ∈ range 128, ext0 F (128 + (i * 133 + j)) + ∑ e ∈ range 4, ext0 F (128 + (i * 133 + (128 + e)))
        + ext0 F (128 + (i * 133 + 132)) := fun i => by
    rw [show (133 : ℕ) = 128 + 4 + 1 from rfl, sum_range_add, sum_range_add, sum_range_one]
  simp only [h133, sum_add_distrib]
  rw [range_sum2_ext0 F 64 128 (fun i j => 128 + (i * 133 + j)) (fun i j hi hj => by omega),
    range_sum2_ext0 F 64 4 (fun i e => 128 + (i * 133 + (128 + e))) (fun i j hi hj => by omega),
    range_sum_ext0 F 64 (fun i => 128 + (i * 133 + 132)) (fun i hi => by omega),
    range_sum_ext0 F 128 (fun i => i) (fun i hi => by omega)]
  abel

/-- The 8192 neighbour-embedding positions: 64 groups of 128. -/
theorem sum_8192 (F : Fin 8192 → M) :
    ∑ q, F q = ∑ n : Fin 64, ∑ d : Fin 128, F ⟨n.val * 128 + d.val, by have := n.isLt; have := d.isLt; omega⟩ := by
  rw [fin_sum_eq_range F]
  show ∑ k ∈ range (64 * 128), ext0 F k = _
  rw [sum_range_mul,
    range_sum2_ext0 F 64 128 (fun i j => i * 128 + j) (fun i j hi hj => by omega)]

/-- The 448 remaining positions: 128, then 64 groups of 4, then 64. -/
theorem sum_448 (F : Fin 448 → M) :
    ∑ r, F r
      = ∑ d : Fin 128, F ⟨d.val, by have := d.isLt; omega⟩
        + ∑ n : Fin 64, ∑ e : Fin 4, F ⟨128 + (n.val * 4 + e.val), by have := n.isLt; have := e.isLt; omega⟩
        + ∑ n : Fin 64, F ⟨384 + n.val, by have := n.isLt; omega⟩ := by
  rw [fin_sum_eq_range F]
  show ∑ k ∈ range (128 + 64 * 4 + 64), ext0 F k = _
  rw [sum_range_add, sum_range_add, sum_range_mul,
    range_sum2_ext0 F 64 4 (fun i e => 128 + (i * 4 + e)) (fun i j hi hj => by omega),
    range_sum_ext0 F 64 (fun i => 128 + 64 * 4 + i) (fun i hi => by omega),
    range_sum_ext0 F 128 (fun i => i) (fun i hi => by omega)]

end Comb

/-! ## The two contractions at an entry -/

section Dots

/-- The reference's contraction at an entry: the sum over the 8640 joined positions. -/
theorem refDot_apply (X : FVec Ideal Cert.ReferenceIdeal.S4096x8640 .f32) (Y : FVec Ideal Cert.ReferenceIdeal.S8640x2048 .f32)
    (b : Fin 4096) (s : Fin 2048) :
    Host.dotGeneral (F := Ideal) Cert.ReferenceIdeal.dot_S4096x8640_S8640x2048_S4096x2048_1_0_0_1_n_n none X Y (ix2 b s)
      = ∑ k : Fin 8640, X (ix2 b k) * Y (ix2 k s) := by
  simp only [Host.dotGeneral]
  rw [Ideal.dotGeneral_apply, ← Equiv.sum_comp (ValueIdx.contrEquiv1 Cert.ReferenceIdeal.dot_S4096x8640_S8640x2048_S4096x2048_1_0_0_1_n_n 8640 rfl rfl).symm]
  refine Finset.sum_congr rfl fun k _ => ?_
  have hk := ValueIdx.contrEquiv1_symm_val Cert.ReferenceIdeal.dot_S4096x8640_S8640x2048_S4096x2048_1_0_0_1_n_n 8640 rfl rfl k
  have el : Cert.ReferenceIdeal.dot_S4096x8640_S8640x2048_S4096x2048_1_0_0_1_n_n.lhsIdx (ix2 b s)
      ((ValueIdx.contrEquiv1 Cert.ReferenceIdeal.dot_S4096x8640_S8640x2048_S4096x2048_1_0_0_1_n_n 8640 rfl rfl).symm k) = ix2 b k :=
    funext fun a => Fin.ext (by
      match a with
      | ⟨0, _⟩ =>
        show (DotDims.lhsIdx _ _ _ 0).val = b.val
        unfold DotDims.lhsIdx
        rw [dif_neg (show ¬(0 : Fin Cert.ReferenceIdeal.S4096x8640.rank) ∈ Cert.ReferenceIdeal.dot_S4096x8640_S8640x2048_S4096x2048_1_0_0_1_n_n.lhsBatch by decide),
          dif_pos (show (0 : Fin Cert.ReferenceIdeal.S4096x8640.rank) ∈ Cert.ReferenceIdeal.dot_S4096x8640_S8640x2048_S4096x2048_1_0_0_1_n_n.lhsNonContracting by decide)]
        rfl
      | ⟨1, _⟩ => exact (Cert.ReferenceIdeal.dot_S4096x8640_S8640x2048_S4096x2048_1_0_0_1_n_n.lhsIdx_val_of_single rfl _ _).trans hk)
  have er : Cert.ReferenceIdeal.dot_S4096x8640_S8640x2048_S4096x2048_1_0_0_1_n_n.rhsIdx (ix2 b s)
      ((ValueIdx.contrEquiv1 Cert.ReferenceIdeal.dot_S4096x8640_S8640x2048_S4096x2048_1_0_0_1_n_n 8640 rfl rfl).symm k) = ix2 k s :=
    funext fun a => Fin.ext (by
      match a with
      | ⟨0, _⟩ => exact (Cert.ReferenceIdeal.dot_S4096x8640_S8640x2048_S4096x2048_1_0_0_1_n_n.rhsIdx_val_of_single rfl _ _).trans hk
      | ⟨1, _⟩ =>
        show (DotDims.rhsIdx _ _ _ 1).val = s.val
        unfold DotDims.rhsIdx
        rw [dif_neg (show ¬(1 : Fin Cert.ReferenceIdeal.S8640x2048.rank) ∈ Cert.ReferenceIdeal.dot_S4096x8640_S8640x2048_S4096x2048_1_0_0_1_n_n.rhsBatch by decide),
          dif_pos (show (1 : Fin Cert.ReferenceIdeal.S8640x2048.rank) ∈ Cert.ReferenceIdeal.dot_S4096x8640_S8640x2048_S4096x2048_1_0_0_1_n_n.rhsNonContracting by decide)]
        rfl)
  rw [el, er]

/-- The kernel's small contraction at an entry: the sum over the 448 remaining positions. -/
theorem kDot_apply (X : FVec Ideal Cert.KernelIdeal.S4096x448 .f32) (Y : FVec Ideal Cert.KernelIdeal.S448x2048 .f32)
    (b : Fin 4096) (s : Fin 2048) :
    Host.dotGeneral (F := Ideal) Cert.KernelIdeal.dot_S4096x448_S448x2048_S4096x2048_1_0_0_1_n_n (some .fp32) X Y (ix2 b s)
      = ∑ k : Fin 448, X (ix2 b k) * Y (ix2 k s) := by
  simp only [Host.dotGeneral]
  rw [Ideal.dotGeneral_apply, ← Equiv.sum_comp (ValueIdx.contrEquiv1 Cert.KernelIdeal.dot_S4096x448_S448x2048_S4096x2048_1_0_0_1_n_n 448 rfl rfl).symm]
  refine Finset.sum_congr rfl fun k _ => ?_
  have hk := ValueIdx.contrEquiv1_symm_val Cert.KernelIdeal.dot_S4096x448_S448x2048_S4096x2048_1_0_0_1_n_n 448 rfl rfl k
  have el : Cert.KernelIdeal.dot_S4096x448_S448x2048_S4096x2048_1_0_0_1_n_n.lhsIdx (ix2 b s)
      ((ValueIdx.contrEquiv1 Cert.KernelIdeal.dot_S4096x448_S448x2048_S4096x2048_1_0_0_1_n_n 448 rfl rfl).symm k) = ix2 b k :=
    funext fun a => Fin.ext (by
      match a with
      | ⟨0, _⟩ =>
        show (DotDims.lhsIdx _ _ _ 0).val = b.val
        unfold DotDims.lhsIdx
        rw [dif_neg (show ¬(0 : Fin Cert.KernelIdeal.S4096x448.rank) ∈ Cert.KernelIdeal.dot_S4096x448_S448x2048_S4096x2048_1_0_0_1_n_n.lhsBatch by decide),
          dif_pos (show (0 : Fin Cert.KernelIdeal.S4096x448.rank) ∈ Cert.KernelIdeal.dot_S4096x448_S448x2048_S4096x2048_1_0_0_1_n_n.lhsNonContracting by decide)]
        rfl
      | ⟨1, _⟩ => exact (Cert.KernelIdeal.dot_S4096x448_S448x2048_S4096x2048_1_0_0_1_n_n.lhsIdx_val_of_single rfl _ _).trans hk)
  have er : Cert.KernelIdeal.dot_S4096x448_S448x2048_S4096x2048_1_0_0_1_n_n.rhsIdx (ix2 b s)
      ((ValueIdx.contrEquiv1 Cert.KernelIdeal.dot_S4096x448_S448x2048_S4096x2048_1_0_0_1_n_n 448 rfl rfl).symm k) = ix2 k s :=
    funext fun a => Fin.ext (by
      match a with
      | ⟨0, _⟩ => exact (Cert.KernelIdeal.dot_S4096x448_S448x2048_S4096x2048_1_0_0_1_n_n.rhsIdx_val_of_single rfl _ _).trans hk
      | ⟨1, _⟩ =>
        show (DotDims.rhsIdx _ _ _ 1).val = s.val
        unfold DotDims.rhsIdx
        rw [dif_neg (show ¬(1 : Fin Cert.KernelIdeal.S448x2048.rank) ∈ Cert.KernelIdeal.dot_S4096x448_S448x2048_S4096x2048_1_0_0_1_n_n.rhsBatch by decide),
          dif_pos (show (1 : Fin Cert.KernelIdeal.S448x2048.rank) ∈ Cert.KernelIdeal.dot_S4096x448_S448x2048_S4096x2048_1_0_0_1_n_n.rhsNonContracting by decide)]
        rfl)
  rw [el, er]

end Dots

/-! ## The operands and the statement -/
section Statement

-- the arrays both programs build the first layer's operands from
variable (TE : (⟨Cert.KernelIdeal.S4096x128, .f32⟩ : BufTy).Contents (Elt Ideal))
  (Vv : (⟨Cert.KernelIdeal.S4096x64x128, .f32⟩ : BufTy).Contents (Elt Ideal))
  (P C Pol D Pop : (⟨Cert.KernelIdeal.S4096x64, .f32⟩ : BufTy).Contents (Elt Ideal))
  (W1 : (⟨Cert.KernelIdeal.S8640x2048, .f32⟩ : BufTy).Contents (Elt Ideal))

/-- The reference's joined input row: the target embedding, then the neighbours' 133 entries each. -/
def refInp : (⟨Cert.ReferenceIdeal.S4096x8640, .f32⟩ : BufTy).Contents (Elt Ideal) :=
  open Cert.ReferenceIdeal Cert.ReferenceIdeal.Facts₀ in
  concatenate S4096x8640 1 [⟨S4096x128, TE⟩, ⟨S4096x8512,
    shapeCast _ (concatenate S4096x64x133 2 [⟨S4096x64x128, Vv⟩,
      ⟨S4096x64x4, concatenate S4096x64x4 2 [⟨S4096x64x1, broadcastInDim S4096x64x1 ![0, 1] bcast_S4096x64_S4096x64x1_0_1 P⟩,
        ⟨S4096x64x1, broadcastInDim S4096x64x1 ![0, 1] bcast_S4096x64_S4096x64x1_0_1 C⟩,
        ⟨S4096x64x1, broadcastInDim S4096x64x1 ![0, 1] bcast_S4096x64_S4096x64x1_0_1 Pol⟩,
        ⟨S4096x64x1, broadcastInDim S4096x64x1 ![0, 1] bcast_S4096x64_S4096x64x1_0_1 D⟩]
        concatenates_S4096x64x1_S4096x64x1_S4096x64x1_S4096x64x1_S4096x64x4_d2⟩,
      ⟨S4096x64x1, broadcastInDim S4096x64x1 ![0, 1] bcast_S4096x64_S4096x64x1_0_1 Pop⟩]
      concatenates_S4096x64x128_S4096x64x4_S4096x64x1_S4096x64x133_d2) shapeCasts_S4096x64x133_S4096x8512⟩]
    concatenates_S4096x128_S4096x8512_S4096x8640_d1

/-- The kernel's flattened neighbour embeddings. -/
def kVflat : (⟨Cert.KernelIdeal.S4096x8192, .bf16⟩ : BufTy).Contents (Elt Ideal) :=
  open Cert.KernelIdeal Cert.KernelIdeal.Facts₀ in
  shapeCast S4096x8192 (truncf (F := Ideal) .bf16 Vv bitsLt_bf16_f32) shapeCasts_S4096x64x128_S4096x8192

/-- The weight rows below the target embedding's, one 133-row group per neighbour. -/
def kW166 : (⟨Cert.KernelIdeal.S64x133x2048, .f32⟩ : BufTy).Contents (Elt Ideal) :=
  open Cert.KernelIdeal Cert.KernelIdeal.Facts₀ in
  shapeCast _ (extractStridedSlice S8512x2048 ![128, 0] W1 slices_S8640x2048_S8512x2048_128_0) shapeCasts_S8512x2048_S64x133x2048

/-- The kernel's weight rows for the neighbour embeddings. -/
def kW1v : (⟨Cert.KernelIdeal.S8192x2048, .bf16⟩ : BufTy).Contents (Elt Ideal) :=
  open Cert.KernelIdeal Cert.KernelIdeal.Facts₀ in
  truncf (F := Ideal) .bf16 (shapeCast _ (extractStridedSlice S64x128x2048 ![0, 0, 0] (kW166 W1) slices_S64x133x2048_S64x128x2048_0_0_0)
    shapeCasts_S64x128x2048_S8192x2048) bitsLt_bf16_f32

/-- The kernel's remaining input entries: target embedding, extra features, popularity. -/
def kSmall : (⟨Cert.KernelIdeal.S4096x448, .f32⟩ : BufTy).Contents (Elt Ideal) :=
  open Cert.KernelIdeal Cert.KernelIdeal.Facts₀ in
  concatenate S4096x448 1 [⟨S4096x128, TE⟩,
    ⟨S4096x256, shapeCast _ (concatenate S4096x64x4 2 [⟨S4096x64x1, broadcastInDim S4096x64x1 ![0, 1] bcast_S4096x64_S4096x64x1_0_1 P⟩,
        ⟨S4096x64x1, broadcastInDim S4096x64x1 ![0, 1] bcast_S4096x64_S4096x64x1_0_1 C⟩,
        ⟨S4096x64x1, broadcastInDim S4096x64x1 ![0, 1] bcast_S4096x64_S4096x64x1_0_1 Pol⟩,
        ⟨S4096x64x1, broadcastInDim S4096x64x1 ![0, 1] bcast_S4096x64_S4096x64x1_0_1 D⟩]
        concatenates_S4096x64x1_S4096x64x1_S4096x64x1_S4096x64x1_S4096x64x4_d2) shapeCasts_S4096x64x4_S4096x256⟩,
    ⟨S4096x64, Pop⟩] concatenates_S4096x128_S4096x256_S4096x64_S4096x448_d1

/-- The kernel's remaining weight rows, in the same order. -/
def kW1small : (⟨Cert.KernelIdeal.S448x2048, .f32⟩ : BufTy).Contents (Elt Ideal) :=
  open Cert.KernelIdeal Cert.KernelIdeal.Facts₀ in
  concatenate S448x2048 0 [⟨S128x2048, extractStridedSlice S128x2048 ![0, 0] W1 slices_S8640x2048_S128x2048_0_0⟩,
    ⟨S256x2048, shapeCast _ (extractStridedSlice S64x4x2048 ![0, 128, 0] (kW166 W1) slices_S64x133x2048_S64x4x2048_0_128_0) shapeCasts_S64x4x2048_S256x2048⟩,
    ⟨S64x2048, shapeCast _ (extractStridedSlice S64x1x2048 ![0, 132, 0] (kW166 W1) slices_S64x133x2048_S64x1x2048_0_132_0) shapeCasts_S64x1x2048_S64x2048⟩]
    concatenates_S128x2048_S256x2048_S64x2048_S448x2048_d0

/-- The four extra features of a neighbour, joined along the last axis (the kernel's term). -/
def kExtra : (⟨Cert.KernelIdeal.S4096x64x4, .f32⟩ : BufTy).Contents (Elt Ideal) :=
  open Cert.KernelIdeal Cert.KernelIdeal.Facts₀ in
  concatenate S4096x64x4 2 [⟨S4096x64x1, broadcastInDim S4096x64x1 ![0, 1] bcast_S4096x64_S4096x64x1_0_1 P⟩,
        ⟨S4096x64x1, broadcastInDim S4096x64x1 ![0, 1] bcast_S4096x64_S4096x64x1_0_1 C⟩,
        ⟨S4096x64x1, broadcastInDim S4096x64x1 ![0, 1] bcast_S4096x64_S4096x64x1_0_1 Pol⟩,
        ⟨S4096x64x1, broadcastInDim S4096x64x1 ![0, 1] bcast_S4096x64_S4096x64x1_0_1 D⟩]
        concatenates_S4096x64x1_S4096x64x1_S4096x64x1_S4096x64x1_S4096x64x4_d2

/-! ### The reference's joined row, entry by entry -/

/-- Its first 128 entries are the target embedding. -/
theorem refInp_te (b : Fin 4096) (d : Fin 128) :
    refInp TE Vv P C Pol D Pop (ix2 b (⟨d.val, by have := d.isLt; omega⟩ : Fin 8640)) = TE (ix2 b d) := by
  unfold refInp
  refine concatenate_pair_apply_left (t := Cert.ReferenceIdeal.S4096x8640) 1 TE _ _ _ ?_ (ix2 b d) ?_
  · rfl
  · intro a
    match a with
    | ⟨0, _⟩ => rfl
    | ⟨1, _⟩ => rfl

/-- The joined row past the target embedding: the neighbours' 133 entries each, laid end to end. -/
theorem refInp_tail (b : Fin 4096) (n : Fin 64) (r : Fin 133) :
    refInp TE Vv P C Pol D Pop (ix2 b (⟨128 + (n.val * 133 + r.val), by have := n.isLt; have := r.isLt; omega⟩ : Fin 8640))
      = (open Cert.ReferenceIdeal Cert.ReferenceIdeal.Facts₀ in
        concatenate S4096x64x133 2 [⟨S4096x64x128, Vv⟩,
          ⟨S4096x64x4, kExtra P C Pol D⟩,
          ⟨S4096x64x1, broadcastInDim S4096x64x1 ![0, 1] bcast_S4096x64_S4096x64x1_0_1 Pop⟩]
          concatenates_S4096x64x128_S4096x64x4_S4096x64x1_S4096x64x133_d2) (ix3 b n r) := by
  have hn := n.isLt; have hr := r.isLt; have hb := b.isLt
  unfold refInp
  refine (concatenate_pair_apply_right (t := Cert.ReferenceIdeal.S4096x8640) 1 TE _ _ _ ?_ ?_
    (ix2 b (⟨n.val * 133 + r.val, by omega⟩ : Fin 8512)) ?_ ?_).trans ?_
  · rfl
  · rfl
  · intro a
    match a with
    | ⟨0, _⟩ => exact fun _ => rfl
    | ⟨1, _⟩ => exact fun h => absurd rfl h
  · show n.val * 133 + r.val + 128 = 128 + (n.val * 133 + r.val)
    omega
  · exact shapeCast_apply _ _ _ (ix3 b n r) (by
      rewrite [Shape.rowMajor_val_three, Shape.rowMajor_val_two]
      show (b.val * 64 + n.val) * 133 + r.val = b.val * 8512 + (n.val * 133 + r.val)
      omega)

/-- A neighbour's first 128 entries are its embedding. -/
theorem refInp_v (b : Fin 4096) (n : Fin 64) (d : Fin 128) :
    refInp TE Vv P C Pol D Pop (ix2 b (⟨128 + (n.val * 133 + d.val), by have := n.isLt; have := d.isLt; omega⟩ : Fin 8640))
      = Vv (ix3 b n d) := by
  have hd := d.isLt
  refine (refInp_tail TE Vv P C Pol D Pop b n ⟨d.val, by omega⟩).trans ?_
  refine concatenate_apply_piece (t := Cert.ReferenceIdeal.S4096x64x133) 2 _ _ _ 0 ?_ _ Vv ?_ ?_ 0 ?_ (ix3 b n d) ?_ ?_
  · show _ < (3 : ℕ); decide
  · rfl
  · rfl
  · rfl
  · intro a
    match a with
    | ⟨0, _⟩ => exact fun _ => rfl
    | ⟨1, _⟩ => exact fun _ => rfl
    | ⟨2, _⟩ => exact fun h => absurd rfl h
  · show 0 + d.val = d.val
    omega

/-- Its next four are the extra features. -/
theorem refInp_extra (b : Fin 4096) (n : Fin 64) (e : Fin 4) :
    refInp TE Vv P C Pol D Pop (ix2 b (⟨128 + (n.val * 133 + (128 + e.val)), by have := n.isLt; have := e.isLt; omega⟩ : Fin 8640))
      = kExtra P C Pol D (ix3 b n e) := by
  have he := e.isLt
  refine (refInp_tail TE Vv P C Pol D Pop b n ⟨128 + e.val, by omega⟩).trans ?_
  refine concatenate_apply_piece (t := Cert.ReferenceIdeal.S4096x64x133) 2 _ _ _ 1 ?_ _ (kExtra P C Pol D) ?_ ?_ 128 ?_ (ix3 b n e) ?_ ?_
  · show _ < (3 : ℕ); decide
  · rfl
  · rfl
  · rfl
  · intro a
    match a with
    | ⟨0, _⟩ => exact fun _ => rfl
    | ⟨1, _⟩ => exact fun _ => rfl
    | ⟨2, _⟩ => exact fun h => absurd rfl h
  · rfl

/-- Its last is the popularity feature. -/
theorem refInp_pop (b : Fin 4096) (n : Fin 64) :
    refInp TE Vv P C Pol D Pop (ix2 b (⟨128 + (n.val * 133 + 132), by have := n.isLt; omega⟩ : Fin 8640))
      = Pop (ix2 b n) := by
  refine (refInp_tail TE Vv P C Pol D Pop b n ⟨132, by omega⟩).trans ?_
  refine (concatenate_apply_piece (t := Cert.ReferenceIdeal.S4096x64x133) 2 _ _ _ 2 ?_ Cert.ReferenceIdeal.S4096x64x1
    (broadcastInDim Cert.ReferenceIdeal.S4096x64x1 ![0, 1] Cert.ReferenceIdeal.Facts₀.bcast_S4096x64_S4096x64x1_0_1 Pop)
    ?_ ?_ 132 ?_ (ix3 b n (0 : Fin 1)) ?_ ?_).trans ?_
  · show _ < (3 : ℕ); decide
  · rfl
  · rfl
  · rfl
  · intro a
    match a with
    | ⟨0, _⟩ => exact fun _ => rfl
    | ⟨1, _⟩ => exact fun _ => rfl
    | ⟨2, _⟩ => exact fun h => absurd rfl h
  · rfl
  · exact broadcastInDim_apply _ _ Pop _ (ix2 b n) (fun a => match a with
      | ⟨0, _⟩ => by show b.val = if (4096 : Nat) = 1 then 0 else b.val; rw [if_neg (by decide)]
      | ⟨1, _⟩ => by show n.val = if (64 : Nat) = 1 then 0 else n.val; rw [if_neg (by decide)])

/-! ### The kernel's operands, entry by entry -/

/-- The flattened neighbour embeddings: neighbour `n`'s entry `d` sits at position `128 n + d`. -/
theorem kVflat_apply (b : Fin 4096) (n : Fin 64) (d : Fin 128) :
    kVflat Vv (ix2 b (⟨n.val * 128 + d.val, by have := n.isLt; have := d.isLt; omega⟩ : Fin 8192)) = Vv (ix3 b n d) := by
  unfold kVflat
  exact shapeCast_apply (truncf (F := Ideal) .bf16 Vv Cert.KernelIdeal.Facts₀.bitsLt_bf16_f32) _ _ (ix3 b n d) (by
    rewrite [Shape.rowMajor_val_three, Shape.rowMajor_val_two]
    show (b.val * 64 + n.val) * 128 + d.val = b.val * 8192 + (n.val * 128 + d.val)
    omega)

/-- The grouped weight rows: group `n`'s row `r` is row `128 + 133 n + r` of the weight matrix. -/
theorem kW166_apply (n : Fin 64) (r : Fin 133) (s : Fin 2048) :
    kW166 W1 (ix3 n r s) = W1 (ix2 (⟨128 + (n.val * 133 + r.val), by have := n.isLt; have := r.isLt; omega⟩ : Fin 8640) s) := by
  have hn := n.isLt; have hr := r.isLt
  unfold kW166
  refine (shapeCast_apply _ _ _ (ix2 (⟨n.val * 133 + r.val, by omega⟩ : Fin 8512) s) ?_).trans ?_
  · rewrite [Shape.rowMajor_val_three, Shape.rowMajor_val_two]
    show (n.val * 133 + r.val) * 2048 + s.val = (n.val * 133 + r.val) * 2048 + s.val
    rfl
  · refine extractStridedSlice_apply _ W1 _ _ _ ?_
    intro a
    match a with
    | ⟨0, _⟩ => show 128 + (n.val * 133 + r.val) = 128 + (n.val * 133 + r.val); rfl
    | ⟨1, _⟩ => show s.val = 0 + s.val; omega

/-- The weight rows the kernel pairs with the flattened embeddings. -/
theorem kW1v_apply (n : Fin 64) (d : Fin 128) (s : Fin 2048) :
    kW1v W1 (ix2 (⟨n.val * 128 + d.val, by have := n.isLt; have := d.isLt; omega⟩ : Fin 8192) s)
      = W1 (ix2 (⟨128 + (n.val * 133 + d.val), by have := n.isLt; have := d.isLt; omega⟩ : Fin 8640) s) := by
  have hn := n.isLt; have hd := d.isLt
  unfold kW1v
  refine Eq.trans (b := (shapeCast Cert.KernelIdeal.S8192x2048 (extractStridedSlice Cert.KernelIdeal.S64x128x2048 ![0, 0, 0] (kW166 W1)
      Cert.KernelIdeal.Facts₀.slices_S64x133x2048_S64x128x2048_0_0_0) Cert.KernelIdeal.Facts₀.shapeCasts_S64x128x2048_S8192x2048)
      (ix2 (⟨n.val * 128 + d.val, by omega⟩ : Fin 8192) s)) rfl ?_
  refine (shapeCast_apply _ _ _ (ix3 n d s) ?_).trans ?_
  · rewrite [Shape.rowMajor_val_three, Shape.rowMajor_val_two]
    show (n.val * 128 + d.val) * 2048 + s.val = (n.val * 128 + d.val) * 2048 + s.val
    rfl
  refine (extractStridedSlice_apply _ (kW166 W1) _ _ (ix3 n (⟨d.val, by omega⟩ : Fin 133) s) ?_).trans ?_
  · intro a
    match a with
    | ⟨0, _⟩ => show n.val = 0 + n.val; omega
    | ⟨1, _⟩ => show d.val = 0 + d.val; omega
    | ⟨2, _⟩ => show s.val = 0 + s.val; omega
  exact kW166_apply W1 n ⟨d.val, by omega⟩ s

/-- The remaining input entries: first the target embedding, -/
theorem kSmall_te (b : Fin 4096) (d : Fin 128) :
    kSmall TE P C Pol D Pop (ix2 b (⟨d.val, by have := d.isLt; omega⟩ : Fin 448)) = TE (ix2 b d) := by
  unfold kSmall
  refine concatenate_apply_piece (t := Cert.KernelIdeal.S4096x448) 1 _ _ _ 0 ?_ _ TE ?_ ?_ 0 ?_ (ix2 b d) ?_ ?_
  · show _ < (3 : ℕ); decide
  · rfl
  · rfl
  · rfl
  · intro a
    match a with
    | ⟨0, _⟩ => exact fun _ => rfl
    | ⟨1, _⟩ => exact fun h => absurd rfl h
  · show 0 + d.val = d.val
    omega

/-- then the neighbours' extra features, four each, -/
theorem kSmall_extra (b : Fin 4096) (n : Fin 64) (e : Fin 4) :
    kSmall TE P C Pol D Pop (ix2 b (⟨128 + (n.val * 4 + e.val), by have := n.isLt; have := e.isLt; omega⟩ : Fin 448))
      = kExtra P C Pol D (ix3 b n e) := by
  have hn := n.isLt; have he := e.isLt
  unfold kSmall
  refine (concatenate_apply_piece (t := Cert.KernelIdeal.S4096x448) 1 _ _ _ 1 ?_ Cert.KernelIdeal.S4096x256
    (shapeCast Cert.KernelIdeal.S4096x256 (kExtra P C Pol D) Cert.KernelIdeal.Facts₀.shapeCasts_S4096x64x4_S4096x256) ?_ ?_ 128 ?_
    (ix2 b (⟨n.val * 4 + e.val, by omega⟩ : Fin 256)) ?_ ?_).trans ?_
  · show _ < (3 : ℕ); decide
  · rfl
  · rfl
  · rfl
  · intro a
    match a with
    | ⟨0, _⟩ => exact fun _ => rfl
    | ⟨1, _⟩ => exact fun h => absurd rfl h
  · rfl
  · exact shapeCast_apply _ _ _ (ix3 b n e) (by
      rewrite [Shape.rowMajor_val_three, Shape.rowMajor_val_two]
      show (b.val * 64 + n.val) * 4 + e.val = b.val * 256 + (n.val * 4 + e.val)
      omega)

/-- then the neighbours' popularity features. -/
theorem kSmall_pop (b : Fin 4096) (n : Fin 64) :
    kSmall TE P C Pol D Pop (ix2 b (⟨384 + n.val, by have := n.isLt; omega⟩ : Fin 448)) = Pop (ix2 b n) := by
  unfold kSmall
  refine concatenate_apply_piece (t := Cert.KernelIdeal.S4096x448) 1 _ _ _ 2 ?_ _ Pop ?_ ?_ 384 ?_ (ix2 b n) ?_ ?_
  · show _ < (3 : ℕ); decide
  · rfl
  · rfl
  · rfl
  · intro a
    match a with
    | ⟨0, _⟩ => exact fun _ => rfl
    | ⟨1, _⟩ => exact fun h => absurd rfl h
  · rfl

/-- The remaining weight rows, in the same order: the target embedding's, -/
theorem kW1small_te (d : Fin 128) (s : Fin 2048) :
    kW1small W1 (ix2 (⟨d.val, by have := d.isLt; omega⟩ : Fin 448) s)
      = W1 (ix2 (⟨d.val, by have := d.isLt; omega⟩ : Fin 8640) s) := by
  unfold kW1small
  refine (concatenate_apply_piece (t := Cert.KernelIdeal.S448x2048) 0 _ _ _ 0 ?_ Cert.KernelIdeal.S128x2048
    (extractStridedSlice Cert.KernelIdeal.S128x2048 ![0, 0] W1 Cert.KernelIdeal.Facts₀.slices_S8640x2048_S128x2048_0_0) ?_ ?_ 0 ?_
    (ix2 d s) ?_ ?_).trans ?_
  · show _ < (3 : ℕ); decide
  · rfl
  · rfl
  · rfl
  · intro a
    match a with
    | ⟨0, _⟩ => exact fun h => absurd rfl h
    | ⟨1, _⟩ => exact fun _ => rfl
  · show 0 + d.val = d.val
    omega
  · refine extractStridedSlice_apply _ W1 _ _ _ ?_
    intro a
    match a with
    | ⟨0, _⟩ => show d.val = 0 + d.val; omega
    | ⟨1, _⟩ => show s.val = 0 + s.val; omega

/-- the extra features', -/
theorem kW1small_extra (n : Fin 64) (e : Fin 4) (s : Fin 2048) :
    kW1small W1 (ix2 (⟨128 + (n.val * 4 + e.val), by have := n.isLt; have := e.isLt; omega⟩ : Fin 448) s)
      = W1 (ix2 (⟨128 + (n.val * 133 + (128 + e.val)), by have := n.isLt; have := e.isLt; omega⟩ : Fin 8640) s) := by
  have hn := n.isLt; have he := e.isLt
  unfold kW1small
  refine (concatenate_apply_piece (t := Cert.KernelIdeal.S448x2048) 0 _ _ _ 1 ?_ Cert.KernelIdeal.S256x2048
    (shapeCast Cert.KernelIdeal.S256x2048 (extractStridedSlice Cert.KernelIdeal.S64x4x2048 ![0, 128, 0] (kW166 W1)
      Cert.KernelIdeal.Facts₀.slices_S64x133x2048_S64x4x2048_0_128_0) Cert.KernelIdeal.Facts₀.shapeCasts_S64x4x2048_S256x2048) ?_ ?_ 128 ?_
    (ix2 (⟨n.val * 4 + e.val, by omega⟩ : Fin 256) s) ?_ ?_).trans ?_
  · show _ < (3 : ℕ); decide
  · rfl
  · rfl
  · rfl
  · intro a
    match a with
    | ⟨0, _⟩ => exact fun h => absurd rfl h
    | ⟨1, _⟩ => exact fun _ => rfl
  · rfl
  refine (shapeCast_apply _ _ _ (ix3 n e s) ?_).trans ?_
  · rewrite [Shape.rowMajor_val_three, Shape.rowMajor_val_two]
    show (n.val * 4 + e.val) * 2048 + s.val = (n.val * 4 + e.val) * 2048 + s.val
    rfl
  refine (extractStridedSlice_apply _ (kW166 W1) _ _ (ix3 n (⟨128 + e.val, by omega⟩ : Fin 133) s) ?_).trans ?_
  · intro a
    match a with
    | ⟨0, _⟩ => show n.val = 0 + n.val; omega
    | ⟨1, _⟩ => show 128 + e.val = 128 + e.val; rfl
    | ⟨2, _⟩ => show s.val = 0 + s.val; omega
  exact kW166_apply W1 n ⟨128 + e.val, by omega⟩ s

/-- the popularity features'. -/
theorem kW1small_pop (n : Fin 64) (s : Fin 2048) :
    kW1small W1 (ix2 (⟨384 + n.val, by have := n.isLt; omega⟩ : Fin 448) s)
      = W1 (ix2 (⟨128 + (n.val * 133 + 132), by have := n.isLt; omega⟩ : Fin 8640) s) := by
  have hn := n.isLt
  unfold kW1small
  refine (concatenate_apply_piece (t := Cert.KernelIdeal.S448x2048) 0 _ _ _ 2 ?_ Cert.KernelIdeal.S64x2048
    (shapeCast Cert.KernelIdeal.S64x2048 (extractStridedSlice Cert.KernelIdeal.S64x1x2048 ![0, 132, 0] (kW166 W1)
      Cert.KernelIdeal.Facts₀.slices_S64x133x2048_S64x1x2048_0_132_0) Cert.KernelIdeal.Facts₀.shapeCasts_S64x1x2048_S64x2048) ?_ ?_ 384 ?_
    (ix2 n s) ?_ ?_).trans ?_
  · show _ < (3 : ℕ); decide
  · rfl
  · rfl
  · rfl
  · intro a
    match a with
    | ⟨0, _⟩ => exact fun h => absurd rfl h
    | ⟨1, _⟩ => exact fun _ => rfl
  · rfl
  refine (shapeCast_apply _ _ _ (ix3 n (0 : Fin 1) s) ?_).trans ?_
  · rewrite [Shape.rowMajor_val_three, Shape.rowMajor_val_two]
    show (n.val * 1 + 0) * 2048 + s.val = n.val * 2048 + s.val
    omega
  refine (extractStridedSlice_apply _ (kW166 W1) _ _ (ix3 n (⟨132, by omega⟩ : Fin 133) s) ?_).trans ?_
  · intro a
    match a with
    | ⟨0, _⟩ => show n.val = 0 + n.val; omega
    | ⟨1, _⟩ => show 132 = 132 + 0; rfl
    | ⟨2, _⟩ => show s.val = 0 + s.val; omega
  exact kW166_apply W1 n ⟨132, by omega⟩ s

/-- **The first layer's contraction, split the kernel's way.** The reference's sum over the 8640 joined positions is the
    kernel's sum over the 8192 neighbour-embedding positions plus its sum over the 448 remaining ones: the same
    products, grouped differently. -/
theorem layer1_split (b : Fin 4096) (s : Fin 2048) :
    Host.dotGeneral (F := Ideal) (φ₁ := .f32) (φ₂ := .f32) Cert.ReferenceIdeal.dot_S4096x8640_S8640x2048_S4096x2048_1_0_0_1_n_n none
        (refInp TE Vv P C Pol D Pop) W1 (ix2 b s)
      = (∑ q : Fin 8192, kVflat Vv (ix2 b q) * kW1v W1 (ix2 q s))
        + Host.dotGeneral (F := Ideal) (φ₁ := .f32) (φ₂ := .f32) Cert.KernelIdeal.dot_S4096x448_S448x2048_S4096x2048_1_0_0_1_n_n (some .fp32)
            (kSmall TE P C Pol D Pop) (kW1small W1) (ix2 b s) := by
  rw [refDot_apply, kDot_apply, sum_8640, sum_8192, sum_448]
  refine congrArg₂ (· + ·) ?_ (congrArg₂ (· + ·) (congrArg₂ (· + ·) ?_ ?_) ?_)
  · refine Finset.sum_congr rfl fun n _ => Finset.sum_congr rfl fun d _ => ?_
    simp only [refInp_v, kVflat_apply, kW1v_apply]
  · refine Finset.sum_congr rfl fun d _ => ?_
    simp only [refInp_te, kSmall_te, kW1small_te]
  · refine Finset.sum_congr rfl fun n _ => Finset.sum_congr rfl fun e _ => ?_
    simp only [refInp_extra, kSmall_extra, kW1small_extra]
  · refine Finset.sum_congr rfl fun n _ => ?_
    simp only [refInp_pop, kSmall_pop, kW1small_pop]

end Statement

end Cert.Bridge.Layer1
-- ==== Proof.RefLayers.lean ====
/-
  The reference's four dense layers, each read at an index, over the extended reals.
  A dense layer is a contraction over the previous layer's columns plus a bias laid along the rows; all but the last
  are followed by a maximum with zero. Chained: the last layer's entry (b, j) as a threefold nested sum over the first
  layer's output.
-/
import proofs.«423201_j71829033059182_3_alg».proof.Proof.RefReadP
import Idealize.ShloMosaic.Lib.ValueIdx
import Idealize.ShloMosaic.PureOps.Ideal.Laws

noncomputable section

namespace Cert.Bridge.RefLayers

open Cert.ReferenceIdeal Idealize.ShloMosaic Idealize.ShloMosaic.ValueIdx

variable (x0 : (⟨S4096x128, .f32⟩ : BufTy).Contents (Elt Ideal))
  (x1 : (⟨S4096x64, .i32⟩ : BufTy).Contents (Elt Ideal))
  (x3 : (⟨S10000, .f32⟩ : BufTy).Contents (Elt Ideal))
  (x4 : (⟨S10000x128, .f32⟩ : BufTy).Contents (Elt Ideal))
  (x5 : (⟨S8640x2048, .f32⟩ : BufTy).Contents (Elt Ideal))
  (x6 : (⟨S2048, .f32⟩ : BufTy).Contents (Elt Ideal))
  (x7 : (⟨S2048x2048, .f32⟩ : BufTy).Contents (Elt Ideal))
  (x8 : (⟨S2048, .f32⟩ : BufTy).Contents (Elt Ideal))
  (x9 : (⟨S2048x2048, .f32⟩ : BufTy).Contents (Elt Ideal))
  (x10 : (⟨S2048, .f32⟩ : BufTy).Contents (Elt Ideal))
  (x11 : (⟨S2048x64, .f32⟩ : BufTy).Contents (Elt Ideal))
  (x12 : (⟨S64, .f32⟩ : BufTy).Contents (Elt Ideal))

/-! ### The first layer -/

/-- The first layer's bias laid along the rows, at an index. -/
theorem bias1 (b : Fin 4096) (r : Fin 2048) : ReadP.val_main_v71 (F := Ideal) x6 (ix2 b r) = x6 (ix1 r) := by
  rw [ReadP.val_main_v71_apply, ReadP.val_main_v70_apply]
  exact congrArg x6 (funext fun a => match a with | ⟨0, _⟩ => rfl)

/-- The zero the first layer's output is compared with. -/
theorem zero1 (i : S4096x2048.Idx) : ReadP.val_main_call0_v0 (F := Ideal) i = 0 := by
  rw [ReadP.val_main_call0_v0_apply, ReadP.val_main_call0_cst_apply]
  exact Ideal.ofBits_zero_f32

/-- The first layer's output: the contraction plus the bias, cut off below at zero. -/
theorem layer1 (b : Fin 4096) (s : Fin 2048) :
    ReadP.val_main_v73 (F := Ideal) x0 x1 x3 x4 x5 x6 (ix2 b s)
      = max (ReadP.val_main_v69 (F := Ideal) x0 x1 x3 x4 x5 (ix2 b s) + x6 (ix1 s)) 0 := by
  show max (ReadP.val_main_v69 (F := Ideal) x0 x1 x3 x4 x5 (ix2 b s) + ReadP.val_main_v71 (F := Ideal) x6 (ix2 b s))
      (ReadP.val_main_call0_v0 (F := Ideal) (ix2 b s)) = _
  rw [bias1, zero1]

/-! ### The second layer -/

/-- The second layer's contraction over the first layer's output. -/
theorem dot2 (b : Fin 4096) (r : Fin 2048) :
    ReadP.val_main_v74 (F := Ideal) x0 x1 x3 x4 x5 x6 x7 (ix2 b r) = ∑ s : Fin 2048, (ReadP.val_main_v73 (F := Ideal) x0 x1 x3 x4 x5 x6) (ix2 b s) * x7 (ix2 s r) := by
  rw [ReadP.val_main_v74_apply]
  refine Finset.sum_congr rfl fun k _ => ?_
  have el : ReadP.lidx_main_v74 (ix2 b r) k = ix2 b k := funext fun a => match a with | ⟨0, _⟩ => rfl | ⟨1, _⟩ => rfl
  have er : ReadP.ridx_main_v74 (ix2 b r) k = ix2 k r := funext fun a => match a with | ⟨0, _⟩ => rfl | ⟨1, _⟩ => rfl
  rw [el, er]

/-- The second layer's bias laid along the rows, at an index. -/
theorem bias2 (b : Fin 4096) (r : Fin 2048) : ReadP.val_main_v76 (F := Ideal) x8 (ix2 b r) = x8 (ix1 r) := by
  rw [ReadP.val_main_v76_apply, ReadP.val_main_v75_apply]
  exact congrArg x8 (funext fun a => match a with | ⟨0, _⟩ => rfl)

/-- The zero the second layer's output is compared with. -/
theorem zero2 (i : S4096x2048.Idx) : ReadP.val_main_call1_v0 (F := Ideal) i = 0 := by
  rw [ReadP.val_main_call1_v0_apply, ReadP.val_main_call1_cst_apply]
  exact Ideal.ofBits_zero_f32

/-- The second layer's output. -/
theorem layer2 (b : Fin 4096) (r : Fin 2048) :
    ReadP.val_main_v78 (F := Ideal) x0 x1 x3 x4 x5 x6 x7 x8 (ix2 b r)
      = max ((∑ s : Fin 2048, ReadP.val_main_v73 (F := Ideal) x0 x1 x3 x4 x5 x6 (ix2 b s) * x7 (ix2 s r)) + x8 (ix1 r)) 0 := by
  show max (ReadP.val_main_v74 (F := Ideal) x0 x1 x3 x4 x5 x6 x7 (ix2 b r) + ReadP.val_main_v76 (F := Ideal) x8 (ix2 b r))
      (ReadP.val_main_call1_v0 (F := Ideal) (ix2 b r)) = _
  rw [dot2, bias2, zero2]

/-! ### The third layer -/

/-- The third layer's contraction over the second layer's output. -/
theorem dot3 (b : Fin 4096) (r : Fin 2048) :
    ReadP.val_main_v79 (F := Ideal) x0 x1 x3 x4 x5 x6 x7 x8 x9 (ix2 b r) = ∑ s : Fin 2048, (ReadP.val_main_v78 (F := Ideal) x0 x1 x3 x4 x5 x6 x7 x8) (ix2 b s) * x9 (ix2 s r) := by
  rw [ReadP.val_main_v79_apply]
  refine Finset.sum_congr rfl fun k _ => ?_
  have el : ReadP.lidx_main_v79 (ix2 b r) k = ix2 b k := funext fun a => match a with | ⟨0, _⟩ => rfl | ⟨1, _⟩ => rfl
  have er : ReadP.ridx_main_v79 (ix2 b r) k = ix2 k r := funext fun a => match a with | ⟨0, _⟩ => rfl | ⟨1, _⟩ => rfl
  rw [el, er]

/-- The third layer's bias laid along the rows, at an index. -/
theorem bias3 (b : Fin 4096) (r : Fin 2048) : ReadP.val_main_v81 (F := Ideal) x10 (ix2 b r) = x10 (ix1 r) := by
  rw [ReadP.val_main_v81_apply, ReadP.val_main_v80_apply]
  exact congrArg x10 (funext fun a => match a with | ⟨0, _⟩ => rfl)

/-- The zero the third layer's output is compared with. -/
theorem zero3 (i : S4096x2048.Idx) : ReadP.val_main_call2_v0 (F := Ideal) i = 0 := by
  rw [ReadP.val_main_call2_v0_apply, ReadP.val_main_call2_cst_apply]
  exact Ideal.ofBits_zero_f32

/-- The third layer's output, over the second layer's. -/
theorem layer3_step (b : Fin 4096) (q : Fin 2048) :
    ReadP.val_main_v83 (F := Ideal) x0 x1 x3 x4 x5 x6 x7 x8 x9 x10 (ix2 b q)
      = max ((∑ r : Fin 2048, ReadP.val_main_v78 (F := Ideal) x0 x1 x3 x4 x5 x6 x7 x8 (ix2 b r) * x9 (ix2 r q)) + x10 (ix1 q)) 0 := by
  show max (ReadP.val_main_v79 (F := Ideal) x0 x1 x3 x4 x5 x6 x7 x8 x9 (ix2 b q) + ReadP.val_main_v81 (F := Ideal) x10 (ix2 b q))
      (ReadP.val_main_call2_v0 (F := Ideal) (ix2 b q)) = _
  rw [dot3, bias3, zero3]

/-- The third layer's output, over the first layer's. -/
theorem layer3 (b : Fin 4096) (q : Fin 2048) :
    ReadP.val_main_v83 (F := Ideal) x0 x1 x3 x4 x5 x6 x7 x8 x9 x10 (ix2 b q)
      = max ((∑ r : Fin 2048, max ((∑ s : Fin 2048, ReadP.val_main_v73 (F := Ideal) x0 x1 x3 x4 x5 x6 (ix2 b s) * x7 (ix2 s r)) + x8 (ix1 r)) 0 * x9 (ix2 r q)) + x10 (ix1 q)) 0 := by
  rw [layer3_step]
  simp only [layer2]

/-! ### The last layer -/

/-- The last layer's contraction over the third layer's output. -/
theorem dot4 (b : Fin 4096) (r : Fin 64) :
    ReadP.val_main_v84 (F := Ideal) x0 x1 x3 x4 x5 x6 x7 x8 x9 x10 x11 (ix2 b r) = ∑ s : Fin 2048, (ReadP.val_main_v83 (F := Ideal) x0 x1 x3 x4 x5 x6 x7 x8 x9 x10) (ix2 b s) * x11 (ix2 s r) := by
  rw [ReadP.val_main_v84_apply]
  refine Finset.sum_congr rfl fun k _ => ?_
  have el : ReadP.lidx_main_v84 (ix2 b r) k = ix2 b k := funext fun a => match a with | ⟨0, _⟩ => rfl | ⟨1, _⟩ => rfl
  have er : ReadP.ridx_main_v84 (ix2 b r) k = ix2 k r := funext fun a => match a with | ⟨0, _⟩ => rfl | ⟨1, _⟩ => rfl
  rw [el, er]

/-- The last layer's bias laid along the rows, at an index. -/
theorem bias4 (b : Fin 4096) (r : Fin 64) : ReadP.val_main_v86 (F := Ideal) x12 (ix2 b r) = x12 (ix1 r) := by
  rw [ReadP.val_main_v86_apply, ReadP.val_main_v85_apply]
  exact congrArg x12 (funext fun a => match a with | ⟨0, _⟩ => rfl)

/-- The last layer's output, over the third layer's. -/
theorem layer4_step (b : Fin 4096) (j : Fin 64) :
    ReadP.val_main_v87 (F := Ideal) x0 x1 x3 x4 x5 x6 x7 x8 x9 x10 x11 x12 (ix2 b j)
      = (∑ q : Fin 2048, ReadP.val_main_v83 (F := Ideal) x0 x1 x3 x4 x5 x6 x7 x8 x9 x10 (ix2 b q) * x11 (ix2 q j)) + x12 (ix1 j) := by
  show ReadP.val_main_v84 (F := Ideal) x0 x1 x3 x4 x5 x6 x7 x8 x9 x10 x11 (ix2 b j) + ReadP.val_main_v86 (F := Ideal) x12 (ix2 b j) = _
  rw [dot4, bias4]

/-- The last layer's output as a threefold nested sum over the first layer's output. -/
theorem layers (b : Fin 4096) (j : Fin 64) :
    ReadP.val_main_v87 (F := Ideal) x0 x1 x3 x4 x5 x6 x7 x8 x9 x10 x11 x12 (ix2 b j)
      = (∑ q : Fin 2048, max ((∑ r : Fin 2048, max ((∑ s : Fin 2048, ReadP.val_main_v73 (F := Ideal) x0 x1 x3 x4 x5 x6 (ix2 b s) * x7 (ix2 s r)) + x8 (ix1 r)) 0 * x9 (ix2 r q)) + x10 (ix1 q)) 0 * x11 (ix2 q j)) + x12 (ix1 j) := by
  rw [layer4_step]
  simp only [layer3]

end Cert.Bridge.RefLayers

end
-- ==== Proof.KIFinite.lean ====
/-
  From the precondition to real entries. The precondition is the conjunction, over the float inputs, of
  "every entry has absolute value below +∞". For an extended real x, max x (-x) < ⊤ excludes both infinities, so x is
  the image of a real number. Here: the first input and the fifth input of the program.
-/
import proofs.«423201_j71829033059182_3_alg».proof.Defs
import Idealize.ShloMosaic.Lib.ReduceAll
import Idealize.ShloMosaic.Lib.ValueIdx

noncomputable section

namespace Cert.Bridge.Finite

open Idealize.ShloMosaic Idealize.SL.Sem

/-- The scalar shape has one index. -/
instance : Subsingleton Cert.Pre_finite_inputs.S_.Idx := ⟨fun a b => funext fun d => d.elim0⟩

/-- The bit pattern 0x7F800000 read as an extended real is +∞. -/
theorem inf_bits : Ideal.ofBits .f32 0x7F800000#32 = (⊤ : EReal) := by simp [Ideal.ofBits, Ideal.ieee]

/-- An extended real whose absolute value is below +∞ is a real number. -/
theorem real_of_abs_lt (x : EReal) (h : Ideal.cmp .olt (max x (-x)) (Ideal.ofBits .f32 0x7F800000#32) = 1#1) :
    ∃ r : ℝ, x = (r : EReal) := by
  rw [inf_bits] at h
  induction x using EReal.rec with
  | bot => simp [Ideal.cmp] at h
  | coe r => exact ⟨r, rfl⟩
  | top => simp [Ideal.cmp] at h

/-- A conjunction of one-bit vectors is 1 at an index exactly when both are. -/
theorem vec_andi_eq_one {s : Shape} (a b : IVec s 1) (i : s.Idx) : andi a b i = 1#1 ↔ a i = 1#1 ∧ b i = 1#1 :=
  IntOp.andi_eq_one

variable [Cert.Pre_finite_inputs.Facts]

/-- Being the image of a real number. -/
def IsReal (x : EReal) : Prop := ∃ r : ℝ, x = (r : EReal)

/-- The two conjuncts of the precondition that speak of the first and of the fifth input, each read at every entry. -/
theorem reals (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg4) i)) := by
  have h := congrFun (hpre c) ValueIdx.ix0
  dsimp only [Cert.Pre_finite_inputs.fn, Cert.Pre_finite_inputs.fn_part1, Cert.Pre_finite_inputs.fn_part2,
    Cert.Pre_finite_inputs.fn_part3] at h
  simp only [vec_andi_eq_one] at h
  obtain ⟨⟨⟨⟨⟨⟨⟨⟨⟨⟨⟨h0, -⟩, -⟩, h4⟩, -⟩, -⟩, -⟩, -⟩, -⟩, -⟩, -⟩, -⟩ := h
  exact ⟨fun i => real_of_abs_lt _ (Host.reduce_andi_all _ _ _ _ _ h0 i),
    fun i => real_of_abs_lt _ (Host.reduce_andi_all _ _ _ _ _ h4 i)⟩

/-- Every entry of the first input is a real number. -/
theorem real_arg0 (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ, m ((c.tc : Thread Cert.KernelIdeal.nD Cert.KernelIdeal.τ).loc Cert.KernelIdeal.main_arg0) i = (r : EReal) :=
  fun i => (reals m hpre c).1 i

/-- Every entry of the fifth input is a real number. -/
theorem real_arg4 (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ, m ((c.tc : Thread Cert.KernelIdeal.nD Cert.KernelIdeal.τ).loc Cert.KernelIdeal.main_arg4) i = (r : EReal) :=
  fun i => (reals m hpre c).2 i

end Cert.Bridge.Finite

end
-- ==== Proof.KIHidden.lean ====
/- The first hidden layer is the same in both programs. The kernel program's first call leaves, at row b and column s,
   relu((x·w + a) + bias): x the neighbours' embeddings flattened to 64·128 entries a row, w the matching 8192 weight
   rows, a the 448 remaining entries of the row contracted with the 448 remaining weight rows. The reference contracts
   the whole joined row of 8640 entries with the whole weight matrix, adds the bias and cuts off below at zero. The
   two contractions are sums of the same products; on real inputs the reference's polarization feature is the inner
   product the kernel uses in its place. -/
import proofs.«423201_j71829033059182_3_alg».proof.Proof.KIRun
import proofs.«423201_j71829033059182_3_alg».proof.Proof.KIValue0
import proofs.«423201_j71829033059182_3_alg».proof.Proof.KIFeat
import proofs.«423201_j71829033059182_3_alg».proof.Proof.KILayer1
import proofs.«423201_j71829033059182_3_alg».proof.Proof.RefLayers
import proofs.«423201_j71829033059182_3_alg».proof.Proof.KIFinite
import proofs.«423201_j71829033059182_3_alg».proof.Proof.KIHost
import Idealize.ShloMosaic.Lib.ValueIdx
import Idealize.ShloMosaic.PureOps.Ideal

set_option maxRecDepth 16384

noncomputable section

open scoped BigOperators

namespace Cert.Bridge.Hidden

open Idealize.ShloMosaic Idealize.ShloMosaic.TcCoe Idealize.SL.Sem Idealize.ShloMosaic.ValueIdx
open Cert.Bridge.Layer1

/-! ## Over abstract arrays -/

section Core

open Cert.ReferenceIdeal

variable (A0 : (⟨S4096x128, .f32⟩ : BufTy).Contents (Elt Ideal))
  (A1 : (⟨S4096x64, .i32⟩ : BufTy).Contents (Elt Ideal))
  (A3 : (⟨S10000, .f32⟩ : BufTy).Contents (Elt Ideal))
  (A4 : (⟨S10000x128, .f32⟩ : BufTy).Contents (Elt Ideal))
  (A5 : (⟨S8640x2048, .f32⟩ : BufTy).Contents (Elt Ideal))
  (A6 : (⟨S2048, .f32⟩ : BufTy).Contents (Elt Ideal))

/-- The reference's joined first-layer input is the joined row of its parts: the target embedding, then per neighbour
    its embedding, the distance, the cosine, the polarization, the inner product, and the popularity. -/
theorem inp_eq : ReadP.val_main_v68 (F := Ideal) A0 A1 A3 A4
    = refInp A0 (ReadP.val_main_v6 (F := Ideal) A1 A4) (ReadP.val_main_v34 (F := Ideal) A0 A1 A4)
        (ReadP.val_main_v44 (F := Ideal) A0 A1 A4) (ReadP.val_main_v51 (F := Ideal) A0 A1 A4)
        (ReadP.val_main_v37 (F := Ideal) A0 A1 A4) (ReadP.val_main_v59 (F := Ideal) A1 A3) := by
  unfold ReadP.val_main_v68 ReadP.val_main_v67 ReadP.val_main_v66 ReadP.val_main_v65 ReadP.val_main_v64
    ReadP.val_main_v63 ReadP.val_main_v62 ReadP.val_main_v61 ReadP.val_main_v60 refInp
  rfl

/-- For a kernel-side x, w, a and bias row that are what the host operations before the first call compute from the
    same inputs (the features named by what the reference calls them), relu((x·w + a) + bias) at row `b`, column `s`
    is the reference's first hidden layer there. `hpol`: the polarization feature is the inner product. -/
theorem hidden_core
    (hpol : ReadP.val_main_v51 (F := Ideal) A0 A1 A4 = ReadP.val_main_v37 (F := Ideal) A0 A1 A4)
    (K6 : (⟨Cert.KernelIdeal.S4096x64x128, .f32⟩ : BufTy).Contents (Elt Ideal))
    (K39 K46 K15 K54 : (⟨Cert.KernelIdeal.S4096x64, .f32⟩ : BufTy).Contents (Elt Ideal))
    (h6 : K6 = ReadP.val_main_v6 (F := Ideal) A1 A4) (h39 : K39 = ReadP.val_main_v34 (F := Ideal) A0 A1 A4)
    (h46 : K46 = ReadP.val_main_v44 (F := Ideal) A0 A1 A4) (h15 : K15 = ReadP.val_main_v37 (F := Ideal) A0 A1 A4)
    (h54 : K54 = ReadP.val_main_v59 (F := Ideal) A1 A3)
    (X : FVec Ideal Cert.KernelIdeal.S4096x8192 .bf16) (Sm : FVec Ideal Cert.KernelIdeal.S4096x2048 .f32)
    (Wv : FVec Ideal Cert.KernelIdeal.S8192x2048 .bf16) (B : FVec Ideal Cert.KernelIdeal.S1x2048 .f32)
    (hX : X = kVflat K6) (hW : Wv = kW1v A5)
    (hS : Sm = Host.dotGeneral (F := Ideal) (φ₁ := .f32) (φ₂ := .f32) Cert.KernelIdeal.dot_S4096x448_S448x2048_S4096x2048_1_0_0_1_n_n (some .fp32)
        (kSmall A0 K39 K46 K15 K15 K54) (kW1small A5))
    (hB : ∀ s : Fin 2048, B (ix2 (0 : Fin 1) s) = A6 (ix1 s))
    (b : Fin 4096) (s : Fin 2048) :
    max (((∑ q : Fin 8192, X (ix2 b q) * Wv (ix2 q s)) + Sm (ix2 b s)) + B (ix2 (0 : Fin 1) s)) 0
      = ReadP.val_main_v73 (F := Ideal) A0 A1 A3 A4 A5 A6 (ix2 b s) := by
  subst h6 h39 h46 h15 h54 hX hW hS
  refine Eq.trans ?_ (Cert.Bridge.RefLayers.layer1 A0 A1 A3 A4 A5 A6 b s).symm
  rw [hB s]
  refine congrArg (fun z : EReal => max (z + A6 (ix1 s)) 0) ?_
  have e69 : ReadP.val_main_v69 (F := Ideal) A0 A1 A3 A4 A5
      = Host.dotGeneral (F := Ideal) (φ₁ := .f32) (φ₂ := .f32) dot_S4096x8640_S8640x2048_S4096x2048_1_0_0_1_n_n none
          (ReadP.val_main_v68 (F := Ideal) A0 A1 A3 A4) A5 := rfl
  rw [e69, inp_eq, hpol]
  exact (layer1_split A0 (ReadP.val_main_v6 (F := Ideal) A1 A4) (ReadP.val_main_v34 (F := Ideal) A0 A1 A4)
    (ReadP.val_main_v44 (F := Ideal) A0 A1 A4) (ReadP.val_main_v37 (F := Ideal) A0 A1 A4) (ReadP.val_main_v37 (F := Ideal) A0 A1 A4)
    (ReadP.val_main_v59 (F := Ideal) A1 A3) A5 b s).symm

end Core

/-! ## At the run's buffer contents -/

section Run

open Cert.KernelIdeal Cert.KernelIdeal.Gen Cert.KernelIdeal.Gen'

variable [Cert.Pre_finite_inputs.Facts]

/-- After the kernel program's first call, its result array at row `b`, column `s` is the reference's first hidden
    layer of the same inputs there, on inputs whose float entries are real numbers. -/
theorem h1_eq (m : (ℓ : Loc nD τ sig) → Buf (Elt Ideal) ℓ) (ρ : Dev nD → PrngReg) (hpre : Cert.Pre_KernelIdeal m)
    (c : Dev nD) (b : Fin 4096) (s : Fin 2048) :
    (Cert.KernelIdeal.Gen'.W6 m ρ c (Proc.devRef .tc main_v83) : FVec Ideal S4096x2048 .bf16) (ix2 b s)
      = Cert.ReferenceIdeal.ReadP.val_main_v73 (F := Ideal) (m ((c.tc : Thread nD τ).loc main_arg0)) (m ((c.tc : Thread nD τ).loc main_arg1))
          (m ((c.tc : Thread nD τ).loc main_arg3)) (m ((c.tc : Thread nD τ).loc main_arg4)) (m ((c.tc : Thread nD τ).loc main_arg5))
          (m ((c.tc : Thread nD τ).loc main_arg6)) (ix2 b s) := by
  have hA0 := Cert.Bridge.Finite.real_arg0 m hpre c
  have hA4 := Cert.Bridge.Finite.real_arg4 m hpre c
  refine ((congrFun (W6_arr m ρ c 4) (ix2 b s)).trans (region0_value (V5 m ρ) c b s)).trans ?_
  exact hidden_core (m ((c.tc : Thread nD τ).loc main_arg0)) (m ((c.tc : Thread nD τ).loc main_arg1))
    (m ((c.tc : Thread nD τ).loc main_arg3)) (m ((c.tc : Thread nD τ).loc main_arg4)) (m ((c.tc : Thread nD τ).loc main_arg5))
    (m ((c.tc : Thread nD τ).loc main_arg6))
    (Cert.Bridge.Feat.pol (W0 m ρ c) hA0 hA4)
    (Cert.Bridge.Feat.K (W0 m ρ c) main_v6) (Cert.Bridge.Feat.K (W0 m ρ c) main_v39) (Cert.Bridge.Feat.K (W0 m ρ c) main_v46)
    (Cert.Bridge.Feat.K (W0 m ρ c) main_v15) (Cert.Bridge.Feat.K (W0 m ρ c) main_v54)
    (Cert.Bridge.Feat.f6 (W0 m ρ c)) (Cert.Bridge.Feat.f39 (W0 m ρ c) hA0 hA4) (Cert.Bridge.Feat.f46 (W0 m ρ c))
    (Cert.Bridge.Feat.f15 (W0 m ρ c)) (Cert.Bridge.Feat.f54 (W0 m ρ c))
    (arrX0 (V5 m ρ) c) (arrS0 (V5 m ρ) c) (arrW0 (V5 m ρ) c) (arrB0 (V5 m ρ) c)
    ((Cert.Bridge.Host.entry0_v61 (W1 m ρ c)).trans (Cert.Bridge.Host.K_v61 (W0 m ρ c)))
    ((Cert.Bridge.Host.entry0_v69 (W1 m ρ c)).trans (Cert.Bridge.Host.K_v69 (W0 m ρ c)))
    ((Cert.Bridge.Host.entry0_v75 (W1 m ρ c)).trans (Cert.Bridge.Host.K_v75 (W0 m ρ c)))
    (fun s' => Cert.Bridge.Host.entry_v82_apply (W0 m ρ c) s')
    b s

end Run

end Cert.Bridge.Hidden

end
-- ==== Proof.KILogits.lean ====
/- The logits are the same in both programs, on the extended reals: entry (b, j) of the first 64 columns of the
   kernel program's second region result is the reference's last dense layer at (b, j). Both are the same threefold
   nested sum over the first hidden layer — the kernel's by reading the region's result through the host operations
   around it, the reference's by reading its four layers at an index — and the two first hidden layers agree. -/
import proofs.«423201_j71829033059182_3_alg».proof.Proof.KILogitsKernel
import proofs.«423201_j71829033059182_3_alg».proof.Proof.KIHidden
import proofs.«423201_j71829033059182_3_alg».proof.Proof.RefLayers

set_option maxRecDepth 16384

noncomputable section

namespace Cert.Bridge.Logits

open Cert.KernelIdeal Cert.KernelIdeal.Gen Cert.KernelIdeal.Gen'
open Idealize.ShloMosaic Idealize.ShloMosaic.TcCoe Idealize.ShloMosaic.ValueIdx Idealize.SL.Sem
open scoped BigOperators

/-- Entry (b, j), j < 64, of the kernel program's logits is the reference's. -/
theorem logits_eq [Cert.Pre_finite_inputs.Facts] (m : (ℓ : Loc nD τ sig) → Buf (Elt Ideal) ℓ) (ρ : Dev nD → PrngReg)
    (hpre : Cert.Pre_KernelIdeal m) (c : Dev nD) (b : Fin 4096) (j : Fin 64) :
    (W8 m ρ c (Proc.devRef .tc main_v86) : FVec Ideal S4096x128 .f32) (ix2 b (⟨j.val, by omega⟩ : Fin 128))
      = Cert.ReferenceIdeal.ReadP.val_main_v87 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (ix2 b j) := by
  refine (kernel_logits m ρ c b j
    (fun s => Cert.ReferenceIdeal.ReadP.val_main_v73 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (ix2 b s))
    (fun s => Cert.Bridge.Hidden.h1_eq m ρ hpre c b s)).trans ?_
  exact (Cert.Bridge.RefLayers.layers (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) b j).symm

end Cert.Bridge.Logits

end
-- ==== Proof.KIHostRef.lean ====
/- The reference program ends with the same operations as the kernel's program: its probabilities and its loss are the
   two functions of the logits (and of the targets) that the kernel's last stretch computes, applied to the reference's
   own logits. -/
import proofs.«423201_j71829033059182_3_alg».proof.Proof.KIHost
import proofs.«423201_j71829033059182_3_alg».proof.Proof.RefReadP

set_option maxRecDepth 16384

noncomputable section

namespace Cert.Bridge.Host

open Idealize.ShloMosaic

variable
  (x0 : (⟨Cert.ReferenceIdeal.S4096x128, .f32⟩ : BufTy).Contents (Elt Ideal))
  (x1 : (⟨Cert.ReferenceIdeal.S4096x64, .i32⟩ : BufTy).Contents (Elt Ideal))
  (x2 : (⟨Cert.ReferenceIdeal.S4096x64, .f32⟩ : BufTy).Contents (Elt Ideal))
  (x3 : (⟨Cert.ReferenceIdeal.S10000, .f32⟩ : BufTy).Contents (Elt Ideal))
  (x4 : (⟨Cert.ReferenceIdeal.S10000x128, .f32⟩ : BufTy).Contents (Elt Ideal))
  (x5 : (⟨Cert.ReferenceIdeal.S8640x2048, .f32⟩ : BufTy).Contents (Elt Ideal))
  (x6 : (⟨Cert.ReferenceIdeal.S2048, .f32⟩ : BufTy).Contents (Elt Ideal))
  (x7 : (⟨Cert.ReferenceIdeal.S2048x2048, .f32⟩ : BufTy).Contents (Elt Ideal))
  (x8 : (⟨Cert.ReferenceIdeal.S2048, .f32⟩ : BufTy).Contents (Elt Ideal))
  (x9 : (⟨Cert.ReferenceIdeal.S2048x2048, .f32⟩ : BufTy).Contents (Elt Ideal))
  (x10 : (⟨Cert.ReferenceIdeal.S2048, .f32⟩ : BufTy).Contents (Elt Ideal))
  (x11 : (⟨Cert.ReferenceIdeal.S2048x64, .f32⟩ : BufTy).Contents (Elt Ideal))
  (x12 : (⟨Cert.ReferenceIdeal.S64, .f32⟩ : BufTy).Contents (Elt Ideal))

/-- The reference's probabilities are the tail applied to its logits. -/
theorem ref_v93_eq_tailDist :
    Cert.ReferenceIdeal.ReadP.val_main_v93 (F := Ideal) x0 x1 x3 x4 x5 x6 x7 x8 x9 x10 x11 x12
      = tailDist (Cert.ReferenceIdeal.ReadP.val_main_v87 (F := Ideal) x0 x1 x3 x4 x5 x6 x7 x8 x9 x10 x11 x12) := rfl

/-- The reference's loss is the tail applied to its logits and the targets. -/
theorem ref_v104_eq_tailLoss :
    Cert.ReferenceIdeal.ReadP.val_main_v104 (F := Ideal) x0 x1 x2 x3 x4 x5 x6 x7 x8 x9 x10 x11 x12
      = tailLoss (Cert.ReferenceIdeal.ReadP.val_main_v87 (F := Ideal) x0 x1 x3 x4 x5 x6 x7 x8 x9 x10 x11 x12) x2 := rfl

end Cert.Bridge.Host
-- ==== Proof.KIBridge.lean ====
/- The algebraic conjunct: at the extended-real floats, from memories that agree on the thirteen arguments, the kernel
   program and the reference program both run, leave their arguments unchanged, and end with equal probabilities and
   equal losses. Both programs end with the same two functions of the logits (and of the targets); the kernel's logits,
   the first 64 columns of its second region's result, equal the reference's entry by entry. -/
import proofs.«423201_j71829033059182_3_alg».proof.Defs
import proofs.«423201_j71829033059182_3_alg».proof.Proof.Gen.ReferenceIdeal
import proofs.«423201_j71829033059182_3_alg».proof.Proof.Gen.Pre_finite_inputs
import proofs.«423201_j71829033059182_3_alg».proof.Proof.KIRun
import proofs.«423201_j71829033059182_3_alg».proof.Proof.KILogits
import proofs.«423201_j71829033059182_3_alg».proof.Proof.KIHostRef
import proofs.«423201_j71829033059182_3_alg».proof.Proof.RefResP
import proofs.«423201_j71829033059182_3_alg».proof.Proof.RefReadP
import Idealize.ShloMosaic.Lib.ValueIdx

set_option maxRecDepth 16384

noncomputable section

namespace Cert.Bridge

open Idealize.ShloMosaic Idealize.ShloMosaic.TcCoe Idealize.SL.Sem Idealize.ShloMosaic.ValueIdx
open Cert.KernelIdeal Cert.KernelIdeal.Gen Cert.KernelIdeal.Gen'

/-- Both programs run from agreeing arguments, keep them, and end with equal probabilities and equal losses. -/
theorem algebraic : Cert.algebraic_KernelIdeal_ReferenceIdeal := by
  intro m ρ m' ρ' hpre hagree
  -- the targets are not written before the last stretch of host operations
  have hT : ∀ c : Dev nD, W8 (F := Ideal) m ρ c (Proc.devRef .tc main_arg2) = m ((c.tc : Thread nD τ).loc main_arg2) := fun c => by
    have h2 : main_arg2 ∉ (hostOps2_W : List (Ref sig .tc)) := by decide
    have e : W9 (F := Ideal) m ρ c (Proc.devRef .tc main_arg2) = W8 (F := Ideal) m ρ c (Proc.devRef .tc main_arg2) :=
      StableHlo.after_of_writes_sub hostOps2 _ hostOps2_writes h2
    exact e.symm.trans (W9_main_arg2 m ρ c)
  -- the reference's logits are the first 64 columns of the kernel's second region's result
  have hL : ∀ c : Dev nD,
      Cert.ReferenceIdeal.ReadP.val_main_v87 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        = extractStridedSlice S4096x64 ![0, 0] (W8 (F := Ideal) m ρ c (Proc.devRef .tc main_v86))
            Facts₀.slices_S4096x128_S4096x64_0_0 := fun c => by
    funext i
    obtain ⟨b, j, rfl⟩ : ∃ (b : Fin 4096) (j : Fin 64), i = ix2 b j := ⟨i 0, i 1, eq_ix2 i⟩
    rw [Cert.Bridge.Host.slice_cols64_apply]
    exact (Cert.Bridge.Logits.logits_eq m ρ hpre c b j).symm
  -- the probabilities, of the kernel's arguments
  have hd : ∀ c : Dev nD,
      Cert.ReferenceIdeal.ReadP.val_main_v93 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        = W9 (F := Ideal) m ρ c (Proc.devRef .tc main_v93) := fun c => by
    rw [Cert.Bridge.Host.ref_v93_eq_tailDist]
    show _ = StableHlo.after (hostOps2 (F := Ideal)) (W8 (F := Ideal) m ρ c) (Proc.devRef .tc main_v93)
    rw [Cert.Bridge.Host.after_hostOps2_v93 (W8 (F := Ideal) m ρ c)]
    exact congrArg Cert.Bridge.Host.tailDist (hL c)
  -- the loss, of the kernel's arguments
  have hl : ∀ c : Dev nD,
      Cert.ReferenceIdeal.ReadP.val_main_v104 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        = W9 (F := Ideal) m ρ c (Proc.devRef .tc main_v104) := fun c => by
    rw [Cert.Bridge.Host.ref_v104_eq_tailLoss]
    show _ = StableHlo.after (hostOps2 (F := Ideal)) (W8 (F := Ideal) m ρ c) (Proc.devRef .tc main_v104)
    rw [Cert.Bridge.Host.after_hostOps2_v104 (W8 (F := Ideal) m ρ c), hT c]
    exact congrArg (fun L => Cert.Bridge.Host.tailLoss L _) (hL c)
  refine ⟨fun c => W9 (F := Ideal) m ρ c (Proc.devRef .tc main_v93),
          fun c => W9 (F := Ideal) m ρ c (Proc.devRef .tc main_v104), ?_, ?_⟩
  · exact (θ_run defs _ _).mono (fun r h c =>
      ⟨h c _ (mem_uc main_v93 (by decide)),
       h c _ (mem_uc main_v104 (by decide)),
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c),
      (h c _ (mem_uc main_arg9 (by decide))).trans (W9_main_arg9 m ρ c),
      (h c _ (mem_uc main_arg10 (by decide))).trans (W9_main_arg10 m ρ c),
      (h c _ (mem_uc main_arg11 (by decide))).trans (W9_main_arg11 m ρ c),
      (h c _ (mem_uc main_arg12 (by decide))).trans (W9_main_arg12 m ρ c)⟩) (run_all (F := Ideal) m ρ)
  · refine (θ_run Cert.ReferenceIdeal.defs _ _).mono (fun _ h c =>
      ⟨(h c).1.trans ?_, (h c).2.1.trans ?_, (h c).2.2⟩)
      (Cert.ReferenceIdeal.ValueP.run (F := Ideal) m' ρ')
    · obtain ⟨a0, a1, a2, a3, a4, a5, a6, a7, a8, a9, a10, a11, a12⟩ := hagree c
      rw [a0, a1, a3, a4, a5, a6, a7, a8, a9, a10, a11, a12]
      exact hd c
    · obtain ⟨a0, a1, a2, a3, a4, a5, a6, a7, a8, a9, a10, a11, a12⟩ := hagree c
      rw [a0, a1, a2, a3, a4, a5, a6, a7, a8, a9, a10, a11, a12]
      exact hl c

end Cert.Bridge
-- ==== Proof.lean ====
/- The certificate of one kernel against its reference: a hyperbolic-feature neighbour classifier.
   Both programs gather neighbour embeddings v from a table, build per-neighbour features from the target embedding u and v
   (the Poincare distance arccosh(1 + 2|u-v|^2 / ((1-|u|^2)(1-|v|^2))), the cosine, the polarization (|u+v|^2 - |u-v|^2)/4,
   the inner product u.v, and log(1 + frequency)), feed the joined row through four dense layers with relu between them,
   and return the sigmoid of the logits and the mean binary cross-entropy.
   The kernel differs from the reference in three ways, none of which changes the value over the reals on finite inputs:
   it computes |u-v|^2 as |u|^2 + |v|^2 - 2 u.v and takes the polarization to be u.v (two identities of real inner
   products, which need every entry of u and v to be a real: that is what the precondition gives); it lays the first
   layer's 8640 joined positions out as 8192 neighbour-embedding positions, contracted inside the first pipelined region,
   plus 448 remaining positions contracted on the host and added inside the region (the same products, summed in another
   grouping: only commutativity and associativity of addition on the extended reals); and it runs the layers in two
   pipelined regions over row blocks (64 rows, then 512 rows), with the last weight matrix zero-padded from 64 to 128
   columns and the extra columns dropped afterwards. A change of float format is the identity at the ideal instance.
   The three frames: the kernel program's run (two regions among stretches of host operations, at the word-level and at the
   ideal instance from one text) ends with every unscoped buffer at the last boundary's contents, and no stretch or region
   writes an argument; the reference's frame is its run with the results dropped. The idealization rewrote nothing. -/
import proofs.«423201_j71829033059182_3_alg».proof.Defs
import proofs.«423201_j71829033059182_3_alg».proof.Proof.Gen.Kernel
import proofs.«423201_j71829033059182_3_alg».proof.Proof.Gen.KernelIdeal
import proofs.«423201_j71829033059182_3_alg».proof.Proof.Gen.ReferenceIdeal
import proofs.«423201_j71829033059182_3_alg».proof.Proof.Gen.Pre_finite_inputs
import proofs.«423201_j71829033059182_3_alg».proof.Proof.RefResP
import proofs.«423201_j71829033059182_3_alg».proof.Proof.KRun
import proofs.«423201_j71829033059182_3_alg».proof.Proof.KIRun
import proofs.«423201_j71829033059182_3_alg».proof.Proof.KIBridge
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen'.frame m ρ

/-- So does the idealized kernel program: the same text at the ideal instance. -/
theorem frame_ki : Cert.frame_KernelIdeal := fun m ρ _ => Cert.KernelIdeal.Gen'.frame m ρ

/-- The reference is host operations only: its frame is its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Bridge.algebraic⟩

end Cert.Proof

end
